-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1x128 : Shape := ⟨3, ![20000, 1, 128]⟩
abbrev S20000x3x128 : Shape := ⟨3, ![20000, 3, 128]⟩
abbrev S20000x5x128 : Shape := ⟨3, ![20000, 5, 128]⟩
abbrev S20000x7x128 : Shape := ⟨3, ![20000, 7, 128]⟩
abbrev S20000x9x128 : Shape := ⟨3, ![20000, 9, 128]⟩
abbrev S20000x11x128 : Shape := ⟨3, ![20000, 11, 128]⟩
abbrev S6x128x256 : Shape := ⟨3, ![6, 128, 256]⟩
abbrev S_ : Shape := ⟨0, ![]⟩

class Facts : Prop where
  bcast_S_S20000x1x128 : S_.BroadcastsInDim S20000x1x128 (![] : Fin 0 → Fin S20000x1x128.rank)
  reducesTo_S20000x1x128_S_d0_1_2 : S20000x1x128.ReducesTo [0, 1, 2] S_
  h_S_ : 0 < S_.numel
  bcast_S_S20000x3x128 : S_.BroadcastsInDim S20000x3x128 (![] : Fin 0 → Fin S20000x3x128.rank)
  reducesTo_S20000x3x128_S_d0_1_2 : S20000x3x128.ReducesTo [0, 1, 2] S_
  bcast_S_S20000x5x128 : S_.BroadcastsInDim S20000x5x128 (![] : Fin 0 → Fin S20000x5x128.rank)
  reducesTo_S20000x5x128_S_d0_1_2 : S20000x5x128.ReducesTo [0, 1, 2] S_
  bcast_S_S20000x7x128 : S_.BroadcastsInDim S20000x7x128 (![] : Fin 0 → Fin S20000x7x128.rank)
  reducesTo_S20000x7x128_S_d0_1_2 : S20000x7x128.ReducesTo [0, 1, 2] S_
  bcast_S_S20000x9x128 : S_.BroadcastsInDim S20000x9x128 (![] : Fin 0 → Fin S20000x9x128.rank)
  reducesTo_S20000x9x128_S_d0_1_2 : S20000x9x128.ReducesTo [0, 1, 2] S_
  bcast_S_S20000x11x128 : S_.BroadcastsInDim S20000x11x128 (![] : Fin 0 → Fin S20000x11x128.rank)
  reducesTo_S20000x11x128_S_d0_1_2 : S20000x11x128.ReducesTo [0, 1, 2] S_
  bcast_S_S6x128x256 : S_.BroadcastsInDim S6x128x256 (![] : Fin 0 → Fin S6x128x256.rank)
  reducesTo_S6x128x256_S_d0_1_2 : S6x128x256.ReducesTo [0, 1, 2] S_

variable [Facts]

def fn_part1 {F : FTy → Type} [FloatOps F] (main_arg4 : FVec F S20000x9x128 .f32) (main_arg5 : FVec F S20000x11x128 .f32) (main_arg6 : FVec F S6x128x256 .f32) (main_v13 : IVec S_ 1) (main_v16 : IVec S20000x7x128 1) : IVec S_ 1 :=
  let main_c_5 : IVec S_ 1 := constantI S_ 1 1#1
  let main_v17 : IVec S_ 1 := (fun x v => Host.reduce IntOp.andi x v reducesTo_S20000x7x128_S_d0_1_2 h_S_) main_v16 main_c_5
  let main_v18 : IVec S_ 1 := andi main_v13 main_v17
  let main_v19 : FVec F S20000x9x128 .f32 := Host.absf main_arg4
  let main_cst_6 : FVec F S_ .f32 := constant S_ .f32 0x7F800000#32
  let main_v20 : FVec F S20000x9x128 .f32 := broadcastInDim S20000x9x128 ![] bcast_S_S20000x9x128 main_cst_6
  let main_v21 : IVec S20000x9x128 1 := cmpf .olt main_v19 main_v20
  let main_c_7 : IVec S_ 1 := constantI S_ 1 1#1
  let main_v22 : IVec S_ 1 := (fun x v => Host.reduce IntOp.andi x v reducesTo_S20000x9x128_S_d0_1_2 h_S_) main_v21 main_c_7
  let main_v23 : IVec S_ 1 := andi main_v18 main_v22
  let main_v24 : FVec F S20000x11x128 .f32 := Host.absf main_arg5
  let main_cst_8 : FVec F S_ .f32 := constant S_ .f32 0x7F800000#32
  let main_v25 : FVec F S20000x11x128 .f32 := broadcastInDim S20000x11x128 ![] bcast_S_S20000x11x128 main_cst_8
  let main_v26 : IVec S20000x11x128 1 := cmpf .olt main_v24 main_v25
  let main_c_9 : IVec S_ 1 := constantI S_ 1 1#1
  let main_v27 : IVec S_ 1 := (fun x v => Host.reduce IntOp.andi x v reducesTo_S20000x11x128_S_d0_1_2 h_S_) main_v26 main_c_9
  let main_v28 : IVec S_ 1 := andi main_v23 main_v27
  let main_v29 : FVec F S6x128x256 .f32 := Host.absf main_arg6
  let main_cst_10 : FVec F S_ .f32 := constant S_ .f32 0x7F800000#32
  let main_v30 : FVec F S6x128x256 .f32 := broadcastInDim S6x128x256 ![] bcast_S_S6x128x256 main_cst_10
  let main_v31 : IVec S6x128x256 1 := cmpf .olt main_v29 main_v30
  let main_c_11 : IVec S_ 1 := constantI S_ 1 1#1
  let main_v32 : IVec S_ 1 := (fun x v => Host.reduce IntOp.andi x v reducesTo_S6x128x256_S_d0_1_2 h_S_) main_v31 main_c_11
  let main_v33 : IVec S_ 1 := andi main_v28 main_v32
  main_v33

def fn {F : FTy → Type} [FloatOps F] (main_arg0 : FVec F S20000x1x128 .f32) (main_arg1 : FVec F S20000x3x128 .f32) (main_arg2 : FVec F S20000x5x128 .f32) (main_arg3 : FVec F S20000x7x128 .f32) (main_arg4 : FVec F S20000x9x128 .f32) (main_arg5 : FVec F S20000x11x128 .f32) (main_arg6 : FVec F S6x128x256 .f32) : IVec S_ 1 :=
  let main_v0 : FVec F S20000x1x128 .f32 := Host.absf main_arg0
  let main_cst : FVec F S_ .f32 := constant S_ .f32 0x7F800000#32
  let main_v1 : FVec F S20000x1x128 .f32 := broadcastInDim S20000x1x128 ![] bcast_S_S20000x1x128 main_cst
  let main_v2 : IVec S20000x1x128 1 := cmpf .olt main_v0 main_v1
  let main_c : IVec S_ 1 := constantI S_ 1 1#1
  let main_v3 : IVec S_ 1 := (fun x v => Host.reduce IntOp.andi x v reducesTo_S20000x1x128_S_d0_1_2 h_S_) main_v2 main_c
  let main_v4 : FVec F S20000x3x128 .f32 := Host.absf main_arg1
  let main_cst_0 : FVec F S_ .f32 := constant S_ .f32 0x7F800000#32
  let main_v5 : FVec F S20000x3x128 .f32 := broadcastInDim S20000x3x128 ![] bcast_S_S20000x3x128 main_cst_0
  let main_v6 : IVec S20000x3x128 1 := cmpf .olt main_v4 main_v5
  let main_c_1 : IVec S_ 1 := constantI S_ 1 1#1
  let main_v7 : IVec S_ 1 := (fun x v => Host.reduce IntOp.andi x v reducesTo_S20000x3x128_S_d0_1_2 h_S_) main_v6 main_c_1
  let main_v8 : IVec S_ 1 := andi main_v3 main_v7
  let main_v9 : FVec F S20000x5x128 .f32 := Host.absf main_arg2
  let main_cst_2 : FVec F S_ .f32 := constant S_ .f32 0x7F800000#32
  let main_v10 : FVec F S20000x5x128 .f32 := broadcastInDim S20000x5x128 ![] bcast_S_S20000x5x128 main_cst_2
  let main_v11 : IVec S20000x5x128 1 := cmpf .olt main_v9 main_v10
  let main_c_3 : IVec S_ 1 := constantI S_ 1 1#1
  let main_v12 : IVec S_ 1 := (fun x v => Host.reduce IntOp.andi x v reducesTo_S20000x5x128_S_d0_1_2 h_S_) main_v11 main_c_3
  let main_v13 : IVec S_ 1 := andi main_v8 main_v12
  let main_v14 : FVec F S20000x7x128 .f32 := Host.absf main_arg3
  let main_cst_4 : FVec F S_ .f32 := constant S_ .f32 0x7F800000#32
  let main_v15 : FVec F S20000x7x128 .f32 := broadcastInDim S20000x7x128 ![] bcast_S_S20000x7x128 main_cst_4
  let main_v16 : IVec S20000x7x128 1 := cmpf .olt main_v14 main_v15
  fn_part1 (F := F) main_arg4 main_arg5 main_arg6 main_v13 main_v16
-- ==== Kernel.lean ====
abbrev S20000x1x128 : Shape := ⟨3, ![20000, 1, 128]⟩
abbrev S20000x3x128 : Shape := ⟨3, ![20000, 3, 128]⟩
abbrev S20000x5x128 : Shape := ⟨3, ![20000, 5, 128]⟩
abbrev S20000x7x128 : Shape := ⟨3, ![20000, 7, 128]⟩
abbrev S20000x9x128 : Shape := ⟨3, ![20000, 9, 128]⟩
abbrev S20000x11x128 : Shape := ⟨3, ![20000, 11, 128]⟩
abbrev S6x128x256 : Shape := ⟨3, ![6, 128, 256]⟩
abbrev S20000x128 : Shape := ⟨2, ![20000, 128]⟩
abbrev S1x128x256 : Shape := ⟨3, ![1, 128, 256]⟩
abbrev S128x256 : Shape := ⟨2, ![128, 256]⟩
abbrev S20000x256 : Shape := ⟨2, ![20000, 256]⟩
abbrev S5000x128 : Shape := ⟨2, ![5000, 128]⟩
abbrev S5000x256 : Shape := ⟨2, ![5000, 256]⟩
abbrev S60000x128 : Shape := ⟨2, ![60000, 128]⟩
abbrev S60000x256 : Shape := ⟨2, ![60000, 256]⟩
abbrev S100000x128 : Shape := ⟨2, ![100000, 128]⟩
abbrev S100000x256 : Shape := ⟨2, ![100000, 256]⟩
abbrev S140000x128 : Shape := ⟨2, ![140000, 128]⟩
abbrev S140000x256 : Shape := ⟨2, ![140000, 256]⟩
abbrev S180000x128 : Shape := ⟨2, ![180000, 128]⟩
abbrev S180000x256 : Shape := ⟨2, ![180000, 256]⟩
abbrev S220000x128 : Shape := ⟨2, ![220000, 128]⟩
abbrev S220000x256 : Shape := ⟨2, ![220000, 256]⟩
abbrev S720000x256 : Shape := ⟨2, ![720000, 256]⟩

abbrev nBuf : Space → Nat
  | .hbm => 32
  | .vmem => 30
  | .smem => 0
  | _ => 0

abbrev bufTy : (tb : Table) → Fin (tcTables nBuf tb) → BufTy
  | .hbm, ⟨0, _⟩ => ⟨S20000x1x128, .f32⟩
  | .hbm, ⟨1, _⟩ => ⟨S20000x3x128, .f32⟩
  | .hbm, ⟨2, _⟩ => ⟨S20000x5x128, .f32⟩
  | .hbm, ⟨3, _⟩ => ⟨S20000x7x128, .f32⟩
  | .hbm, ⟨4, _⟩ => ⟨S20000x9x128, .f32⟩
  | .hbm, ⟨5, _⟩ => ⟨S20000x11x128, .f32⟩
  | .hbm, ⟨6, _⟩ => ⟨S6x128x256, .f32⟩
  | .hbm, ⟨7, _⟩ => ⟨S20000x128, .f32⟩
  | .hbm, ⟨8, _⟩ => ⟨S1x128x256, .f32⟩
  | .hbm, ⟨9, _⟩ => ⟨S128x256, .f32⟩
  | .hbm, ⟨10, _⟩ => ⟨S20000x256, .f32⟩
  | .hbm, ⟨11, _⟩ => ⟨S60000x128, .f32⟩
  | .hbm, ⟨12, _⟩ => ⟨S1x128x256, .f32⟩
  | .hbm, ⟨13, _⟩ => ⟨S128x256, .f32⟩
  | .hbm, ⟨14, _⟩ => ⟨S60000x256, .f32⟩
  | .hbm, ⟨15, _⟩ => ⟨S100000x128, .f32⟩
  | .hbm, ⟨16, _⟩ => ⟨S1x128x256, .f32⟩
  | .hbm, ⟨17, _⟩ => ⟨S128x256, .f32⟩
  | .hbm, ⟨18, _⟩ => ⟨S100000x256, .f32⟩
  | .hbm, ⟨19, _⟩ => ⟨S140000x128, .f32⟩
  | .hbm, ⟨20, _⟩ => ⟨S1x128x256, .f32⟩
  | .hbm, ⟨21, _⟩ => ⟨S128x256, .f32⟩
  | .hbm, ⟨22, _⟩ => ⟨S140000x256, .f32⟩
  | .hbm, ⟨23, _⟩ => ⟨S180000x128, .f32⟩
  | .hbm, ⟨24, _⟩ => ⟨S1x128x256, .f32⟩
  | .hbm, ⟨25, _⟩ => ⟨S128x256, .f32⟩
  | .hbm, ⟨26, _⟩ => ⟨S180000x256, .f32⟩
  | .hbm, ⟨27, _⟩ => ⟨S220000x128, .f32⟩
  | .hbm, ⟨28, _⟩ => ⟨S1x128x256, .f32⟩
  | .hbm, ⟨29, _⟩ => ⟨S128x256, .f32⟩
  | .hbm, ⟨30, _⟩ => ⟨S220000x256, .f32⟩
  | .hbm, ⟨31, _⟩ => ⟨S720000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .f32⟩
  | .local _ .vmem, ⟨9, _⟩ => ⟨S5000x256, .f32⟩
  | .local _ .vmem, ⟨10, _⟩ => ⟨S5000x128, .f32⟩
  | .local _ .vmem, ⟨11, _⟩ => ⟨S5000x128, .f32⟩
  | .local _ .vmem, ⟨12, _⟩ => ⟨S128x256, .f32⟩
  | .local _ .vmem, ⟨13, _⟩ => ⟨S5000x256, .f32⟩
  | .local _ .vmem, ⟨14, _⟩ => ⟨S5000x256, .f32⟩
  | .local _ .vmem, ⟨15, _⟩ => ⟨S5000x128, .f32⟩
  | .local _ .vmem, ⟨16, _⟩ => ⟨S5000x128, .f32⟩
  | .local _ .vmem, ⟨17, _⟩ => ⟨S128x256, .f32⟩
  | .local _ .vmem, ⟨18, _⟩ => ⟨S5000x256, .f32⟩
  | .local _ .vmem, ⟨19, _⟩ => ⟨S5000x256, .f32⟩
  | .local _ .vmem, ⟨20, _⟩ => ⟨S5000x128, .f32⟩
  | .local _ .vmem, ⟨21, _⟩ => ⟨S5000x128, .f32⟩
  | .local _ .vmem, ⟨22, _⟩ => ⟨S128x256, .f32⟩
  | .local _ .vmem, ⟨23, _⟩ => ⟨S5000x256, .f32⟩
  | .local _ .vmem, ⟨24, _⟩ => ⟨S5000x256, .f32⟩
  | .local _ .vmem, ⟨25, _⟩ => ⟨S5000x128, .f32⟩
  | .local _ .vmem, ⟨26, _⟩ => ⟨S5000x128, .f32⟩
  | .local _ .vmem, ⟨27, _⟩ => ⟨S128x256, .f32⟩
  | .local _ .vmem, ⟨28, _⟩ => ⟨S5000x256, .f32⟩
  | .local _ .vmem, ⟨29, _⟩ => ⟨S5000x256, .f32⟩
  | _, _ => ⟨S20000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![28], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![36], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![44], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  shapeCasts_S20000x1x128_S20000x128 : S20000x1x128.ShapeCasts S20000x128
  slices_S6x128x256_S1x128x256_0_0_0 : S6x128x256.Slices ![0, 0, 0] S1x128x256
  shapeCasts_S1x128x256_S128x256 : S1x128x256.ShapeCasts S128x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  shapeCasts_S20000x3x128_S60000x128 : S20000x3x128.ShapeCasts S60000x128
  slices_S6x128x256_S1x128x256_1_0_0 : S6x128x256.Slices ![1, 0, 0] S1x128x256
  shapeCasts_S20000x5x128_S100000x128 : S20000x5x128.ShapeCasts S100000x128
  slices_S6x128x256_S1x128x256_2_0_0 : S6x128x256.Slices ![2, 0, 0] S1x128x256
  shapeCasts_S20000x7x128_S140000x128 : S20000x7x128.ShapeCasts S140000x128
  slices_S6x128x256_S1x128x256_3_0_0 : S6x128x256.Slices ![3, 0, 0] S1x128x256
  shapeCasts_S20000x9x128_S180000x128 : S20000x9x128.ShapeCasts S180000x128
  slices_S6x128x256_S1x128x256_4_0_0 : S6x128x256.Slices ![4, 0, 0] S1x128x256
  shapeCasts_S20000x11x128_S220000x128 : S20000x11x128.ShapeCasts S220000x128
  slices_S6x128x256_S1x128x256_5_0_0 : S6x128x256.Slices ![5, 0, 0] S1x128x256
  concatenates_S20000x256_S60000x256_S100000x256_S140000x256_S180000x256_S220000x256_S720000x256_d0 : Shape.Concatenates [S20000x256, S60000x256, S100000x256, S140000x256, S180000x256, S220000x256] S720000x256 0
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S20000x128.size a
  hwx0_0 : ∀ i : grid0.Coords, EltTy.bits .f32 = 32 ∨ (Rect.block (s := S20000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S20000x256.size a
  hwx0_2 : ∀ i : grid0.Coords, EltTy.bits .f32 = 32 ∨ (Rect.block (s := S20000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S60000x128.size a
  hwx1_0 : ∀ i : grid1.Coords, EltTy.bits .f32 = 32 ∨ (Rect.block (s := S60000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S60000x256.size a
  hwx1_2 : ∀ i : grid1.Coords, EltTy.bits .f32 = 32 ∨ (Rect.block (s := S60000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .f32 = 32 ∨ (Rect.block (s := S100000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S140000x128.size a
  hwx3_0 : ∀ i : grid3.Coords, EltTy.bits .f32 = 32 ∨ (Rect.block (s := S140000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S140000x256.size a
  hwx3_2 : ∀ i : grid3.Coords, EltTy.bits .f32 = 32 ∨ (Rect.block (s := S140000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S180000x128.size a
  hwx4_0 : ∀ i : grid4.Coords, EltTy.bits .f32 = 32 ∨ (Rect.block (s := S180000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S180000x256.size a
  hwx4_2 : ∀ i : grid4.Coords, EltTy.bits .f32 = 32 ∨ (Rect.block (s := S180000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S220000x128.size a
  hwx5_0 : ∀ i : grid5.Coords, EltTy.bits .f32 = 32 ∨ (Rect.block (s := S220000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x256.size a ≤ S128x256.size a
  hwx5_1 : ∀ i : grid5.Coords, EltTy.bits .f32 = 32 ∨ (Rect.block (s := S128x256) S128x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S220000x256.size a
  hwx5_2 : ∀ i : grid5.Coords, EltTy.bits .f32 = 32 ∨ (Rect.block (s := S220000x256) S5000x256.size (cc5_transform_2 i) (hinb5_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v12) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v16) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v20) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S128x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v23) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S20000x1x128 : Shape := ⟨3, ![20000, 1, 128]⟩
abbrev S20000x3x128 : Shape := ⟨3, ![20000, 3, 128]⟩
abbrev S20000x5x128 : Shape := ⟨3, ![20000, 5, 128]⟩
abbrev S20000x7x128 : Shape := ⟨3, ![20000, 7, 128]⟩
abbrev S20000x9x128 : Shape := ⟨3, ![20000, 9, 128]⟩
abbrev S20000x11x128 : Shape := ⟨3, ![20000, 11, 128]⟩
abbrev S6x128x256 : Shape := ⟨3, ![6, 128, 256]⟩
abbrev S1x128x256 : Shape := ⟨3, ![1, 128, 256]⟩
abbrev S128x256 : Shape := ⟨2, ![128, 256]⟩
abbrev S20000x1x256 : Shape := ⟨3, ![20000, 1, 256]⟩
abbrev S20000x256 : Shape := ⟨2, ![20000, 256]⟩
abbrev S20000x3x256 : Shape := ⟨3, ![20000, 3, 256]⟩
abbrev S60000x256 : Shape := ⟨2, ![60000, 256]⟩
abbrev S20000x5x256 : Shape := ⟨3, ![20000, 5, 256]⟩
abbrev S100000x256 : Shape := ⟨2, ![100000, 256]⟩
abbrev S20000x7x256 : Shape := ⟨3, ![20000, 7, 256]⟩
abbrev S140000x256 : Shape := ⟨2, ![140000, 256]⟩
abbrev S20000x9x256 : Shape := ⟨3, ![20000, 9, 256]⟩
abbrev S180000x256 : Shape := ⟨2, ![180000, 256]⟩
abbrev S20000x11x256 : Shape := ⟨3, ![20000, 11, 256]⟩
abbrev S220000x256 : Shape := ⟨2, ![220000, 256]⟩
abbrev S720000x256 : Shape := ⟨2, ![720000, 256]⟩

abbrev nBuf : Space → Nat
  | .hbm => 32
  | .vmem => 0
  | .smem => 0
  | _ => 0

abbrev bufTy : (tb : Table) → Fin (tcTables nBuf tb) → BufTy
  | .hbm, ⟨0, _⟩ => ⟨S20000x1x128, .f32⟩
  | .hbm, ⟨1, _⟩ => ⟨S20000x3x128, .f32⟩
  | .hbm, ⟨2, _⟩ => ⟨S20000x5x128, .f32⟩
  | .hbm, ⟨3, _⟩ => ⟨S20000x7x128, .f32⟩
  | .hbm, ⟨4, _⟩ => ⟨S20000x9x128, .f32⟩
  | .hbm, ⟨5, _⟩ => ⟨S20000x11x128, .f32⟩
  | .hbm, ⟨6, _⟩ => ⟨S6x128x256, .f32⟩
  | .hbm, ⟨7, _⟩ => ⟨S1x128x256, .f32⟩
  | .hbm, ⟨8, _⟩ => ⟨S128x256, .f32⟩
  | .hbm, ⟨9, _⟩ => ⟨S20000x1x256, .f32⟩
  | .hbm, ⟨10, _⟩ => ⟨S20000x256, .f32⟩
  | .hbm, ⟨11, _⟩ => ⟨S1x128x256, .f32⟩
  | .hbm, ⟨12, _⟩ => ⟨S128x256, .f32⟩
  | .hbm, ⟨13, _⟩ => ⟨S20000x3x256, .f32⟩
  | .hbm, ⟨14, _⟩ => ⟨S60000x256, .f32⟩
  | .hbm, ⟨15, _⟩ => ⟨S1x128x256, .f32⟩
  | .hbm, ⟨16, _⟩ => ⟨S128x256, .f32⟩
  | .hbm, ⟨17, _⟩ => ⟨S20000x5x256, .f32⟩
  | .hbm, ⟨18, _⟩ => ⟨S100000x256, .f32⟩
  | .hbm, ⟨19, _⟩ => ⟨S1x128x256, .f32⟩
  | .hbm, ⟨20, _⟩ => ⟨S128x256, .f32⟩
  | .hbm, ⟨21, _⟩ => ⟨S20000x7x256, .f32⟩
  | .hbm, ⟨22, _⟩ => ⟨S140000x256, .f32⟩
  | .hbm, ⟨23, _⟩ => ⟨S1x128x256, .f32⟩
  | .hbm, ⟨24, _⟩ => ⟨S128x256, .f32⟩
  | .hbm, ⟨25, _⟩ => ⟨S20000x9x256, .f32⟩
  | .hbm, ⟨26, _⟩ => ⟨S180000x256, .f32⟩
  | .hbm, ⟨27, _⟩ => ⟨S1x128x256, .f32⟩
  | .hbm, ⟨28, _⟩ => ⟨S128x256, .f32⟩
  | .hbm, ⟨29, _⟩ => ⟨S20000x11x256, .f32⟩
  | .hbm, ⟨30, _⟩ => ⟨S220000x256, .f32⟩
  | .hbm, ⟨31, _⟩ => ⟨S720000x256, .f32⟩
  | _, _ => ⟨S20000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  slices_S6x128x256_S1x128x256_0_0_0 : S6x128x256.Slices ![0, 0, 0] S1x128x256
  shapeCasts_S1x128x256_S128x256 : S1x128x256.ShapeCasts S128x256
  shapeCasts_S20000x1x256_S20000x256 : S20000x1x256.ShapeCasts S20000x256
  slices_S6x128x256_S1x128x256_1_0_0 : S6x128x256.Slices ![1, 0, 0] S1x128x256
  shapeCasts_S20000x3x256_S60000x256 : S20000x3x256.ShapeCasts S60000x256
  slices_S6x128x256_S1x128x256_2_0_0 : S6x128x256.Slices ![2, 0, 0] S1x128x256
  shapeCasts_S20000x5x256_S100000x256 : S20000x5x256.ShapeCasts S100000x256
  slices_S6x128x256_S1x128x256_3_0_0 : S6x128x256.Slices ![3, 0, 0] S1x128x256
  shapeCasts_S20000x7x256_S140000x256 : S20000x7x256.ShapeCasts S140000x256
  slices_S6x128x256_S1x128x256_4_0_0 : S6x128x256.Slices ![4, 0, 0] S1x128x256
  shapeCasts_S20000x9x256_S180000x256 : S20000x9x256.ShapeCasts S180000x256
  slices_S6x128x256_S1x128x256_5_0_0 : S6x128x256.Slices ![5, 0, 0] S1x128x256
  shapeCasts_S20000x11x256_S220000x256 : S20000x11x256.ShapeCasts S220000x256
  concatenates_S20000x256_S60000x256_S100000x256_S140000x256_S180000x256_S220000x256_S720000x256_d0 : Shape.Concatenates [S20000x256, S60000x256, S100000x256, S140000x256, S180000x256, S220000x256] S720000x256 0
  dot_S20000x1x128_S128x256_S20000x1x256_2_0_01_1_n_n_wf : DotDims.WF S20000x1x128 S128x256 S20000x1x256 [2] [0] [0, 1] [1] [] []
  dot_S20000x3x128_S128x256_S20000x3x256_2_0_01_1_n_n_wf : DotDims.WF S20000x3x128 S128x256 S20000x3x256 [2] [0] [0, 1] [1] [] []
  dot_S20000x5x128_S128x256_S20000x5x256_2_0_01_1_n_n_wf : DotDims.WF S20000x5x128 S128x256 S20000x5x256 [2] [0] [0, 1] [1] [] []
  dot_S20000x7x128_S128x256_S20000x7x256_2_0_01_1_n_n_wf : DotDims.WF S20000x7x128 S128x256 S20000x7x256 [2] [0] [0, 1] [1] [] []
  dot_S20000x9x128_S128x256_S20000x9x256_2_0_01_1_n_n_wf : DotDims.WF S20000x9x128 S128x256 S20000x9x256 [2] [0] [0, 1] [1] [] []
  dot_S20000x11x128_S128x256_S20000x11x256_2_0_01_1_n_n_wf : DotDims.WF S20000x11x128 S128x256 S20000x11x256 [2] [0] [0, 1] [1] [] []

variable [Facts₀]

def dot_S20000x1x128_S128x256_S20000x1x256_2_0_01_1_n_n : DotDims S20000x1x128 S128x256 S20000x1x256 where
  lhsContracting := [2]
  rhsContracting := [0]
  lhsNonContracting := [0, 1]
  rhsNonContracting := [1]
  lhsBatch := []
  rhsBatch := []
  wf := dot_S20000x1x128_S128x256_S20000x1x256_2_0_01_1_n_n_wf
def dot_S20000x3x128_S128x256_S20000x3x256_2_0_01_1_n_n : DotDims S20000x3x128 S128x256 S20000x3x256 where
  lhsContracting := [2]
  rhsContracting := [0]
  lhsNonContracting := [0, 1]
  rhsNonContracting := [1]
  lhsBatch := []
  rhsBatch := []
  wf := dot_S20000x3x128_S128x256_S20000x3x256_2_0_01_1_n_n_wf
def dot_S20000x5x128_S128x256_S20000x5x256_2_0_01_1_n_n : DotDims S20000x5x128 S128x256 S20000x5x256 where
  lhsContracting := [2]
  rhsContracting := [0]
  lhsNonContracting := [0, 1]
  rhsNonContracting := [1]
  lhsBatch := []
  rhsBatch := []
  wf := dot_S20000x5x128_S128x256_S20000x5x256_2_0_01_1_n_n_wf
def dot_S20000x7x128_S128x256_S20000x7x256_2_0_01_1_n_n : DotDims S20000x7x128 S128x256 S20000x7x256 where
  lhsContracting := [2]
  rhsContracting := [0]
  lhsNonContracting := [0, 1]
  rhsNonContracting := [1]
  lhsBatch := []
  rhsBatch := []
  wf := dot_S20000x7x128_S128x256_S20000x7x256_2_0_01_1_n_n_wf
def dot_S20000x9x128_S128x256_S20000x9x256_2_0_01_1_n_n : DotDims S20000x9x128 S128x256 S20000x9x256 where
  lhsContracting := [2]
  rhsContracting := [0]
  lhsNonContracting := [0, 1]
  rhsNonContracting := [1]
  lhsBatch := []
  rhsBatch := []
  wf := dot_S20000x9x128_S128x256_S20000x9x256_2_0_01_1_n_n_wf
def dot_S20000x11x128_S128x256_S20000x11x256_2_0_01_1_n_n : DotDims S20000x11x128 S128x256 S20000x11x256 where
  lhsContracting := [2]
  rhsContracting := [0]
  lhsNonContracting := [0, 1]
  rhsNonContracting := [1]
  lhsBatch := []
  rhsBatch := []
  wf := dot_S20000x11x128_S128x256_S20000x11x256_2_0_01_1_n_n_wf

class Facts : Prop extends Facts₀ where

variable [Facts]
-- ==== Proof.K.FoldBase.lean ====
/-
  The run of the whole program follows the contents of the core's buffers from one item of the main function to the next:
  a stretch of host operations applies its operations to them, a region leaves its operand arrays as its write-backs
  leave them and every other buffer as entered. This module holds what every step of that fold shares: the contents at
  launch, and what rides beside the buffers through every item (the generator register at some state, nothing owed).
-/
import proofs.«136918_j48060684042913_1_alg».proof.Proof.Gen.Kernel.Launch
import proofs.«136918_j48060684042913_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers at launch. -/
abbrev launchW : Dev nD → Valuation τ sig (Elt F) := fun c b => (s₀ m ρ).mem ((c : Dev nD), b)

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and the core's dues, none. -/
abbrev Rest (c : Dev nD) : sProp 𝕄 := iprop((∃ r, prngReg c r) ∗ ∃ W, owes (c : Thread nD τ) (0 : CellTallies nD τ sig Unit) W)

/-- A stretch of host operations as a segment over every unscoped buffer, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- The seven argument arrays of the main function. -/
abbrev IsArg (b : Ref sig .tc) : Prop :=
  b = main_arg0 ∨ b = main_arg1 ∨ b = main_arg2 ∨ b = main_arg3 ∨ b = main_arg4 ∨ b = main_arg5 ∨ b = main_arg6

/-- The six product arrays, one per region. -/
abbrev IsOut (b : Ref sig .tc) : Prop :=
  b = main_v3 ∨ b = main_v7 ∨ b = main_v11 ∨ b = main_v15 ∨ b = main_v19 ∨ b = main_v23

/-- At launch a buffer holds the launch memory. -/
theorem launchW_arg (c : Dev nD) (b : Ref sig .tc) (hb : IsArg b) :
    launchW m ρ c (Proc.devRef .tc b) = m ((c : Thread nD τ).loc b) := rfl

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.K.Region0.lean ====
/-
  Region 0 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.Kernel.Launch
import proofs.«136918_j48060684042913_1_alg».proof.Proof.Gen.Kernel.Skeleton
import proofs.«136918_j48060684042913_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the row tile holds rows 5000 t to 5000 t + 4999 of x at point t: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of the weight matrix holds all of w at every point: fetched at the first point, its block index
    never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rx0 : Rect S5000x128 := Rect.unit (s := S5000x128) ![0, 0] S5000x128.size inb_S5000x128_S5000x128_0_0
abbrev rw0 : Rect S128x256 := Rect.unit (s := S128x256) ![0, 0] S128x256.size inb_S128x256_S128x256_0_0
abbrev ro0 : Rect S5000x256 := Rect.unit (s := S5000x256) ![0, 0] S5000x256.size inb_S5000x256_S5000x256_0_0

/-! ## What the body leaves in the output tile -/

/-- The output tile after the body: its one store, the product of the row tile x0 and the weights x1. -/
def out0_2 (x0 : Vec F S5000x128 .f32) (x1 : Vec F S128x256 .f32) : Vec F S5000x256 .f32 :=
  View.canon [⟨ro0, k0_pay1 (View.ld x0 rx0) (View.ld x1 rw0)⟩]

/-- The one store covers the whole tile. -/
theorem cover0_2 (p0 : Vec F S5000x256 .f32) (y : S5000x256.Idx) :
    ∃ pc ∈ ([⟨ro0, p0⟩] : List (View.Piece (Elt F) S5000x256 .f32)), y ∈ pc.1.set :=
  View.cover_of_tiled [⟨ro0, p0⟩] S5000x256.size (by rfl) y

/-! ## The body's triple -/

set_option maxHeartbeats 1000000 in
/-- On whole staging buffers, the two inputs' at contents x0, x1 and the output's at anything, the body runs to its
    continuation with the inputs as they were and the output tile at out0_2 x0 x1. -/
theorem sound_kernel0 (c : Dev nD) (E : Set ℕ) (i : grid0.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t each input's
    buffer still at its tile and the output's at the product of the two tiles; nothing kept between points beyond the scoped
    rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their tiles, so the body's triple applies; what is kept between points
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Fold0.lean ====
/-
  Region 0 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.K.FoldBase
import proofs.«136918_j48060684042913_1_alg».proof.Proof.K.Region0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 0 is entered: the host stretch before it applied to what the item before left. -/
abbrev entryW0 : Dev nD → Valuation τ sig (Elt F) := fun c => StableHlo.after hostOps0 (launchW m ρ c)
/-- The same read at the core's references. -/
abbrev entry0 : (c : Dev nD) → (b : Ref sig .tc) → Buf (Elt F) ((c : Thread nD τ).loc b) := fun c b => entryW0 m ρ c b

/-- The buffers when region 0 is left. -/
def exitW0 (c : Dev nD) : Valuation τ sig (Elt F) :=
  Pipeline.withArrays spec0 c (entryW0 m ρ c) fun w => (dat0 (entry0 m ρ) c).arrAt w cfg0.N
/-- The same read at the core's references. -/
abbrev exit0 : (c : Dev nD) → (b : Ref sig .tc) → Buf (Elt F) ((c : Thread nD τ).loc b) := fun c b => exitW0 m ρ c b

theorem exitW0_arr (c : Dev nD) (w : Fin cfg0.W) :
    exitW0 m ρ c (Proc.devRef .tc (Pipeline.arrRef spec0 w)) = (dat0 (entry0 m ρ) c).arrAt w cfg0.N := by
  unfold exitW0; exact Pipeline.withArrays_arr spec0 launch0.win.arr_inj c _ _ w
theorem exitW0_of_ne (c : Dev nD) (b : Ref sig .tc) (hb : ∀ w, Pipeline.arrRef spec0 w ≠ b) :
    exitW0 m ρ c (Proc.devRef .tc b) = entryW0 m ρ c (Proc.devRef .tc b) := by
  unfold exitW0; exact Pipeline.withArrays_of_ne spec0 c _ _ b hb
/-- The host stretch before region 0 leaves every buffer it does not write as it was. -/
theorem entryW0_of (c : Dev nD) (b : Ref sig .tc) (h : b ∉ hostOps0_W) :
    entryW0 m ρ c (Proc.devRef .tc b) = launchW m ρ c (Proc.devRef .tc b) :=
  StableHlo.after_of_writes_sub hostOps0 _ hostOps0_writes h

/-- No argument array is written by the host stretch before region 0, and none is an operand array of region 0: an argument
    holds its launch contents when region 0 is entered and when it is left. -/
theorem entryW0_arg (c : Dev nD) (b : Ref sig .tc) (hb : IsArg b) :
    entryW0 m ρ c (Proc.devRef .tc b) = m ((c : Thread nD τ).loc b) :=
  (entryW0_of m ρ c b (by rcases hb with rfl | rfl | rfl | rfl | rfl | rfl | rfl <;> decide)).trans (launchW_arg m ρ c b hb)
theorem exitW0_arg (c : Dev nD) (b : Ref sig .tc) (hb : IsArg b) :
    exitW0 m ρ c (Proc.devRef .tc b) = m ((c : Thread nD τ).loc b) :=
  (exitW0_of_ne m ρ c b (by rcases hb with rfl | rfl | rfl | rfl | rfl | rfl | rfl <;> decide)).trans (entryW0_arg m ρ c b hb)

/-- Between the exit of the item before and region 0's exit, no product array but region 0's own changes: the host stretch
    writes none, and the region's other two operand arrays are none. -/
theorem stepW0_out (c : Dev nD) (b : Ref sig .tc) (hb : IsOut b) (hne : b ≠ main_v3) :
    exitW0 m ρ c (Proc.devRef .tc b) = launchW m ρ c (Proc.devRef .tc b) :=
  (exitW0_of_ne m ρ c b (by rcases hb with rfl | rfl | rfl | rfl | rfl | rfl <;> first | exact absurd rfl hne | decide)).trans
    (entryW0_of m ρ c b (by rcases hb with rfl | rfl | rfl | rfl | rfl | rfl <;> decide))

/-- The row matrix region 0 is entered with: the block's argument array with (sample, component) flattened to rows. -/
theorem entry0_x (c : Dev nD) :
    entry0 m ρ c main_v0 = shapeCast S20000x128 (m ((c : Thread nD τ).loc main_arg0)) shapeCasts_S20000x1x128_S20000x128 := by
  have e : entry0 m ρ c main_v0 = shapeCast S20000x128 (launchW m ρ c (Proc.devRef .tc main_arg0)) shapeCasts_S20000x1x128_S20000x128 := by
    show StableHlo.after hostOps0 (launchW m ρ c) (Proc.devRef .tc main_v0) = _
    after_results
    rfl
  rw [e, launchW_arg m ρ c main_arg0 (by decide)]

/-- The weight matrix region 0 is entered with: the block's slice of the weight array as a 128 by 256 matrix. -/
theorem entry0_w (c : Dev nD) :
    entry0 m ρ c main_v2 = shapeCast S128x256 (extractStridedSlice S1x128x256 ![0, 0, 0] (m ((c : Thread nD τ).loc main_arg6)) slices_S6x128x256_S1x128x256_0_0_0) shapeCasts_S1x128x256_S128x256 := by
  have e : entry0 m ρ c main_v2 = shapeCast S128x256 (extractStridedSlice S1x128x256 ![0, 0, 0] (launchW m ρ c (Proc.devRef .tc main_arg6)) slices_S6x128x256_S1x128x256_0_0_0) shapeCasts_S1x128x256_S128x256 := by
    show StableHlo.after hostOps0 (launchW m ρ c) (Proc.devRef .tc main_v2) = _
    after_results
    rfl
  rw [e, launchW_arg m ρ c main_arg6 (by decide)]

/-- At region 0's exit each of its arrays holds what the pipeline leaves, and every other buffer what it held at entry. -/
theorem hF0 (c : Dev nD) (w : Fin cfg0.W) : (dat0 (entry0 m ρ) c).arrAt w cfg0.N = exit0 m ρ c (Pipeline.arrRef spec0 w) :=
  (exitW0_arr m ρ c w).symm
theorem hrest0 (c : Dev nD) : ∀ b, b ∉ Finset.univ.image (Pipeline.arrRef spec0) → exit0 m ρ c b = entry0 m ρ c b :=
  fun b hb => exitW0_of_ne m ρ c b fun w e => hb (Finset.mem_image.mpr ⟨w, Finset.mem_univ _, e⟩)

end Cert.Kernel.Fr

end
-- ==== Proof.K.Region1.lean ====
/-
  Region 1 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.Kernel.Launch
import proofs.«136918_j48060684042913_1_alg».proof.Proof.Gen.Kernel.Skeleton
import proofs.«136918_j48060684042913_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the row tile holds rows 5000 t to 5000 t + 4999 of x at point t: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of the weight matrix holds all of w at every point: fetched at the first point, its block index
    never moves, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rx1 : Rect S5000x128 := Rect.unit (s := S5000x128) ![0, 0] S5000x128.size inb_S5000x128_S5000x128_0_0
abbrev rw1 : Rect S128x256 := Rect.unit (s := S128x256) ![0, 0] S128x256.size inb_S128x256_S128x256_0_0
abbrev ro1 : Rect S5000x256 := Rect.unit (s := S5000x256) ![0, 0] S5000x256.size inb_S5000x256_S5000x256_0_0

/-! ## What the body leaves in the output tile -/

/-- The output tile after the body: its one store, the product of the row tile x0 and the weights x1. -/
def out1_2 (x0 : Vec F S5000x128 .f32) (x1 : Vec F S128x256 .f32) : Vec F S5000x256 .f32 :=
  View.canon [⟨ro1, k1_pay1 (View.ld x0 rx1) (View.ld x1 rw1)⟩]

/-- The one store covers the whole tile. -/
theorem cover1_2 (p0 : Vec F S5000x256 .f32) (y : S5000x256.Idx) :
    ∃ pc ∈ ([⟨ro1, p0⟩] : List (View.Piece (Elt F) S5000x256 .f32)), y ∈ pc.1.set :=
  View.cover_of_tiled [⟨ro1, p0⟩] S5000x256.size (by rfl) y

/-! ## The body's triple -/

set_option maxHeartbeats 1000000 in
/-- On whole staging buffers, the two inputs' at contents x0, x1 and the output's at anything, the body runs to its
    continuation with the inputs as they were and the output tile at out1_2 x0 x1. -/
theorem sound_kernel1 (c : Dev nD) (E : Set ℕ) (i : grid1.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core c: the arrays as the region finds them; after the body at point t each input's
    buffer still at its tile and the output's at the product of the two tiles; nothing kept between points beyond the scoped
    rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their tiles, so the body's triple applies; what is kept between points
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Fold1.lean ====
/-
  Region 1 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.K.Fold0
import proofs.«136918_j48060684042913_1_alg».proof.Proof.K.Region1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 1 is entered: the host stretch before it applied to what the item before left. -/
abbrev entryW1 : Dev nD → Valuation τ sig (Elt F) := fun c => StableHlo.after hostOps1 (exitW0 m ρ c)
/-- The same read at the core's references. -/
abbrev entry1 : (c : Dev nD) → (b : Ref sig .tc) → Buf (Elt F) ((c : Thread nD τ).loc b) := fun c b => entryW1 m ρ c b

/-- The buffers when region 1 is left. -/
def exitW1 (c : Dev nD) : Valuation τ sig (Elt F) :=
  Pipeline.withArrays spec1 c (entryW1 m ρ c) fun w => (dat1 (entry1 m ρ) c).arrAt w cfg1.N
/-- The same read at the core's references. -/
abbrev exit1 : (c : Dev nD) → (b : Ref sig .tc) → Buf (Elt F) ((c : Thread nD τ).loc b) := fun c b => exitW1 m ρ c b

theorem exitW1_arr (c : Dev nD) (w : Fin cfg1.W) :
    exitW1 m ρ c (Proc.devRef .tc (Pipeline.arrRef spec1 w)) = (dat1 (entry1 m ρ) c).arrAt w cfg1.N := by
  unfold exitW1; exact Pipeline.withArrays_arr spec1 launch1.win.arr_inj c _ _ w
theorem exitW1_of_ne (c : Dev nD) (b : Ref sig .tc) (hb : ∀ w, Pipeline.arrRef spec1 w ≠ b) :
    exitW1 m ρ c (Proc.devRef .tc b) = entryW1 m ρ c (Proc.devRef .tc b) := by
  unfold exitW1; exact Pipeline.withArrays_of_ne spec1 c _ _ b hb
/-- The host stretch before region 1 leaves every buffer it does not write as it was. -/
theorem entryW1_of (c : Dev nD) (b : Ref sig .tc) (h : b ∉ hostOps1_W) :
    entryW1 m ρ c (Proc.devRef .tc b) = exitW0 m ρ c (Proc.devRef .tc b) :=
  StableHlo.after_of_writes_sub hostOps1 _ hostOps1_writes h

/-- No argument array is written by the host stretch before region 0, and none is an operand array of region 0: an argument
    holds its launch contents when region 1 is entered and when it is left. -/
theorem entryW1_arg (c : Dev nD) (b : Ref sig .tc) (hb : IsArg b) :
    entryW1 m ρ c (Proc.devRef .tc b) = m ((c : Thread nD τ).loc b) :=
  (entryW1_of m ρ c b (by rcases hb with rfl | rfl | rfl | rfl | rfl | rfl | rfl <;> decide)).trans (exitW0_arg m ρ c b hb)
theorem exitW1_arg (c : Dev nD) (b : Ref sig .tc) (hb : IsArg b) :
    exitW1 m ρ c (Proc.devRef .tc b) = m ((c : Thread nD τ).loc b) :=
  (exitW1_of_ne m ρ c b (by rcases hb with rfl | rfl | rfl | rfl | rfl | rfl | rfl <;> decide)).trans (entryW1_arg m ρ c b hb)

/-- Between the exit of the item before and region 1's exit, no product array but region 1's own changes: the host stretch
    writes none, and the region's other two operand arrays are none. -/
theorem stepW1_out (c : Dev nD) (b : Ref sig .tc) (hb : IsOut b) (hne : b ≠ main_v7) :
    exitW1 m ρ c (Proc.devRef .tc b) = exitW0 m ρ c (Proc.devRef .tc b) :=
  (exitW1_of_ne m ρ c b (by rcases hb with rfl | rfl | rfl | rfl | rfl | rfl <;> first | exact absurd rfl hne | decide)).trans
    (entryW1_of m ρ c b (by rcases hb with rfl | rfl | rfl | rfl | rfl | rfl <;> decide))

/-- The row matrix region 1 is entered with: the block's argument array with (sample, component) flattened to rows. -/
theorem entry1_x (c : Dev nD) :
    entry1 m ρ c main_v4 = shapeCast S60000x128 (m ((c : Thread nD τ).loc main_arg1)) shapeCasts_S20000x3x128_S60000x128 := by
  have e : entry1 m ρ c main_v4 = shapeCast S60000x128 (exitW0 m ρ c (Proc.devRef .tc main_arg1)) shapeCasts_S20000x3x128_S60000x128 := by
    show StableHlo.after hostOps1 (exitW0 m ρ c) (Proc.devRef .tc main_v4) = _
    after_results
    rfl
  rw [e, exitW0_arg m ρ c main_arg1 (by decide)]

/-- The weight matrix region 1 is entered with: the block's slice of the weight array as a 128 by 256 matrix. -/
theorem entry1_w (c : Dev nD) :
    entry1 m ρ c main_v6 = shapeCast S128x256 (extractStridedSlice S1x128x256 ![1, 0, 0] (m ((c : Thread nD τ).loc main_arg6)) slices_S6x128x256_S1x128x256_1_0_0) shapeCasts_S1x128x256_S128x256 := by
  have e : entry1 m ρ c main_v6 = shapeCast S128x256 (extractStridedSlice S1x128x256 ![1, 0, 0] (exitW0 m ρ c (Proc.devRef .tc main_arg6)) slices_S6x128x256_S1x128x256_1_0_0) shapeCasts_S1x128x256_S128x256 := by
    show StableHlo.after hostOps1 (exitW0 m ρ c) (Proc.devRef .tc main_v6) = _
    after_results
    rfl
  rw [e, exitW0_arg m ρ c main_arg6 (by decide)]

/-- At region 1's exit each of its arrays holds what the pipeline leaves, and every other buffer what it held at entry. -/
theorem hF1 (c : Dev nD) (w : Fin cfg1.W) : (dat1 (entry1 m ρ) c).arrAt w cfg1.N = exit1 m ρ c (Pipeline.arrRef spec1 w) :=
  (exitW1_arr m ρ c w).symm
theorem hrest1 (c : Dev nD) : ∀ b, b ∉ Finset.univ.image (Pipeline.arrRef spec1) → exit1 m ρ c b = entry1 m ρ c b :=
  fun b hb => exitW1_of_ne m ρ c b fun w e => hb (Finset.mem_image.mpr ⟨w, Finset.mem_univ _, e⟩)

end Cert.Kernel.Fr

end
-- ==== Proof.K.Region2.lean ====
/-
  Region 2 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.Kernel.Launch
import proofs.«136918_j48060684042913_1_alg».proof.Proof.Gen.Kernel.Skeleton
import proofs.«136918_j48060684042913_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the row tile holds rows 5000 t to 5000 t + 4999 of x at point t: it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the weight matrix holds all of w at every point: fetched at the first point, its block index
    never moves, and the body leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev rx2 : Rect S5000x128 := Rect.unit (s := S5000x128) ![0, 0] S5000x128.size inb_S5000x128_S5000x128_0_0
abbrev rw2 : Rect S128x256 := Rect.unit (s := S128x256) ![0, 0] S128x256.size inb_S128x256_S128x256_0_0
abbrev ro2 : Rect S5000x256 := Rect.unit (s := S5000x256) ![0, 0] S5000x256.size inb_S5000x256_S5000x256_0_0

/-! ## What the body leaves in the output tile -/

/-- The output tile after the body: its one store, the product of the row tile x0 and the weights x1. -/
def out2_2 (x0 : Vec F S5000x128 .f32) (x1 : Vec F S128x256 .f32) : Vec F S5000x256 .f32 :=
  View.canon [⟨ro2, k2_pay1 (View.ld x0 rx2) (View.ld x1 rw2)⟩]

/-- The one store covers the whole tile. -/
theorem cover2_2 (p0 : Vec F S5000x256 .f32) (y : S5000x256.Idx) :
    ∃ pc ∈ ([⟨ro2, p0⟩] : List (View.Piece (Elt F) S5000x256 .f32)), y ∈ pc.1.set :=
  View.cover_of_tiled [⟨ro2, p0⟩] S5000x256.size (by rfl) y

/-! ## The body's triple -/

set_option maxHeartbeats 1000000 in
/-- On whole staging buffers, the two inputs' at contents x0, x1 and the output's at anything, the body runs to its
    continuation with the inputs as they were and the output tile at out2_2 x0 x1. -/
theorem sound_kernel2 (c : Dev nD) (E : Set ℕ) (i : grid2.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core c: the arrays as the region finds them; after the body at point t each input's
    buffer still at its tile and the output's at the product of the two tiles; nothing kept between points beyond the scoped
    rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their tiles, so the body's triple applies; what is kept between points
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Fold2.lean ====
/-
  Region 2 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.K.Fold1
import proofs.«136918_j48060684042913_1_alg».proof.Proof.K.Region2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 2 is entered: the host stretch before it applied to what the item before left. -/
abbrev entryW2 : Dev nD → Valuation τ sig (Elt F) := fun c => StableHlo.after hostOps2 (exitW1 m ρ c)
/-- The same read at the core's references. -/
abbrev entry2 : (c : Dev nD) → (b : Ref sig .tc) → Buf (Elt F) ((c : Thread nD τ).loc b) := fun c b => entryW2 m ρ c b

/-- The buffers when region 2 is left. -/
def exitW2 (c : Dev nD) : Valuation τ sig (Elt F) :=
  Pipeline.withArrays spec2 c (entryW2 m ρ c) fun w => (dat2 (entry2 m ρ) c).arrAt w cfg2.N
/-- The same read at the core's references. -/
abbrev exit2 : (c : Dev nD) → (b : Ref sig .tc) → Buf (Elt F) ((c : Thread nD τ).loc b) := fun c b => exitW2 m ρ c b

theorem exitW2_arr (c : Dev nD) (w : Fin cfg2.W) :
    exitW2 m ρ c (Proc.devRef .tc (Pipeline.arrRef spec2 w)) = (dat2 (entry2 m ρ) c).arrAt w cfg2.N := by
  unfold exitW2; exact Pipeline.withArrays_arr spec2 launch2.win.arr_inj c _ _ w
theorem exitW2_of_ne (c : Dev nD) (b : Ref sig .tc) (hb : ∀ w, Pipeline.arrRef spec2 w ≠ b) :
    exitW2 m ρ c (Proc.devRef .tc b) = entryW2 m ρ c (Proc.devRef .tc b) := by
  unfold exitW2; exact Pipeline.withArrays_of_ne spec2 c _ _ b hb
/-- The host stretch before region 2 leaves every buffer it does not write as it was. -/
theorem entryW2_of (c : Dev nD) (b : Ref sig .tc) (h : b ∉ hostOps2_W) :
    entryW2 m ρ c (Proc.devRef .tc b) = exitW1 m ρ c (Proc.devRef .tc b) :=
  StableHlo.after_of_writes_sub hostOps2 _ hostOps2_writes h

/-- No argument array is written by the host stretch before region 0, and none is an operand array of region 0: an argument
    holds its launch contents when region 2 is entered and when it is left. -/
theorem entryW2_arg (c : Dev nD) (b : Ref sig .tc) (hb : IsArg b) :
    entryW2 m ρ c (Proc.devRef .tc b) = m ((c : Thread nD τ).loc b) :=
  (entryW2_of m ρ c b (by rcases hb with rfl | rfl | rfl | rfl | rfl | rfl | rfl <;> decide)).trans (exitW1_arg m ρ c b hb)
theorem exitW2_arg (c : Dev nD) (b : Ref sig .tc) (hb : IsArg b) :
    exitW2 m ρ c (Proc.devRef .tc b) = m ((c : Thread nD τ).loc b) :=
  (exitW2_of_ne m ρ c b (by rcases hb with rfl | rfl | rfl | rfl | rfl | rfl | rfl <;> decide)).trans (entryW2_arg m ρ c b hb)

/-- Between the exit of the item before and region 2's exit, no product array but region 2's own changes: the host stretch
    writes none, and the region's other two operand arrays are none. -/
theorem stepW2_out (c : Dev nD) (b : Ref sig .tc) (hb : IsOut b) (hne : b ≠ main_v11) :
    exitW2 m ρ c (Proc.devRef .tc b) = exitW1 m ρ c (Proc.devRef .tc b) :=
  (exitW2_of_ne m ρ c b (by rcases hb with rfl | rfl | rfl | rfl | rfl | rfl <;> first | exact absurd rfl hne | decide)).trans
    (entryW2_of m ρ c b (by rcases hb with rfl | rfl | rfl | rfl | rfl | rfl <;> decide))

/-- The row matrix region 2 is entered with: the block's argument array with (sample, component) flattened to rows. -/
theorem entry2_x (c : Dev nD) :
    entry2 m ρ c main_v8 = shapeCast S100000x128 (m ((c : Thread nD τ).loc main_arg2)) shapeCasts_S20000x5x128_S100000x128 := by
  have e : entry2 m ρ c main_v8 = shapeCast S100000x128 (exitW1 m ρ c (Proc.devRef .tc main_arg2)) shapeCasts_S20000x5x128_S100000x128 := by
    show StableHlo.after hostOps2 (exitW1 m ρ c) (Proc.devRef .tc main_v8) = _
    after_results
    rfl
  rw [e, exitW1_arg m ρ c main_arg2 (by decide)]

/-- The weight matrix region 2 is entered with: the block's slice of the weight array as a 128 by 256 matrix. -/
theorem entry2_w (c : Dev nD) :
    entry2 m ρ c main_v10 = shapeCast S128x256 (extractStridedSlice S1x128x256 ![2, 0, 0] (m ((c : Thread nD τ).loc main_arg6)) slices_S6x128x256_S1x128x256_2_0_0) shapeCasts_S1x128x256_S128x256 := by
  have e : entry2 m ρ c main_v10 = shapeCast S128x256 (extractStridedSlice S1x128x256 ![2, 0, 0] (exitW1 m ρ c (Proc.devRef .tc main_arg6)) slices_S6x128x256_S1x128x256_2_0_0) shapeCasts_S1x128x256_S128x256 := by
    show StableHlo.after hostOps2 (exitW1 m ρ c) (Proc.devRef .tc main_v10) = _
    after_results
    rfl
  rw [e, exitW1_arg m ρ c main_arg6 (by decide)]

/-- At region 2's exit each of its arrays holds what the pipeline leaves, and every other buffer what it held at entry. -/
theorem hF2 (c : Dev nD) (w : Fin cfg2.W) : (dat2 (entry2 m ρ) c).arrAt w cfg2.N = exit2 m ρ c (Pipeline.arrRef spec2 w) :=
  (exitW2_arr m ρ c w).symm
theorem hrest2 (c : Dev nD) : ∀ b, b ∉ Finset.univ.image (Pipeline.arrRef spec2) → exit2 m ρ c b = entry2 m ρ c b :=
  fun b hb => exitW2_of_ne m ρ c b fun w e => hb (Finset.mem_image.mpr ⟨w, Finset.mem_univ _, e⟩)

end Cert.Kernel.Fr

end
-- ==== Proof.K.Region3.lean ====
/-
  Region 3 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.Kernel.Launch
import proofs.«136918_j48060684042913_1_alg».proof.Proof.Gen.Kernel.Skeleton
import proofs.«136918_j48060684042913_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of the row tile holds rows 5000 t to 5000 t + 4999 of x at point t: it is fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of the weight matrix holds all of w at every point: fetched at the first point, its block index
    never moves, and the body leaves it in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev rx3 : Rect S5000x128 := Rect.unit (s := S5000x128) ![0, 0] S5000x128.size inb_S5000x128_S5000x128_0_0
abbrev rw3 : Rect S128x256 := Rect.unit (s := S128x256) ![0, 0] S128x256.size inb_S128x256_S128x256_0_0
abbrev ro3 : Rect S5000x256 := Rect.unit (s := S5000x256) ![0, 0] S5000x256.size inb_S5000x256_S5000x256_0_0

/-! ## What the body leaves in the output tile -/

/-- The output tile after the body: its one store, the product of the row tile x0 and the weights x1. -/
def out3_2 (x0 : Vec F S5000x128 .f32) (x1 : Vec F S128x256 .f32) : Vec F S5000x256 .f32 :=
  View.canon [⟨ro3, k3_pay1 (View.ld x0 rx3) (View.ld x1 rw3)⟩]

/-- The one store covers the whole tile. -/
theorem cover3_2 (p0 : Vec F S5000x256 .f32) (y : S5000x256.Idx) :
    ∃ pc ∈ ([⟨ro3, p0⟩] : List (View.Piece (Elt F) S5000x256 .f32)), y ∈ pc.1.set :=
  View.cover_of_tiled [⟨ro3, p0⟩] S5000x256.size (by rfl) y

/-! ## The body's triple -/

set_option maxHeartbeats 1000000 in
/-- On whole staging buffers, the two inputs' at contents x0, x1 and the output's at anything, the body runs to its
    continuation with the inputs as they were and the output tile at out3_2 x0 x1. -/
theorem sound_kernel3 (c : Dev nD) (E : Set ℕ) (i : grid3.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core c: the arrays as the region finds them; after the body at point t each input's
    buffer still at its tile and the output's at the product of the two tiles; nothing kept between points beyond the scoped
    rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their tiles, so the body's triple applies; what is kept between points
    and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Fold3.lean ====
/-
  Region 3 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.K.Fold2
import proofs.«136918_j48060684042913_1_alg».proof.Proof.K.Region3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 3 is entered: the host stretch before it applied to what the item before left. -/
abbrev entryW3 : Dev nD → Valuation τ sig (Elt F) := fun c => StableHlo.after hostOps3 (exitW2 m ρ c)
/-- The same read at the core's references. -/
abbrev entry3 : (c : Dev nD) → (b : Ref sig .tc) → Buf (Elt F) ((c : Thread nD τ).loc b) := fun c b => entryW3 m ρ c b

/-- The buffers when region 3 is left. -/
def exitW3 (c : Dev nD) : Valuation τ sig (Elt F) :=
  Pipeline.withArrays spec3 c (entryW3 m ρ c) fun w => (dat3 (entry3 m ρ) c).arrAt w cfg3.N
/-- The same read at the core's references. -/
abbrev exit3 : (c : Dev nD) → (b : Ref sig .tc) → Buf (Elt F) ((c : Thread nD τ).loc b) := fun c b => exitW3 m ρ c b

theorem exitW3_arr (c : Dev nD) (w : Fin cfg3.W) :
    exitW3 m ρ c (Proc.devRef .tc (Pipeline.arrRef spec3 w)) = (dat3 (entry3 m ρ) c).arrAt w cfg3.N := by
  unfold exitW3; exact Pipeline.withArrays_arr spec3 launch3.win.arr_inj c _ _ w
theorem exitW3_of_ne (c : Dev nD) (b : Ref sig .tc) (hb : ∀ w, Pipeline.arrRef spec3 w ≠ b) :
    exitW3 m ρ c (Proc.devRef .tc b) = entryW3 m ρ c (Proc.devRef .tc b) := by
  unfold exitW3; exact Pipeline.withArrays_of_ne spec3 c _ _ b hb
/-- The host stretch before region 3 leaves every buffer it does not write as it was. -/
theorem entryW3_of (c : Dev nD) (b : Ref sig .tc) (h : b ∉ hostOps3_W) :
    entryW3 m ρ c (Proc.devRef .tc b) = exitW2 m ρ c (Proc.devRef .tc b) :=
  StableHlo.after_of_writes_sub hostOps3 _ hostOps3_writes h

/-- No argument array is written by the host stretch before region 0, and none is an operand array of region 0: an argument
    holds its launch contents when region 3 is entered and when it is left. -/
theorem entryW3_arg (c : Dev nD) (b : Ref sig .tc) (hb : IsArg b) :
    entryW3 m ρ c (Proc.devRef .tc b) = m ((c : Thread nD τ).loc b) :=
  (entryW3_of m ρ c b (by rcases hb with rfl | rfl | rfl | rfl | rfl | rfl | rfl <;> decide)).trans (exitW2_arg m ρ c b hb)
theorem exitW3_arg (c : Dev nD) (b : Ref sig .tc) (hb : IsArg b) :
    exitW3 m ρ c (Proc.devRef .tc b) = m ((c : Thread nD τ).loc b) :=
  (exitW3_of_ne m ρ c b (by rcases hb with rfl | rfl | rfl | rfl | rfl | rfl | rfl <;> decide)).trans (entryW3_arg m ρ c b hb)

/-- Between the exit of the item before and region 3's exit, no product array but region 3's own changes: the host stretch
    writes none, and the region's other two operand arrays are none. -/
theorem stepW3_out (c : Dev nD) (b : Ref sig .tc) (hb : IsOut b) (hne : b ≠ main_v15) :
    exitW3 m ρ c (Proc.devRef .tc b) = exitW2 m ρ c (Proc.devRef .tc b) :=
  (exitW3_of_ne m ρ c b (by rcases hb with rfl | rfl | rfl | rfl | rfl | rfl <;> first | exact absurd rfl hne | decide)).trans
    (entryW3_of m ρ c b (by rcases hb with rfl | rfl | rfl | rfl | rfl | rfl <;> decide))

/-- The row matrix region 3 is entered with: the block's argument array with (sample, component) flattened to rows. -/
theorem entry3_x (c : Dev nD) :
    entry3 m ρ c main_v12 = shapeCast S140000x128 (m ((c : Thread nD τ).loc main_arg3)) shapeCasts_S20000x7x128_S140000x128 := by
  have e : entry3 m ρ c main_v12 = shapeCast S140000x128 (exitW2 m ρ c (Proc.devRef .tc main_arg3)) shapeCasts_S20000x7x128_S140000x128 := by
    show StableHlo.after hostOps3 (exitW2 m ρ c) (Proc.devRef .tc main_v12) = _
    after_results
    rfl
  rw [e, exitW2_arg m ρ c main_arg3 (by decide)]

/-- The weight matrix region 3 is entered with: the block's slice of the weight array as a 128 by 256 matrix. -/
theorem entry3_w (c : Dev nD) :
    entry3 m ρ c main_v14 = shapeCast S128x256 (extractStridedSlice S1x128x256 ![3, 0, 0] (m ((c : Thread nD τ).loc main_arg6)) slices_S6x128x256_S1x128x256_3_0_0) shapeCasts_S1x128x256_S128x256 := by
  have e : entry3 m ρ c main_v14 = shapeCast S128x256 (extractStridedSlice S1x128x256 ![3, 0, 0] (exitW2 m ρ c (Proc.devRef .tc main_arg6)) slices_S6x128x256_S1x128x256_3_0_0) shapeCasts_S1x128x256_S128x256 := by
    show StableHlo.after hostOps3 (exitW2 m ρ c) (Proc.devRef .tc main_v14) = _
    after_results
    rfl
  rw [e, exitW2_arg m ρ c main_arg6 (by decide)]

/-- At region 3's exit each of its arrays holds what the pipeline leaves, and every other buffer what it held at entry. -/
theorem hF3 (c : Dev nD) (w : Fin cfg3.W) : (dat3 (entry3 m ρ) c).arrAt w cfg3.N = exit3 m ρ c (Pipeline.arrRef spec3 w) :=
  (exitW3_arr m ρ c w).symm
theorem hrest3 (c : Dev nD) : ∀ b, b ∉ Finset.univ.image (Pipeline.arrRef spec3) → exit3 m ρ c b = entry3 m ρ c b :=
  fun b hb => exitW3_of_ne m ρ c b fun w e => hb (Finset.mem_image.mpr ⟨w, Finset.mem_univ _, e⟩)

end Cert.Kernel.Fr

end
-- ==== Proof.K.Region4.lean ====
/-
  Region 4 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.Kernel.Launch
import proofs.«136918_j48060684042913_1_alg».proof.Proof.Gen.Kernel.Skeleton
import proofs.«136918_j48060684042913_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The staging buffer of the row tile holds rows 5000 t to 5000 t + 4999 of x at point t: it is fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The staging buffer of the weight matrix holds all of w at every point: fetched at the first point, its block index
    never moves, and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev rx4 : Rect S5000x128 := Rect.unit (s := S5000x128) ![0, 0] S5000x128.size inb_S5000x128_S5000x128_0_0
abbrev rw4 : Rect S128x256 := Rect.unit (s := S128x256) ![0, 0] S128x256.size inb_S128x256_S128x256_0_0
abbrev ro4 : Rect S5000x256 := Rect.unit (s := S5000x256) ![0, 0] S5000x256.size inb_S5000x256_S5000x256_0_0

/-! ## What the body leaves in the output tile -/

/-- The output tile after the body: its one store, the product of the row tile x0 and the weights x1. -/
def out4_2 (x0 : Vec F S5000x128 .f32) (x1 : Vec F S128x256 .f32) : Vec F S5000x256 .f32 :=
  View.canon [⟨ro4, k4_pay1 (View.ld x0 rx4) (View.ld x1 rw4)⟩]

/-- The one store covers the whole tile. -/
theorem cover4_2 (p0 : Vec F S5000x256 .f32) (y : S5000x256.Idx) :
    ∃ pc ∈ ([⟨ro4, p0⟩] : List (View.Piece (Elt F) S5000x256 .f32)), y ∈ pc.1.set :=
  View.cover_of_tiled [⟨ro4, p0⟩] S5000x256.size (by rfl) y

/-! ## The body's triple -/

set_option maxHeartbeats 1000000 in
/-- On whole staging buffers, the two inputs' at contents x0, x1 and the output's at anything, the body runs to its
    continuation with the inputs as they were and the output tile at out4_2 x0 x1. -/
theorem sound_kernel4 (c : Dev nD) (E : Set ℕ) (i : grid4.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region on core c: the arrays as the region finds them; after the body at point t each input's
    buffer still at its tile and the output's at the product of the two tiles; nothing kept between points beyond the scoped
    rest and the generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their tiles, so the body's triple applies; what is kept between points
    and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Fold4.lean ====
/-
  Region 4 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.K.Fold3
import proofs.«136918_j48060684042913_1_alg».proof.Proof.K.Region4

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 4 is entered: the host stretch before it applied to what the item before left. -/
abbrev entryW4 : Dev nD → Valuation τ sig (Elt F) := fun c => StableHlo.after hostOps4 (exitW3 m ρ c)
/-- The same read at the core's references. -/
abbrev entry4 : (c : Dev nD) → (b : Ref sig .tc) → Buf (Elt F) ((c : Thread nD τ).loc b) := fun c b => entryW4 m ρ c b

/-- The buffers when region 4 is left. -/
def exitW4 (c : Dev nD) : Valuation τ sig (Elt F) :=
  Pipeline.withArrays spec4 c (entryW4 m ρ c) fun w => (dat4 (entry4 m ρ) c).arrAt w cfg4.N
/-- The same read at the core's references. -/
abbrev exit4 : (c : Dev nD) → (b : Ref sig .tc) → Buf (Elt F) ((c : Thread nD τ).loc b) := fun c b => exitW4 m ρ c b

theorem exitW4_arr (c : Dev nD) (w : Fin cfg4.W) :
    exitW4 m ρ c (Proc.devRef .tc (Pipeline.arrRef spec4 w)) = (dat4 (entry4 m ρ) c).arrAt w cfg4.N := by
  unfold exitW4; exact Pipeline.withArrays_arr spec4 launch4.win.arr_inj c _ _ w
theorem exitW4_of_ne (c : Dev nD) (b : Ref sig .tc) (hb : ∀ w, Pipeline.arrRef spec4 w ≠ b) :
    exitW4 m ρ c (Proc.devRef .tc b) = entryW4 m ρ c (Proc.devRef .tc b) := by
  unfold exitW4; exact Pipeline.withArrays_of_ne spec4 c _ _ b hb
/-- The host stretch before region 4 leaves every buffer it does not write as it was. -/
theorem entryW4_of (c : Dev nD) (b : Ref sig .tc) (h : b ∉ hostOps4_W) :
    entryW4 m ρ c (Proc.devRef .tc b) = exitW3 m ρ c (Proc.devRef .tc b) :=
  StableHlo.after_of_writes_sub hostOps4 _ hostOps4_writes h

/-- No argument array is written by the host stretch before region 0, and none is an operand array of region 0: an argument
    holds its launch contents when region 4 is entered and when it is left. -/
theorem entryW4_arg (c : Dev nD) (b : Ref sig .tc) (hb : IsArg b) :
    entryW4 m ρ c (Proc.devRef .tc b) = m ((c : Thread nD τ).loc b) :=
  (entryW4_of m ρ c b (by rcases hb with rfl | rfl | rfl | rfl | rfl | rfl | rfl <;> decide)).trans (exitW3_arg m ρ c b hb)
theorem exitW4_arg (c : Dev nD) (b : Ref sig .tc) (hb : IsArg b) :
    exitW4 m ρ c (Proc.devRef .tc b) = m ((c : Thread nD τ).loc b) :=
  (exitW4_of_ne m ρ c b (by rcases hb with rfl | rfl | rfl | rfl | rfl | rfl | rfl <;> decide)).trans (entryW4_arg m ρ c b hb)

/-- Between the exit of the item before and region 4's exit, no product array but region 4's own changes: the host stretch
    writes none, and the region's other two operand arrays are none. -/
theorem stepW4_out (c : Dev nD) (b : Ref sig .tc) (hb : IsOut b) (hne : b ≠ main_v19) :
    exitW4 m ρ c (Proc.devRef .tc b) = exitW3 m ρ c (Proc.devRef .tc b) :=
  (exitW4_of_ne m ρ c b (by rcases hb with rfl | rfl | rfl | rfl | rfl | rfl <;> first | exact absurd rfl hne | decide)).trans
    (entryW4_of m ρ c b (by rcases hb with rfl | rfl | rfl | rfl | rfl | rfl <;> decide))

/-- The row matrix region 4 is entered with: the block's argument array with (sample, component) flattened to rows. -/
theorem entry4_x (c : Dev nD) :
    entry4 m ρ c main_v16 = shapeCast S180000x128 (m ((c : Thread nD τ).loc main_arg4)) shapeCasts_S20000x9x128_S180000x128 := by
  have e : entry4 m ρ c main_v16 = shapeCast S180000x128 (exitW3 m ρ c (Proc.devRef .tc main_arg4)) shapeCasts_S20000x9x128_S180000x128 := by
    show StableHlo.after hostOps4 (exitW3 m ρ c) (Proc.devRef .tc main_v16) = _
    after_results
    rfl
  rw [e, exitW3_arg m ρ c main_arg4 (by decide)]

/-- The weight matrix region 4 is entered with: the block's slice of the weight array as a 128 by 256 matrix. -/
theorem entry4_w (c : Dev nD) :
    entry4 m ρ c main_v18 = shapeCast S128x256 (extractStridedSlice S1x128x256 ![4, 0, 0] (m ((c : Thread nD τ).loc main_arg6)) slices_S6x128x256_S1x128x256_4_0_0) shapeCasts_S1x128x256_S128x256 := by
  have e : entry4 m ρ c main_v18 = shapeCast S128x256 (extractStridedSlice S1x128x256 ![4, 0, 0] (exitW3 m ρ c (Proc.devRef .tc main_arg6)) slices_S6x128x256_S1x128x256_4_0_0) shapeCasts_S1x128x256_S128x256 := by
    show StableHlo.after hostOps4 (exitW3 m ρ c) (Proc.devRef .tc main_v18) = _
    after_results
    rfl
  rw [e, exitW3_arg m ρ c main_arg6 (by decide)]

/-- At region 4's exit each of its arrays holds what the pipeline leaves, and every other buffer what it held at entry. -/
theorem hF4 (c : Dev nD) (w : Fin cfg4.W) : (dat4 (entry4 m ρ) c).arrAt w cfg4.N = exit4 m ρ c (Pipeline.arrRef spec4 w) :=
  (exitW4_arr m ρ c w).symm
theorem hrest4 (c : Dev nD) : ∀ b, b ∉ Finset.univ.image (Pipeline.arrRef spec4) → exit4 m ρ c b = entry4 m ρ c b :=
  fun b hb => exitW4_of_ne m ρ c b fun w e => hb (Finset.mem_image.mpr ⟨w, Finset.mem_univ _, e⟩)

end Cert.Kernel.Fr

end
-- ==== Proof.K.Region5.lean ====
/-
  Region 5 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.Kernel.Launch
import proofs.«136918_j48060684042913_1_alg».proof.Proof.Gen.Kernel.Skeleton
import proofs.«136918_j48060684042913_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The staging buffer of the row tile holds rows 5000 t to 5000 t + 4999 of x at point t: it is fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the weight matrix holds all of w at every point: fetched at the first point, its block index
    never moves, and the body leaves it in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev rx5 : Rect S5000x128 := Rect.unit (s := S5000x128) ![0, 0] S5000x128.size inb_S5000x128_S5000x128_0_0
abbrev rw5 : Rect S128x256 := Rect.unit (s := S128x256) ![0, 0] S128x256.size inb_S128x256_S128x256_0_0
abbrev ro5 : Rect S5000x256 := Rect.unit (s := S5000x256) ![0, 0] S5000x256.size inb_S5000x256_S5000x256_0_0

/-! ## What the body leaves in the output tile -/

/-- The output tile after the body: its one store, the product of the row tile x0 and the weights x1. -/
def out5_2 (x0 : Vec F S5000x128 .f32) (x1 : Vec F S128x256 .f32) : Vec F S5000x256 .f32 :=
  View.canon [⟨ro5, k5_pay1 (View.ld x0 rx5) (View.ld x1 rw5)⟩]

/-- The one store covers the whole tile. -/
theorem cover5_2 (p0 : Vec F S5000x256 .f32) (y : S5000x256.Idx) :
    ∃ pc ∈ ([⟨ro5, p0⟩] : List (View.Piece (Elt F) S5000x256 .f32)), y ∈ pc.1.set :=
  View.cover_of_tiled [⟨ro5, p0⟩] S5000x256.size (by rfl) y

/-! ## The body's triple -/

set_option maxHeartbeats 1000000 in
/-- On whole staging buffers, the two inputs' at contents x0, x1 and the output's at anything, the body runs to its
    continuation with the inputs as they were and the output tile at out5_2 x0 x1. -/
theorem sound_kernel5 (c : Dev nD) (E : Set ℕ) (i : grid5.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region on core c: the arrays as the region finds them; after the body at point t each input's
    buffer still at its tile and the output's at the product of the two tiles; nothing kept between points beyond the scoped
    rest and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point t, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their tiles, so the body's triple applies; what is kept between points
    and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.Fold5.lean ====
/-
  Region 5 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.K.Fold4
import proofs.«136918_j48060684042913_1_alg».proof.Proof.K.Region5

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 5 is entered: the host stretch before it applied to what the item before left. -/
abbrev entryW5 : Dev nD → Valuation τ sig (Elt F) := fun c => StableHlo.after hostOps5 (exitW4 m ρ c)
/-- The same read at the core's references. -/
abbrev entry5 : (c : Dev nD) → (b : Ref sig .tc) → Buf (Elt F) ((c : Thread nD τ).loc b) := fun c b => entryW5 m ρ c b

/-- The buffers when region 5 is left. -/
def exitW5 (c : Dev nD) : Valuation τ sig (Elt F) :=
  Pipeline.withArrays spec5 c (entryW5 m ρ c) fun w => (dat5 (entry5 m ρ) c).arrAt w cfg5.N
/-- The same read at the core's references. -/
abbrev exit5 : (c : Dev nD) → (b : Ref sig .tc) → Buf (Elt F) ((c : Thread nD τ).loc b) := fun c b => exitW5 m ρ c b

theorem exitW5_arr (c : Dev nD) (w : Fin cfg5.W) :
    exitW5 m ρ c (Proc.devRef .tc (Pipeline.arrRef spec5 w)) = (dat5 (entry5 m ρ) c).arrAt w cfg5.N := by
  unfold exitW5; exact Pipeline.withArrays_arr spec5 launch5.win.arr_inj c _ _ w
theorem exitW5_of_ne (c : Dev nD) (b : Ref sig .tc) (hb : ∀ w, Pipeline.arrRef spec5 w ≠ b) :
    exitW5 m ρ c (Proc.devRef .tc b) = entryW5 m ρ c (Proc.devRef .tc b) := by
  unfold exitW5; exact Pipeline.withArrays_of_ne spec5 c _ _ b hb
/-- The host stretch before region 5 leaves every buffer it does not write as it was. -/
theorem entryW5_of (c : Dev nD) (b : Ref sig .tc) (h : b ∉ hostOps5_W) :
    entryW5 m ρ c (Proc.devRef .tc b) = exitW4 m ρ c (Proc.devRef .tc b) :=
  StableHlo.after_of_writes_sub hostOps5 _ hostOps5_writes h

/-- No argument array is written by the host stretch before region 0, and none is an operand array of region 0: an argument
    holds its launch contents when region 5 is entered and when it is left. -/
theorem entryW5_arg (c : Dev nD) (b : Ref sig .tc) (hb : IsArg b) :
    entryW5 m ρ c (Proc.devRef .tc b) = m ((c : Thread nD τ).loc b) :=
  (entryW5_of m ρ c b (by rcases hb with rfl | rfl | rfl | rfl | rfl | rfl | rfl <;> decide)).trans (exitW4_arg m ρ c b hb)
theorem exitW5_arg (c : Dev nD) (b : Ref sig .tc) (hb : IsArg b) :
    exitW5 m ρ c (Proc.devRef .tc b) = m ((c : Thread nD τ).loc b) :=
  (exitW5_of_ne m ρ c b (by rcases hb with rfl | rfl | rfl | rfl | rfl | rfl | rfl <;> decide)).trans (entryW5_arg m ρ c b hb)

/-- Between the exit of the item before and region 5's exit, no product array but region 5's own changes: the host stretch
    writes none, and the region's other two operand arrays are none. -/
theorem stepW5_out (c : Dev nD) (b : Ref sig .tc) (hb : IsOut b) (hne : b ≠ main_v23) :
    exitW5 m ρ c (Proc.devRef .tc b) = exitW4 m ρ c (Proc.devRef .tc b) :=
  (exitW5_of_ne m ρ c b (by rcases hb with rfl | rfl | rfl | rfl | rfl | rfl <;> first | exact absurd rfl hne | decide)).trans
    (entryW5_of m ρ c b (by rcases hb with rfl | rfl | rfl | rfl | rfl | rfl <;> decide))

/-- The row matrix region 5 is entered with: the block's argument array with (sample, component) flattened to rows. -/
theorem entry5_x (c : Dev nD) :
    entry5 m ρ c main_v20 = shapeCast S220000x128 (m ((c : Thread nD τ).loc main_arg5)) shapeCasts_S20000x11x128_S220000x128 := by
  have e : entry5 m ρ c main_v20 = shapeCast S220000x128 (exitW4 m ρ c (Proc.devRef .tc main_arg5)) shapeCasts_S20000x11x128_S220000x128 := by
    show StableHlo.after hostOps5 (exitW4 m ρ c) (Proc.devRef .tc main_v20) = _
    after_results
    rfl
  rw [e, exitW4_arg m ρ c main_arg5 (by decide)]

/-- The weight matrix region 5 is entered with: the block's slice of the weight array as a 128 by 256 matrix. -/
theorem entry5_w (c : Dev nD) :
    entry5 m ρ c main_v22 = shapeCast S128x256 (extractStridedSlice S1x128x256 ![5, 0, 0] (m ((c : Thread nD τ).loc main_arg6)) slices_S6x128x256_S1x128x256_5_0_0) shapeCasts_S1x128x256_S128x256 := by
  have e : entry5 m ρ c main_v22 = shapeCast S128x256 (extractStridedSlice S1x128x256 ![5, 0, 0] (exitW4 m ρ c (Proc.devRef .tc main_arg6)) slices_S6x128x256_S1x128x256_5_0_0) shapeCasts_S1x128x256_S128x256 := by
    show StableHlo.after hostOps5 (exitW4 m ρ c) (Proc.devRef .tc main_v22) = _
    after_results
    rfl
  rw [e, exitW4_arg m ρ c main_arg6 (by decide)]

/-- At region 5's exit each of its arrays holds what the pipeline leaves, and every other buffer what it held at entry. -/
theorem hF5 (c : Dev nD) (w : Fin cfg5.W) : (dat5 (entry5 m ρ) c).arrAt w cfg5.N = exit5 m ρ c (Pipeline.arrRef spec5 w) :=
  (exitW5_arr m ρ c w).symm
theorem hrest5 (c : Dev nD) : ∀ b, b ∉ Finset.univ.image (Pipeline.arrRef spec5) → exit5 m ρ c b = entry5 m ρ c b :=
  fun b hb => exitW5_of_ne m ρ c b fun w e => hb (Finset.mem_image.mpr ⟨w, Finset.mem_univ _, e⟩)

end Cert.Kernel.Fr

end
-- ==== Proof.K.Pdats.lean ====
/-
  The proof data of all six row-tiled matrix products, each at the contents its region is entered with.
-/
import proofs.«136918_j48060684042913_1_alg».proof.Proof.K.Fold5

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (entry0 m ρ) c
  | ⟨1, _⟩ => fun c => dat1 (entry1 m ρ) c
  | ⟨2, _⟩ => fun c => dat2 (entry2 m ρ) c
  | ⟨3, _⟩ => fun c => dat3 (entry3 m ρ) c
  | ⟨4, _⟩ => fun c => dat4 (entry4 m ρ) c
  | ⟨5, _⟩ => fun c => dat5 (entry5 m ρ) c

end Cert.Kernel.Fr

end
-- ==== Proof.K.Reg0.lean ====
/-
  Region 0 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.K.Pdats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m ρ) c).loose
  hwaits := Pipeline.hwaits_of_owed_zero _ _ _ _ L lv 0 fun _ _ => rfl
  pre c := iprop(StableHlo.held (c : Thread nD τ) (Pipeline.ucRefs τ sig) (entryW0 m ρ c) ∗ Rest c)
  post c := iprop(StableHlo.held (c : Thread nD τ) (Pipeline.ucRefs τ sig) (exitW0 m ρ c) ∗ Rest c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (exit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg1.lean ====
/-
  Region 1 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.K.Pdats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m ρ) c).loose
  hwaits := Pipeline.hwaits_of_owed_zero _ _ _ _ L lv 1 fun _ _ => rfl
  pre c := iprop(StableHlo.held (c : Thread nD τ) (Pipeline.ucRefs τ sig) (entryW1 m ρ c) ∗ Rest c)
  post c := iprop(StableHlo.held (c : Thread nD τ) (Pipeline.ucRefs τ sig) (exitW1 m ρ c) ∗ Rest c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (entry1 m ρ c) (exit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg2.lean ====
/-
  Region 2 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.K.Pdats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (entry2 m ρ) c).loose
  hwaits := Pipeline.hwaits_of_owed_zero _ _ _ _ L lv 2 fun _ _ => rfl
  pre c := iprop(StableHlo.held (c : Thread nD τ) (Pipeline.ucRefs τ sig) (entryW2 m ρ c) ∗ Rest c)
  post c := iprop(StableHlo.held (c : Thread nD τ) (Pipeline.ucRefs τ sig) (exitW2 m ρ c) ∗ Rest c)
  X c := iprop(∃ r, prngReg c r)
  Y c := iprop(∃ r, prngReg c r)
  Z c := Pipeline.unscopedRest (Ix := Unit) (Name := ℕ) (U := UR sig nD τ) (Lvl := ℕ) spec2 c (entry2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (entry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (entry2 m ρ c) (exit2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg3.lean ====
/-
  Region 3 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.K.Pdats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (entry3 m ρ) c).loose
  hwaits := Pipeline.hwaits_of_owed_zero _ _ _ _ L lv 3 fun _ _ => rfl
  pre c := iprop(StableHlo.held (c : Thread nD τ) (Pipeline.ucRefs τ sig) (entryW3 m ρ c) ∗ Rest c)
  post c := iprop(StableHlo.held (c : Thread nD τ) (Pipeline.ucRefs τ sig) (exitW3 m ρ c) ∗ Rest c)
  X c := iprop(∃ r, prngReg c r)
  Y c := iprop(∃ r, prngReg c r)
  Z c := Pipeline.unscopedRest (Ix := Unit) (Name := ℕ) (U := UR sig nD τ) (Lvl := ℕ) spec3 c (entry3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (entry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (entry3 m ρ c) (exit3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg4.lean ====
/-
  Region 4 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.K.Pdats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (entry4 m ρ) c).loose
  hwaits := Pipeline.hwaits_of_owed_zero _ _ _ _ L lv 4 fun _ _ => rfl
  pre c := iprop(StableHlo.held (c : Thread nD τ) (Pipeline.ucRefs τ sig) (entryW4 m ρ c) ∗ Rest c)
  post c := iprop(StableHlo.held (c : Thread nD τ) (Pipeline.ucRefs τ sig) (exitW4 m ρ c) ∗ Rest c)
  X c := iprop(∃ r, prngReg c r)
  Y c := iprop(∃ r, prngReg c r)
  Z c := Pipeline.unscopedRest (Ix := Unit) (Name := ℕ) (U := UR sig nD τ) (Lvl := ℕ) spec4 c (entry4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (entry4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (entry4 m ρ c) (exit4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg5.lean ====
/-
  Region 5 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.K.Pdats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (entry5 m ρ) c).loose
  hwaits := Pipeline.hwaits_of_owed_zero _ _ _ _ L lv 5 fun _ _ => rfl
  pre c := iprop(StableHlo.held (c : Thread nD τ) (Pipeline.ucRefs τ sig) (entryW5 m ρ c) ∗ Rest c)
  post c := iprop(StableHlo.held (c : Thread nD τ) (Pipeline.ucRefs τ sig) (exitW5 m ρ c) ∗ Rest c)
  X c := iprop(∃ r, prngReg c r)
  Y c := iprop(∃ r, prngReg c r)
  Z c := Pipeline.unscopedRest (Ix := Unit) (Name := ℕ) (U := UR sig nD τ) (Lvl := ℕ) spec5 c (entry5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (entry5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (entry5 m ρ c) (exit5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Run.lean ====
/-
  The run of the whole program: the main function is thirteen items, seven stretches of host operations with the six
  row-tiled matrix products between them. Each item is entered from the contents the one before leaves, so every weakly
  fair execution terminates without a fault, and at the end every unscoped buffer of the core holds the last item's
  contents: the concatenation's stretch applied to what the sixth product's region leaves. No item writes an argument
  array (the host stretches write their own results, the regions their product arrays), so each argument ends as launched.
-/
import proofs.«136918_j48060684042913_1_alg».proof.Proof.K.Reg0
import proofs.«136918_j48060684042913_1_alg».proof.Proof.K.Reg1
import proofs.«136918_j48060684042913_1_alg».proof.Proof.K.Reg2
import proofs.«136918_j48060684042913_1_alg».proof.Proof.K.Reg3
import proofs.«136918_j48060684042913_1_alg».proof.Proof.K.Reg4
import proofs.«136918_j48060684042913_1_alg».proof.Proof.K.Reg5

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen items in order: a host segment per stretch from the contents before it, a region per product. -/
abbrev segments : List (Pipeline.Seg (pcfgs (F := F)) adm (pdats m ρ) () defs₀ 𝒱₀ L lv) :=
  [ .host (hseg hostOps0 hostOps0_sub hostOps0_fresh (launchW m ρ)),
    .region (reg0 m ρ),
    .host (hseg hostOps1 hostOps1_sub hostOps1_fresh (exitW0 m ρ)),
    .region (reg1 m ρ),
    .host (hseg hostOps2 hostOps2_sub hostOps2_fresh (exitW1 m ρ)),
    .region (reg2 m ρ),
    .host (hseg hostOps3 hostOps3_sub hostOps3_fresh (exitW2 m ρ)),
    .region (reg3 m ρ),
    .host (hseg hostOps4 hostOps4_sub hostOps4_fresh (exitW3 m ρ)),
    .region (reg4 m ρ),
    .host (hseg hostOps5 hostOps5_sub hostOps5_fresh (exitW4 m ρ)),
    .region (reg5 m ρ),
    .host (hseg hostOps6 hostOps6_sub hostOps6_fresh (exitW5 m ρ)) ]

/-- The main function is the run of those items. -/
theorem main_run (c : Dev nD) : main (F := F) c = Pipeline.Seg.run (segments m ρ) := (main_chain c).trans (by chain_rfl)

/-- The buffers at the end: the last stretch (the concatenation) applied to what the sixth region leaves. -/
abbrev finalW : Dev nD → Valuation τ sig (Elt F) := fun c => StableHlo.after hostOps6 (exitW5 m ρ c)

/-- The last thread state without the dues. -/
abbrev Tlast (c : Dev nD) : sProp 𝕄 := iprop(StableHlo.held (c : Thread nD τ) (Pipeline.ucRefs τ sig) (finalW m ρ c) ∗ ∃ r, prngReg c r)

set_option backward.isDefEq.respectTransparency.types false in
/-- Every weakly fair execution of the main function from the memory m with zero counters terminates, nothing faulting, and
    every final state holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = finalW m ρ c b) :=
  Pipeline.θ_run_regions_kit (pcfgs (F := F)) adm (pdats m ρ) () cellOf_inj emb₁ defs₀ 𝒱₀ L lv m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (launchW m ρ c) ∗ Rest c)) (Tₙ := Tlast m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show (iprop(StableHlo.held (c : Thread nD τ) (Pipeline.ucRefs τ sig) (finalW m ρ c) ∗ Rest c) : sProp 𝕄)
          ⊢ iprop(Tlast m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (launchW m ρ c)
        from Pipeline.unscopedBufs_held c (launchW m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = finalW m ρ c b)
    (hfin := fun c s' => by
      iintro ⟨⟨Hh, -⟩, HSI⟩
      unfold StableHlo.held
      imodintro
      iapply (pointsTo_read_all (Pipeline.ucRefs τ sig) (fun b => (((c : Thread nD τ)).1, b)) (finalW m ρ c) s')
      isplitl [Hh] <;> iassumption)
    (hQ := fun s h => h)

/-! ## What no item writes ends as launched -/

theorem finalW_of (c : Dev nD) (b : Ref sig .tc) (h : b ∉ hostOps6_W) :
    finalW m ρ c (Proc.devRef .tc b) = exitW5 m ρ c (Proc.devRef .tc b) :=
  StableHlo.after_of_writes_sub hostOps6 _ hostOps6_writes h

/-- A buffer that no host stretch writes and that is no region's operand array holds its launch contents at the end. -/
theorem kept (c : Dev nD) (b : Ref sig .tc)
    (h0 : b ∉ hostOps0_W) (h1 : b ∉ hostOps1_W) (h2 : b ∉ hostOps2_W) (h3 : b ∉ hostOps3_W) (h4 : b ∉ hostOps4_W)
    (h5 : b ∉ hostOps5_W) (h6 : b ∉ hostOps6_W)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b) (r4 : ∀ w, Pipeline.arrRef spec4 w ≠ b) (r5 : ∀ w, Pipeline.arrRef spec5 w ≠ b) :
    finalW m ρ c (Proc.devRef .tc b) = m ((c : Thread nD τ).loc b) :=
  (finalW_of m ρ c b h6).trans <| (exitW5_of_ne m ρ c b r5).trans <| (entryW5_of m ρ c b h5).trans <|
  (exitW4_of_ne m ρ c b r4).trans <| (entryW4_of m ρ c b h4).trans <| (exitW3_of_ne m ρ c b r3).trans <|
  (entryW3_of m ρ c b h3).trans <| (exitW2_of_ne m ρ c b r2).trans <| (entryW2_of m ρ c b h2).trans <|
  (exitW1_of_ne m ρ c b r1).trans <| (entryW1_of m ρ c b h1).trans <| (exitW0_of_ne m ρ c b r0).trans <|
  (entryW0_of m ρ c b h0).trans rfl

/-- An argument array ends as launched. -/
theorem kept_arg (c : Dev nD) (b : Ref sig .tc)
    (h : b = main_arg0 ∨ b = main_arg1 ∨ b = main_arg2 ∨ b = main_arg3 ∨ b = main_arg4 ∨ b = main_arg5 ∨ b = main_arg6) :
    finalW m ρ c (Proc.devRef .tc b) = m ((c : Thread nD τ).loc b) := by
  rcases h with rfl | rfl | rfl | rfl | rfl | rfl | rfl <;>
    exact kept m ρ c _ (by decide) (by decide) (by decide) (by decide) (by decide) (by decide) (by decide)
      (by decide) (by decide) (by decide) (by decide) (by decide) (by decide)

/-- The frame: every weakly fair execution terminates without a fault and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (kept_arg m ρ c main_arg0 (by decide)),
     (h c _ (mem_uc main_arg1 (by decide))).trans (kept_arg m ρ c main_arg1 (by decide)),
     (h c _ (mem_uc main_arg2 (by decide))).trans (kept_arg m ρ c main_arg2 (by decide)),
     (h c _ (mem_uc main_arg3 (by decide))).trans (kept_arg m ρ c main_arg3 (by decide)),
     (h c _ (mem_uc main_arg4 (by decide))).trans (kept_arg m ρ c main_arg4 (by decide)),
     (h c _ (mem_uc main_arg5 (by decide))).trans (kept_arg m ρ c main_arg5 (by decide)),
     (h c _ (mem_uc main_arg6 (by decide))).trans (kept_arg m ρ c main_arg6 (by decide))⟩) (run_all m ρ)

end Cert.Kernel.Fr

end
-- ==== Proof.KI.FoldBase.lean ====
/-
  The run of the whole program follows the contents of the core's buffers from one item of the main function to the next:
  a stretch of host operations applies its operations to them, a region leaves its operand arrays as its write-backs
  leave them and every other buffer as entered. This module holds what every step of that fold shares: the contents at
  launch, and what rides beside the buffers through every item (the generator register at some state, nothing owed).
-/
import proofs.«136918_j48060684042913_1_alg».proof.Proof.Gen.KernelIdeal.Launch
import proofs.«136918_j48060684042913_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers at launch. -/
abbrev launchW : Dev nD → Valuation τ sig (Elt F) := fun c b => (s₀ m ρ).mem ((c : Dev nD), b)

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and the core's dues, none. -/
abbrev Rest (c : Dev nD) : sProp 𝕄 := iprop((∃ r, prngReg c r) ∗ ∃ W, owes (c : Thread nD τ) (0 : CellTallies nD τ sig Unit) W)

/-- A stretch of host operations as a segment over every unscoped buffer, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- The seven argument arrays of the main function. -/
abbrev IsArg (b : Ref sig .tc) : Prop :=
  b = main_arg0 ∨ b = main_arg1 ∨ b = main_arg2 ∨ b = main_arg3 ∨ b = main_arg4 ∨ b = main_arg5 ∨ b = main_arg6

/-- The six product arrays, one per region. -/
abbrev IsOut (b : Ref sig .tc) : Prop :=
  b = main_v3 ∨ b = main_v7 ∨ b = main_v11 ∨ b = main_v15 ∨ b = main_v19 ∨ b = main_v23

/-- At launch a buffer holds the launch memory. -/
theorem launchW_arg (c : Dev nD) (b : Ref sig .tc) (hb : IsArg b) :
    launchW m ρ c (Proc.devRef .tc b) = m ((c : Thread nD τ).loc b) := rfl

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.Region0.lean ====
/-
  Region 0 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.KernelIdeal.Launch
import proofs.«136918_j48060684042913_1_alg».proof.Proof.Gen.KernelIdeal.Skeleton
import proofs.«136918_j48060684042913_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the row tile holds rows 5000 t to 5000 t + 4999 of x at point t: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of the weight matrix holds all of w at every point: fetched at the first point, its block index
    never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rx0 : Rect S5000x128 := Rect.unit (s := S5000x128) ![0, 0] S5000x128.size inb_S5000x128_S5000x128_0_0
abbrev rw0 : Rect S128x256 := Rect.unit (s := S128x256) ![0, 0] S128x256.size inb_S128x256_S128x256_0_0
abbrev ro0 : Rect S5000x256 := Rect.unit (s := S5000x256) ![0, 0] S5000x256.size inb_S5000x256_S5000x256_0_0

/-! ## What the body leaves in the output tile -/

/-- The output tile after the body: its one store, the product of the row tile x0 and the weights x1. -/
def out0_2 (x0 : Vec F S5000x128 .f32) (x1 : Vec F S128x256 .f32) : Vec F S5000x256 .f32 :=
  View.canon [⟨ro0, k0_pay1 (View.ld x0 rx0) (View.ld x1 rw0)⟩]

/-- The one store covers the whole tile. -/
theorem cover0_2 (p0 : Vec F S5000x256 .f32) (y : S5000x256.Idx) :
    ∃ pc ∈ ([⟨ro0, p0⟩] : List (View.Piece (Elt F) S5000x256 .f32)), y ∈ pc.1.set :=
  View.cover_of_tiled [⟨ro0, p0⟩] S5000x256.size (by rfl) y

/-! ## The body's triple -/

set_option maxHeartbeats 1000000 in
/-- On whole staging buffers, the two inputs' at contents x0, x1 and the output's at anything, the body runs to its
    continuation with the inputs as they were and the output tile at out0_2 x0 x1. -/
theorem sound_kernel0 (c : Dev nD) (E : Set ℕ) (i : grid0.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t each input's
    buffer still at its tile and the output's at the product of the two tiles; nothing kept between points beyond the scoped
    rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their tiles, so the body's triple applies; what is kept between points
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Fold0.lean ====
/-
  Region 0 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.KI.FoldBase
import proofs.«136918_j48060684042913_1_alg».proof.Proof.KI.Region0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 0 is entered: the host stretch before it applied to what the item before left. -/
abbrev entryW0 : Dev nD → Valuation τ sig (Elt F) := fun c => StableHlo.after hostOps0 (launchW m ρ c)
/-- The same read at the core's references. -/
abbrev entry0 : (c : Dev nD) → (b : Ref sig .tc) → Buf (Elt F) ((c : Thread nD τ).loc b) := fun c b => entryW0 m ρ c b

/-- The buffers when region 0 is left. -/
def exitW0 (c : Dev nD) : Valuation τ sig (Elt F) :=
  Pipeline.withArrays spec0 c (entryW0 m ρ c) fun w => (dat0 (entry0 m ρ) c).arrAt w cfg0.N
/-- The same read at the core's references. -/
abbrev exit0 : (c : Dev nD) → (b : Ref sig .tc) → Buf (Elt F) ((c : Thread nD τ).loc b) := fun c b => exitW0 m ρ c b

theorem exitW0_arr (c : Dev nD) (w : Fin cfg0.W) :
    exitW0 m ρ c (Proc.devRef .tc (Pipeline.arrRef spec0 w)) = (dat0 (entry0 m ρ) c).arrAt w cfg0.N := by
  unfold exitW0; exact Pipeline.withArrays_arr spec0 launch0.win.arr_inj c _ _ w
theorem exitW0_of_ne (c : Dev nD) (b : Ref sig .tc) (hb : ∀ w, Pipeline.arrRef spec0 w ≠ b) :
    exitW0 m ρ c (Proc.devRef .tc b) = entryW0 m ρ c (Proc.devRef .tc b) := by
  unfold exitW0; exact Pipeline.withArrays_of_ne spec0 c _ _ b hb
/-- The host stretch before region 0 leaves every buffer it does not write as it was. -/
theorem entryW0_of (c : Dev nD) (b : Ref sig .tc) (h : b ∉ hostOps0_W) :
    entryW0 m ρ c (Proc.devRef .tc b) = launchW m ρ c (Proc.devRef .tc b) :=
  StableHlo.after_of_writes_sub hostOps0 _ hostOps0_writes h

/-- No argument array is written by the host stretch before region 0, and none is an operand array of region 0: an argument
    holds its launch contents when region 0 is entered and when it is left. -/
theorem entryW0_arg (c : Dev nD) (b : Ref sig .tc) (hb : IsArg b) :
    entryW0 m ρ c (Proc.devRef .tc b) = m ((c : Thread nD τ).loc b) :=
  (entryW0_of m ρ c b (by rcases hb with rfl | rfl | rfl | rfl | rfl | rfl | rfl <;> decide)).trans (launchW_arg m ρ c b hb)
theorem exitW0_arg (c : Dev nD) (b : Ref sig .tc) (hb : IsArg b) :
    exitW0 m ρ c (Proc.devRef .tc b) = m ((c : Thread nD τ).loc b) :=
  (exitW0_of_ne m ρ c b (by rcases hb with rfl | rfl | rfl | rfl | rfl | rfl | rfl <;> decide)).trans (entryW0_arg m ρ c b hb)

/-- Between the exit of the item before and region 0's exit, no product array but region 0's own changes: the host stretch
    writes none, and the region's other two operand arrays are none. -/
theorem stepW0_out (c : Dev nD) (b : Ref sig .tc) (hb : IsOut b) (hne : b ≠ main_v3) :
    exitW0 m ρ c (Proc.devRef .tc b) = launchW m ρ c (Proc.devRef .tc b) :=
  (exitW0_of_ne m ρ c b (by rcases hb with rfl | rfl | rfl | rfl | rfl | rfl <;> first | exact absurd rfl hne | decide)).trans
    (entryW0_of m ρ c b (by rcases hb with rfl | rfl | rfl | rfl | rfl | rfl <;> decide))

/-- The row matrix region 0 is entered with: the block's argument array with (sample, component) flattened to rows. -/
theorem entry0_x (c : Dev nD) :
    entry0 m ρ c main_v0 = shapeCast S20000x128 (m ((c : Thread nD τ).loc main_arg0)) shapeCasts_S20000x1x128_S20000x128 := by
  have e : entry0 m ρ c main_v0 = shapeCast S20000x128 (launchW m ρ c (Proc.devRef .tc main_arg0)) shapeCasts_S20000x1x128_S20000x128 := by
    show StableHlo.after hostOps0 (launchW m ρ c) (Proc.devRef .tc main_v0) = _
    after_results
    rfl
  rw [e, launchW_arg m ρ c main_arg0 (by decide)]

/-- The weight matrix region 0 is entered with: the block's slice of the weight array as a 128 by 256 matrix. -/
theorem entry0_w (c : Dev nD) :
    entry0 m ρ c main_v2 = shapeCast S128x256 (extractStridedSlice S1x128x256 ![0, 0, 0] (m ((c : Thread nD τ).loc main_arg6)) slices_S6x128x256_S1x128x256_0_0_0) shapeCasts_S1x128x256_S128x256 := by
  have e : entry0 m ρ c main_v2 = shapeCast S128x256 (extractStridedSlice S1x128x256 ![0, 0, 0] (launchW m ρ c (Proc.devRef .tc main_arg6)) slices_S6x128x256_S1x128x256_0_0_0) shapeCasts_S1x128x256_S128x256 := by
    show StableHlo.after hostOps0 (launchW m ρ c) (Proc.devRef .tc main_v2) = _
    after_results
    rfl
  rw [e, launchW_arg m ρ c main_arg6 (by decide)]

/-- At region 0's exit each of its arrays holds what the pipeline leaves, and every other buffer what it held at entry. -/
theorem hF0 (c : Dev nD) (w : Fin cfg0.W) : (dat0 (entry0 m ρ) c).arrAt w cfg0.N = exit0 m ρ c (Pipeline.arrRef spec0 w) :=
  (exitW0_arr m ρ c w).symm
theorem hrest0 (c : Dev nD) : ∀ b, b ∉ Finset.univ.image (Pipeline.arrRef spec0) → exit0 m ρ c b = entry0 m ρ c b :=
  fun b hb => exitW0_of_ne m ρ c b fun w e => hb (Finset.mem_image.mpr ⟨w, Finset.mem_univ _, e⟩)

end Cert.KernelIdeal.Fr

end
-- ==== Proof.KI.Region1.lean ====
/-
  Region 1 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.KernelIdeal.Launch
import proofs.«136918_j48060684042913_1_alg».proof.Proof.Gen.KernelIdeal.Skeleton
import proofs.«136918_j48060684042913_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the row tile holds rows 5000 t to 5000 t + 4999 of x at point t: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of the weight matrix holds all of w at every point: fetched at the first point, its block index
    never moves, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rx1 : Rect S5000x128 := Rect.unit (s := S5000x128) ![0, 0] S5000x128.size inb_S5000x128_S5000x128_0_0
abbrev rw1 : Rect S128x256 := Rect.unit (s := S128x256) ![0, 0] S128x256.size inb_S128x256_S128x256_0_0
abbrev ro1 : Rect S5000x256 := Rect.unit (s := S5000x256) ![0, 0] S5000x256.size inb_S5000x256_S5000x256_0_0

/-! ## What the body leaves in the output tile -/

/-- The output tile after the body: its one store, the product of the row tile x0 and the weights x1. -/
def out1_2 (x0 : Vec F S5000x128 .f32) (x1 : Vec F S128x256 .f32) : Vec F S5000x256 .f32 :=
  View.canon [⟨ro1, k1_pay1 (View.ld x0 rx1) (View.ld x1 rw1)⟩]

/-- The one store covers the whole tile. -/
theorem cover1_2 (p0 : Vec F S5000x256 .f32) (y : S5000x256.Idx) :
    ∃ pc ∈ ([⟨ro1, p0⟩] : List (View.Piece (Elt F) S5000x256 .f32)), y ∈ pc.1.set :=
  View.cover_of_tiled [⟨ro1, p0⟩] S5000x256.size (by rfl) y

/-! ## The body's triple -/

set_option maxHeartbeats 1000000 in
/-- On whole staging buffers, the two inputs' at contents x0, x1 and the output's at anything, the body runs to its
    continuation with the inputs as they were and the output tile at out1_2 x0 x1. -/
theorem sound_kernel1 (c : Dev nD) (E : Set ℕ) (i : grid1.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core c: the arrays as the region finds them; after the body at point t each input's
    buffer still at its tile and the output's at the product of the two tiles; nothing kept between points beyond the scoped
    rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their tiles, so the body's triple applies; what is kept between points
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Fold1.lean ====
/-
  Region 1 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.KI.Fold0
import proofs.«136918_j48060684042913_1_alg».proof.Proof.KI.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 1 is entered: the host stretch before it applied to what the item before left. -/
abbrev entryW1 : Dev nD → Valuation τ sig (Elt F) := fun c => StableHlo.after hostOps1 (exitW0 m ρ c)
/-- The same read at the core's references. -/
abbrev entry1 : (c : Dev nD) → (b : Ref sig .tc) → Buf (Elt F) ((c : Thread nD τ).loc b) := fun c b => entryW1 m ρ c b

/-- The buffers when region 1 is left. -/
def exitW1 (c : Dev nD) : Valuation τ sig (Elt F) :=
  Pipeline.withArrays spec1 c (entryW1 m ρ c) fun w => (dat1 (entry1 m ρ) c).arrAt w cfg1.N
/-- The same read at the core's references. -/
abbrev exit1 : (c : Dev nD) → (b : Ref sig .tc) → Buf (Elt F) ((c : Thread nD τ).loc b) := fun c b => exitW1 m ρ c b

theorem exitW1_arr (c : Dev nD) (w : Fin cfg1.W) :
    exitW1 m ρ c (Proc.devRef .tc (Pipeline.arrRef spec1 w)) = (dat1 (entry1 m ρ) c).arrAt w cfg1.N := by
  unfold exitW1; exact Pipeline.withArrays_arr spec1 launch1.win.arr_inj c _ _ w
theorem exitW1_of_ne (c : Dev nD) (b : Ref sig .tc) (hb : ∀ w, Pipeline.arrRef spec1 w ≠ b) :
    exitW1 m ρ c (Proc.devRef .tc b) = entryW1 m ρ c (Proc.devRef .tc b) := by
  unfold exitW1; exact Pipeline.withArrays_of_ne spec1 c _ _ b hb
/-- The host stretch before region 1 leaves every buffer it does not write as it was. -/
theorem entryW1_of (c : Dev nD) (b : Ref sig .tc) (h : b ∉ hostOps1_W) :
    entryW1 m ρ c (Proc.devRef .tc b) = exitW0 m ρ c (Proc.devRef .tc b) :=
  StableHlo.after_of_writes_sub hostOps1 _ hostOps1_writes h

/-- No argument array is written by the host stretch before region 0, and none is an operand array of region 0: an argument
    holds its launch contents when region 1 is entered and when it is left. -/
theorem entryW1_arg (c : Dev nD) (b : Ref sig .tc) (hb : IsArg b) :
    entryW1 m ρ c (Proc.devRef .tc b) = m ((c : Thread nD τ).loc b) :=
  (entryW1_of m ρ c b (by rcases hb with rfl | rfl | rfl | rfl | rfl | rfl | rfl <;> decide)).trans (exitW0_arg m ρ c b hb)
theorem exitW1_arg (c : Dev nD) (b : Ref sig .tc) (hb : IsArg b) :
    exitW1 m ρ c (Proc.devRef .tc b) = m ((c : Thread nD τ).loc b) :=
  (exitW1_of_ne m ρ c b (by rcases hb with rfl | rfl | rfl | rfl | rfl | rfl | rfl <;> decide)).trans (entryW1_arg m ρ c b hb)

/-- Between the exit of the item before and region 1's exit, no product array but region 1's own changes: the host stretch
    writes none, and the region's other two operand arrays are none. -/
theorem stepW1_out (c : Dev nD) (b : Ref sig .tc) (hb : IsOut b) (hne : b ≠ main_v7) :
    exitW1 m ρ c (Proc.devRef .tc b) = exitW0 m ρ c (Proc.devRef .tc b) :=
  (exitW1_of_ne m ρ c b (by rcases hb with rfl | rfl | rfl | rfl | rfl | rfl <;> first | exact absurd rfl hne | decide)).trans
    (entryW1_of m ρ c b (by rcases hb with rfl | rfl | rfl | rfl | rfl | rfl <;> decide))

/-- The row matrix region 1 is entered with: the block's argument array with (sample, component) flattened to rows. -/
theorem entry1_x (c : Dev nD) :
    entry1 m ρ c main_v4 = shapeCast S60000x128 (m ((c : Thread nD τ).loc main_arg1)) shapeCasts_S20000x3x128_S60000x128 := by
  have e : entry1 m ρ c main_v4 = shapeCast S60000x128 (exitW0 m ρ c (Proc.devRef .tc main_arg1)) shapeCasts_S20000x3x128_S60000x128 := by
    show StableHlo.after hostOps1 (exitW0 m ρ c) (Proc.devRef .tc main_v4) = _
    after_results
    rfl
  rw [e, exitW0_arg m ρ c main_arg1 (by decide)]

/-- The weight matrix region 1 is entered with: the block's slice of the weight array as a 128 by 256 matrix. -/
theorem entry1_w (c : Dev nD) :
    entry1 m ρ c main_v6 = shapeCast S128x256 (extractStridedSlice S1x128x256 ![1, 0, 0] (m ((c : Thread nD τ).loc main_arg6)) slices_S6x128x256_S1x128x256_1_0_0) shapeCasts_S1x128x256_S128x256 := by
  have e : entry1 m ρ c main_v6 = shapeCast S128x256 (extractStridedSlice S1x128x256 ![1, 0, 0] (exitW0 m ρ c (Proc.devRef .tc main_arg6)) slices_S6x128x256_S1x128x256_1_0_0) shapeCasts_S1x128x256_S128x256 := by
    show StableHlo.after hostOps1 (exitW0 m ρ c) (Proc.devRef .tc main_v6) = _
    after_results
    rfl
  rw [e, exitW0_arg m ρ c main_arg6 (by decide)]

/-- At region 1's exit each of its arrays holds what the pipeline leaves, and every other buffer what it held at entry. -/
theorem hF1 (c : Dev nD) (w : Fin cfg1.W) : (dat1 (entry1 m ρ) c).arrAt w cfg1.N = exit1 m ρ c (Pipeline.arrRef spec1 w) :=
  (exitW1_arr m ρ c w).symm
theorem hrest1 (c : Dev nD) : ∀ b, b ∉ Finset.univ.image (Pipeline.arrRef spec1) → exit1 m ρ c b = entry1 m ρ c b :=
  fun b hb => exitW1_of_ne m ρ c b fun w e => hb (Finset.mem_image.mpr ⟨w, Finset.mem_univ _, e⟩)

end Cert.KernelIdeal.Fr

end
-- ==== Proof.KI.Region2.lean ====
/-
  Region 2 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.KernelIdeal.Launch
import proofs.«136918_j48060684042913_1_alg».proof.Proof.Gen.KernelIdeal.Skeleton
import proofs.«136918_j48060684042913_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the row tile holds rows 5000 t to 5000 t + 4999 of x at point t: it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the weight matrix holds all of w at every point: fetched at the first point, its block index
    never moves, and the body leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev rx2 : Rect S5000x128 := Rect.unit (s := S5000x128) ![0, 0] S5000x128.size inb_S5000x128_S5000x128_0_0
abbrev rw2 : Rect S128x256 := Rect.unit (s := S128x256) ![0, 0] S128x256.size inb_S128x256_S128x256_0_0
abbrev ro2 : Rect S5000x256 := Rect.unit (s := S5000x256) ![0, 0] S5000x256.size inb_S5000x256_S5000x256_0_0

/-! ## What the body leaves in the output tile -/

/-- The output tile after the body: its one store, the product of the row tile x0 and the weights x1. -/
def out2_2 (x0 : Vec F S5000x128 .f32) (x1 : Vec F S128x256 .f32) : Vec F S5000x256 .f32 :=
  View.canon [⟨ro2, k2_pay1 (View.ld x0 rx2) (View.ld x1 rw2)⟩]

/-- The one store covers the whole tile. -/
theorem cover2_2 (p0 : Vec F S5000x256 .f32) (y : S5000x256.Idx) :
    ∃ pc ∈ ([⟨ro2, p0⟩] : List (View.Piece (Elt F) S5000x256 .f32)), y ∈ pc.1.set :=
  View.cover_of_tiled [⟨ro2, p0⟩] S5000x256.size (by rfl) y

/-! ## The body's triple -/

set_option maxHeartbeats 1000000 in
/-- On whole staging buffers, the two inputs' at contents x0, x1 and the output's at anything, the body runs to its
    continuation with the inputs as they were and the output tile at out2_2 x0 x1. -/
theorem sound_kernel2 (c : Dev nD) (E : Set ℕ) (i : grid2.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core c: the arrays as the region finds them; after the body at point t each input's
    buffer still at its tile and the output's at the product of the two tiles; nothing kept between points beyond the scoped
    rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their tiles, so the body's triple applies; what is kept between points
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Fold2.lean ====
/-
  Region 2 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.KI.Fold1
import proofs.«136918_j48060684042913_1_alg».proof.Proof.KI.Region2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 2 is entered: the host stretch before it applied to what the item before left. -/
abbrev entryW2 : Dev nD → Valuation τ sig (Elt F) := fun c => StableHlo.after hostOps2 (exitW1 m ρ c)
/-- The same read at the core's references. -/
abbrev entry2 : (c : Dev nD) → (b : Ref sig .tc) → Buf (Elt F) ((c : Thread nD τ).loc b) := fun c b => entryW2 m ρ c b

/-- The buffers when region 2 is left. -/
def exitW2 (c : Dev nD) : Valuation τ sig (Elt F) :=
  Pipeline.withArrays spec2 c (entryW2 m ρ c) fun w => (dat2 (entry2 m ρ) c).arrAt w cfg2.N
/-- The same read at the core's references. -/
abbrev exit2 : (c : Dev nD) → (b : Ref sig .tc) → Buf (Elt F) ((c : Thread nD τ).loc b) := fun c b => exitW2 m ρ c b

theorem exitW2_arr (c : Dev nD) (w : Fin cfg2.W) :
    exitW2 m ρ c (Proc.devRef .tc (Pipeline.arrRef spec2 w)) = (dat2 (entry2 m ρ) c).arrAt w cfg2.N := by
  unfold exitW2; exact Pipeline.withArrays_arr spec2 launch2.win.arr_inj c _ _ w
theorem exitW2_of_ne (c : Dev nD) (b : Ref sig .tc) (hb : ∀ w, Pipeline.arrRef spec2 w ≠ b) :
    exitW2 m ρ c (Proc.devRef .tc b) = entryW2 m ρ c (Proc.devRef .tc b) := by
  unfold exitW2; exact Pipeline.withArrays_of_ne spec2 c _ _ b hb
/-- The host stretch before region 2 leaves every buffer it does not write as it was. -/
theorem entryW2_of (c : Dev nD) (b : Ref sig .tc) (h : b ∉ hostOps2_W) :
    entryW2 m ρ c (Proc.devRef .tc b) = exitW1 m ρ c (Proc.devRef .tc b) :=
  StableHlo.after_of_writes_sub hostOps2 _ hostOps2_writes h

/-- No argument array is written by the host stretch before region 0, and none is an operand array of region 0: an argument
    holds its launch contents when region 2 is entered and when it is left. -/
theorem entryW2_arg (c : Dev nD) (b : Ref sig .tc) (hb : IsArg b) :
    entryW2 m ρ c (Proc.devRef .tc b) = m ((c : Thread nD τ).loc b) :=
  (entryW2_of m ρ c b (by rcases hb with rfl | rfl | rfl | rfl | rfl | rfl | rfl <;> decide)).trans (exitW1_arg m ρ c b hb)
theorem exitW2_arg (c : Dev nD) (b : Ref sig .tc) (hb : IsArg b) :
    exitW2 m ρ c (Proc.devRef .tc b) = m ((c : Thread nD τ).loc b) :=
  (exitW2_of_ne m ρ c b (by rcases hb with rfl | rfl | rfl | rfl | rfl | rfl | rfl <;> decide)).trans (entryW2_arg m ρ c b hb)

/-- Between the exit of the item before and region 2's exit, no product array but region 2's own changes: the host stretch
    writes none, and the region's other two operand arrays are none. -/
theorem stepW2_out (c : Dev nD) (b : Ref sig .tc) (hb : IsOut b) (hne : b ≠ main_v11) :
    exitW2 m ρ c (Proc.devRef .tc b) = exitW1 m ρ c (Proc.devRef .tc b) :=
  (exitW2_of_ne m ρ c b (by rcases hb with rfl | rfl | rfl | rfl | rfl | rfl <;> first | exact absurd rfl hne | decide)).trans
    (entryW2_of m ρ c b (by rcases hb with rfl | rfl | rfl | rfl | rfl | rfl <;> decide))

/-- The row matrix region 2 is entered with: the block's argument array with (sample, component) flattened to rows. -/
theorem entry2_x (c : Dev nD) :
    entry2 m ρ c main_v8 = shapeCast S100000x128 (m ((c : Thread nD τ).loc main_arg2)) shapeCasts_S20000x5x128_S100000x128 := by
  have e : entry2 m ρ c main_v8 = shapeCast S100000x128 (exitW1 m ρ c (Proc.devRef .tc main_arg2)) shapeCasts_S20000x5x128_S100000x128 := by
    show StableHlo.after hostOps2 (exitW1 m ρ c) (Proc.devRef .tc main_v8) = _
    after_results
    rfl
  rw [e, exitW1_arg m ρ c main_arg2 (by decide)]

/-- The weight matrix region 2 is entered with: the block's slice of the weight array as a 128 by 256 matrix. -/
theorem entry2_w (c : Dev nD) :
    entry2 m ρ c main_v10 = shapeCast S128x256 (extractStridedSlice S1x128x256 ![2, 0, 0] (m ((c : Thread nD τ).loc main_arg6)) slices_S6x128x256_S1x128x256_2_0_0) shapeCasts_S1x128x256_S128x256 := by
  have e : entry2 m ρ c main_v10 = shapeCast S128x256 (extractStridedSlice S1x128x256 ![2, 0, 0] (exitW1 m ρ c (Proc.devRef .tc main_arg6)) slices_S6x128x256_S1x128x256_2_0_0) shapeCasts_S1x128x256_S128x256 := by
    show StableHlo.after hostOps2 (exitW1 m ρ c) (Proc.devRef .tc main_v10) = _
    after_results
    rfl
  rw [e, exitW1_arg m ρ c main_arg6 (by decide)]

/-- At region 2's exit each of its arrays holds what the pipeline leaves, and every other buffer what it held at entry. -/
theorem hF2 (c : Dev nD) (w : Fin cfg2.W) : (dat2 (entry2 m ρ) c).arrAt w cfg2.N = exit2 m ρ c (Pipeline.arrRef spec2 w) :=
  (exitW2_arr m ρ c w).symm
theorem hrest2 (c : Dev nD) : ∀ b, b ∉ Finset.univ.image (Pipeline.arrRef spec2) → exit2 m ρ c b = entry2 m ρ c b :=
  fun b hb => exitW2_of_ne m ρ c b fun w e => hb (Finset.mem_image.mpr ⟨w, Finset.mem_univ _, e⟩)

end Cert.KernelIdeal.Fr

end
-- ==== Proof.KI.Region3.lean ====
/-
  Region 3 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.KernelIdeal.Launch
import proofs.«136918_j48060684042913_1_alg».proof.Proof.Gen.KernelIdeal.Skeleton
import proofs.«136918_j48060684042913_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of the row tile holds rows 5000 t to 5000 t + 4999 of x at point t: it is fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of the weight matrix holds all of w at every point: fetched at the first point, its block index
    never moves, and the body leaves it in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev rx3 : Rect S5000x128 := Rect.unit (s := S5000x128) ![0, 0] S5000x128.size inb_S5000x128_S5000x128_0_0
abbrev rw3 : Rect S128x256 := Rect.unit (s := S128x256) ![0, 0] S128x256.size inb_S128x256_S128x256_0_0
abbrev ro3 : Rect S5000x256 := Rect.unit (s := S5000x256) ![0, 0] S5000x256.size inb_S5000x256_S5000x256_0_0

/-! ## What the body leaves in the output tile -/

/-- The output tile after the body: its one store, the product of the row tile x0 and the weights x1. -/
def out3_2 (x0 : Vec F S5000x128 .f32) (x1 : Vec F S128x256 .f32) : Vec F S5000x256 .f32 :=
  View.canon [⟨ro3, k3_pay1 (View.ld x0 rx3) (View.ld x1 rw3)⟩]

/-- The one store covers the whole tile. -/
theorem cover3_2 (p0 : Vec F S5000x256 .f32) (y : S5000x256.Idx) :
    ∃ pc ∈ ([⟨ro3, p0⟩] : List (View.Piece (Elt F) S5000x256 .f32)), y ∈ pc.1.set :=
  View.cover_of_tiled [⟨ro3, p0⟩] S5000x256.size (by rfl) y

/-! ## The body's triple -/

set_option maxHeartbeats 1000000 in
/-- On whole staging buffers, the two inputs' at contents x0, x1 and the output's at anything, the body runs to its
    continuation with the inputs as they were and the output tile at out3_2 x0 x1. -/
theorem sound_kernel3 (c : Dev nD) (E : Set ℕ) (i : grid3.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core c: the arrays as the region finds them; after the body at point t each input's
    buffer still at its tile and the output's at the product of the two tiles; nothing kept between points beyond the scoped
    rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their tiles, so the body's triple applies; what is kept between points
    and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Fold3.lean ====
/-
  Region 3 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.KI.Fold2
import proofs.«136918_j48060684042913_1_alg».proof.Proof.KI.Region3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 3 is entered: the host stretch before it applied to what the item before left. -/
abbrev entryW3 : Dev nD → Valuation τ sig (Elt F) := fun c => StableHlo.after hostOps3 (exitW2 m ρ c)
/-- The same read at the core's references. -/
abbrev entry3 : (c : Dev nD) → (b : Ref sig .tc) → Buf (Elt F) ((c : Thread nD τ).loc b) := fun c b => entryW3 m ρ c b

/-- The buffers when region 3 is left. -/
def exitW3 (c : Dev nD) : Valuation τ sig (Elt F) :=
  Pipeline.withArrays spec3 c (entryW3 m ρ c) fun w => (dat3 (entry3 m ρ) c).arrAt w cfg3.N
/-- The same read at the core's references. -/
abbrev exit3 : (c : Dev nD) → (b : Ref sig .tc) → Buf (Elt F) ((c : Thread nD τ).loc b) := fun c b => exitW3 m ρ c b

theorem exitW3_arr (c : Dev nD) (w : Fin cfg3.W) :
    exitW3 m ρ c (Proc.devRef .tc (Pipeline.arrRef spec3 w)) = (dat3 (entry3 m ρ) c).arrAt w cfg3.N := by
  unfold exitW3; exact Pipeline.withArrays_arr spec3 launch3.win.arr_inj c _ _ w
theorem exitW3_of_ne (c : Dev nD) (b : Ref sig .tc) (hb : ∀ w, Pipeline.arrRef spec3 w ≠ b) :
    exitW3 m ρ c (Proc.devRef .tc b) = entryW3 m ρ c (Proc.devRef .tc b) := by
  unfold exitW3; exact Pipeline.withArrays_of_ne spec3 c _ _ b hb
/-- The host stretch before region 3 leaves every buffer it does not write as it was. -/
theorem entryW3_of (c : Dev nD) (b : Ref sig .tc) (h : b ∉ hostOps3_W) :
    entryW3 m ρ c (Proc.devRef .tc b) = exitW2 m ρ c (Proc.devRef .tc b) :=
  StableHlo.after_of_writes_sub hostOps3 _ hostOps3_writes h

/-- No argument array is written by the host stretch before region 0, and none is an operand array of region 0: an argument
    holds its launch contents when region 3 is entered and when it is left. -/
theorem entryW3_arg (c : Dev nD) (b : Ref sig .tc) (hb : IsArg b) :
    entryW3 m ρ c (Proc.devRef .tc b) = m ((c : Thread nD τ).loc b) :=
  (entryW3_of m ρ c b (by rcases hb with rfl | rfl | rfl | rfl | rfl | rfl | rfl <;> decide)).trans (exitW2_arg m ρ c b hb)
theorem exitW3_arg (c : Dev nD) (b : Ref sig .tc) (hb : IsArg b) :
    exitW3 m ρ c (Proc.devRef .tc b) = m ((c : Thread nD τ).loc b) :=
  (exitW3_of_ne m ρ c b (by rcases hb with rfl | rfl | rfl | rfl | rfl | rfl | rfl <;> decide)).trans (entryW3_arg m ρ c b hb)

/-- Between the exit of the item before and region 3's exit, no product array but region 3's own changes: the host stretch
    writes none, and the region's other two operand arrays are none. -/
theorem stepW3_out (c : Dev nD) (b : Ref sig .tc) (hb : IsOut b) (hne : b ≠ main_v15) :
    exitW3 m ρ c (Proc.devRef .tc b) = exitW2 m ρ c (Proc.devRef .tc b) :=
  (exitW3_of_ne m ρ c b (by rcases hb with rfl | rfl | rfl | rfl | rfl | rfl <;> first | exact absurd rfl hne | decide)).trans
    (entryW3_of m ρ c b (by rcases hb with rfl | rfl | rfl | rfl | rfl | rfl <;> decide))

/-- The row matrix region 3 is entered with: the block's argument array with (sample, component) flattened to rows. -/
theorem entry3_x (c : Dev nD) :
    entry3 m ρ c main_v12 = shapeCast S140000x128 (m ((c : Thread nD τ).loc main_arg3)) shapeCasts_S20000x7x128_S140000x128 := by
  have e : entry3 m ρ c main_v12 = shapeCast S140000x128 (exitW2 m ρ c (Proc.devRef .tc main_arg3)) shapeCasts_S20000x7x128_S140000x128 := by
    show StableHlo.after hostOps3 (exitW2 m ρ c) (Proc.devRef .tc main_v12) = _
    after_results
    rfl
  rw [e, exitW2_arg m ρ c main_arg3 (by decide)]

/-- The weight matrix region 3 is entered with: the block's slice of the weight array as a 128 by 256 matrix. -/
theorem entry3_w (c : Dev nD) :
    entry3 m ρ c main_v14 = shapeCast S128x256 (extractStridedSlice S1x128x256 ![3, 0, 0] (m ((c : Thread nD τ).loc main_arg6)) slices_S6x128x256_S1x128x256_3_0_0) shapeCasts_S1x128x256_S128x256 := by
  have e : entry3 m ρ c main_v14 = shapeCast S128x256 (extractStridedSlice S1x128x256 ![3, 0, 0] (exitW2 m ρ c (Proc.devRef .tc main_arg6)) slices_S6x128x256_S1x128x256_3_0_0) shapeCasts_S1x128x256_S128x256 := by
    show StableHlo.after hostOps3 (exitW2 m ρ c) (Proc.devRef .tc main_v14) = _
    after_results
    rfl
  rw [e, exitW2_arg m ρ c main_arg6 (by decide)]

/-- At region 3's exit each of its arrays holds what the pipeline leaves, and every other buffer what it held at entry. -/
theorem hF3 (c : Dev nD) (w : Fin cfg3.W) : (dat3 (entry3 m ρ) c).arrAt w cfg3.N = exit3 m ρ c (Pipeline.arrRef spec3 w) :=
  (exitW3_arr m ρ c w).symm
theorem hrest3 (c : Dev nD) : ∀ b, b ∉ Finset.univ.image (Pipeline.arrRef spec3) → exit3 m ρ c b = entry3 m ρ c b :=
  fun b hb => exitW3_of_ne m ρ c b fun w e => hb (Finset.mem_image.mpr ⟨w, Finset.mem_univ _, e⟩)

end Cert.KernelIdeal.Fr

end
-- ==== Proof.KI.Region4.lean ====
/-
  Region 4 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.KernelIdeal.Launch
import proofs.«136918_j48060684042913_1_alg».proof.Proof.Gen.KernelIdeal.Skeleton
import proofs.«136918_j48060684042913_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The staging buffer of the row tile holds rows 5000 t to 5000 t + 4999 of x at point t: it is fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The staging buffer of the weight matrix holds all of w at every point: fetched at the first point, its block index
    never moves, and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev rx4 : Rect S5000x128 := Rect.unit (s := S5000x128) ![0, 0] S5000x128.size inb_S5000x128_S5000x128_0_0
abbrev rw4 : Rect S128x256 := Rect.unit (s := S128x256) ![0, 0] S128x256.size inb_S128x256_S128x256_0_0
abbrev ro4 : Rect S5000x256 := Rect.unit (s := S5000x256) ![0, 0] S5000x256.size inb_S5000x256_S5000x256_0_0

/-! ## What the body leaves in the output tile -/

/-- The output tile after the body: its one store, the product of the row tile x0 and the weights x1. -/
def out4_2 (x0 : Vec F S5000x128 .f32) (x1 : Vec F S128x256 .f32) : Vec F S5000x256 .f32 :=
  View.canon [⟨ro4, k4_pay1 (View.ld x0 rx4) (View.ld x1 rw4)⟩]

/-- The one store covers the whole tile. -/
theorem cover4_2 (p0 : Vec F S5000x256 .f32) (y : S5000x256.Idx) :
    ∃ pc ∈ ([⟨ro4, p0⟩] : List (View.Piece (Elt F) S5000x256 .f32)), y ∈ pc.1.set :=
  View.cover_of_tiled [⟨ro4, p0⟩] S5000x256.size (by rfl) y

/-! ## The body's triple -/

set_option maxHeartbeats 1000000 in
/-- On whole staging buffers, the two inputs' at contents x0, x1 and the output's at anything, the body runs to its
    continuation with the inputs as they were and the output tile at out4_2 x0 x1. -/
theorem sound_kernel4 (c : Dev nD) (E : Set ℕ) (i : grid4.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region on core c: the arrays as the region finds them; after the body at point t each input's
    buffer still at its tile and the output's at the product of the two tiles; nothing kept between points beyond the scoped
    rest and the generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their tiles, so the body's triple applies; what is kept between points
    and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Fold4.lean ====
/-
  Region 4 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.KI.Fold3
import proofs.«136918_j48060684042913_1_alg».proof.Proof.KI.Region4

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 4 is entered: the host stretch before it applied to what the item before left. -/
abbrev entryW4 : Dev nD → Valuation τ sig (Elt F) := fun c => StableHlo.after hostOps4 (exitW3 m ρ c)
/-- The same read at the core's references. -/
abbrev entry4 : (c : Dev nD) → (b : Ref sig .tc) → Buf (Elt F) ((c : Thread nD τ).loc b) := fun c b => entryW4 m ρ c b

/-- The buffers when region 4 is left. -/
def exitW4 (c : Dev nD) : Valuation τ sig (Elt F) :=
  Pipeline.withArrays spec4 c (entryW4 m ρ c) fun w => (dat4 (entry4 m ρ) c).arrAt w cfg4.N
/-- The same read at the core's references. -/
abbrev exit4 : (c : Dev nD) → (b : Ref sig .tc) → Buf (Elt F) ((c : Thread nD τ).loc b) := fun c b => exitW4 m ρ c b

theorem exitW4_arr (c : Dev nD) (w : Fin cfg4.W) :
    exitW4 m ρ c (Proc.devRef .tc (Pipeline.arrRef spec4 w)) = (dat4 (entry4 m ρ) c).arrAt w cfg4.N := by
  unfold exitW4; exact Pipeline.withArrays_arr spec4 launch4.win.arr_inj c _ _ w
theorem exitW4_of_ne (c : Dev nD) (b : Ref sig .tc) (hb : ∀ w, Pipeline.arrRef spec4 w ≠ b) :
    exitW4 m ρ c (Proc.devRef .tc b) = entryW4 m ρ c (Proc.devRef .tc b) := by
  unfold exitW4; exact Pipeline.withArrays_of_ne spec4 c _ _ b hb
/-- The host stretch before region 4 leaves every buffer it does not write as it was. -/
theorem entryW4_of (c : Dev nD) (b : Ref sig .tc) (h : b ∉ hostOps4_W) :
    entryW4 m ρ c (Proc.devRef .tc b) = exitW3 m ρ c (Proc.devRef .tc b) :=
  StableHlo.after_of_writes_sub hostOps4 _ hostOps4_writes h

/-- No argument array is written by the host stretch before region 0, and none is an operand array of region 0: an argument
    holds its launch contents when region 4 is entered and when it is left. -/
theorem entryW4_arg (c : Dev nD) (b : Ref sig .tc) (hb : IsArg b) :
    entryW4 m ρ c (Proc.devRef .tc b) = m ((c : Thread nD τ).loc b) :=
  (entryW4_of m ρ c b (by rcases hb with rfl | rfl | rfl | rfl | rfl | rfl | rfl <;> decide)).trans (exitW3_arg m ρ c b hb)
theorem exitW4_arg (c : Dev nD) (b : Ref sig .tc) (hb : IsArg b) :
    exitW4 m ρ c (Proc.devRef .tc b) = m ((c : Thread nD τ).loc b) :=
  (exitW4_of_ne m ρ c b (by rcases hb with rfl | rfl | rfl | rfl | rfl | rfl | rfl <;> decide)).trans (entryW4_arg m ρ c b hb)

/-- Between the exit of the item before and region 4's exit, no product array but region 4's own changes: the host stretch
    writes none, and the region's other two operand arrays are none. -/
theorem stepW4_out (c : Dev nD) (b : Ref sig .tc) (hb : IsOut b) (hne : b ≠ main_v19) :
    exitW4 m ρ c (Proc.devRef .tc b) = exitW3 m ρ c (Proc.devRef .tc b) :=
  (exitW4_of_ne m ρ c b (by rcases hb with rfl | rfl | rfl | rfl | rfl | rfl <;> first | exact absurd rfl hne | decide)).trans
    (entryW4_of m ρ c b (by rcases hb with rfl | rfl | rfl | rfl | rfl | rfl <;> decide))

/-- The row matrix region 4 is entered with: the block's argument array with (sample, component) flattened to rows. -/
theorem entry4_x (c : Dev nD) :
    entry4 m ρ c main_v16 = shapeCast S180000x128 (m ((c : Thread nD τ).loc main_arg4)) shapeCasts_S20000x9x128_S180000x128 := by
  have e : entry4 m ρ c main_v16 = shapeCast S180000x128 (exitW3 m ρ c (Proc.devRef .tc main_arg4)) shapeCasts_S20000x9x128_S180000x128 := by
    show StableHlo.after hostOps4 (exitW3 m ρ c) (Proc.devRef .tc main_v16) = _
    after_results
    rfl
  rw [e, exitW3_arg m ρ c main_arg4 (by decide)]

/-- The weight matrix region 4 is entered with: the block's slice of the weight array as a 128 by 256 matrix. -/
theorem entry4_w (c : Dev nD) :
    entry4 m ρ c main_v18 = shapeCast S128x256 (extractStridedSlice S1x128x256 ![4, 0, 0] (m ((c : Thread nD τ).loc main_arg6)) slices_S6x128x256_S1x128x256_4_0_0) shapeCasts_S1x128x256_S128x256 := by
  have e : entry4 m ρ c main_v18 = shapeCast S128x256 (extractStridedSlice S1x128x256 ![4, 0, 0] (exitW3 m ρ c (Proc.devRef .tc main_arg6)) slices_S6x128x256_S1x128x256_4_0_0) shapeCasts_S1x128x256_S128x256 := by
    show StableHlo.after hostOps4 (exitW3 m ρ c) (Proc.devRef .tc main_v18) = _
    after_results
    rfl
  rw [e, exitW3_arg m ρ c main_arg6 (by decide)]

/-- At region 4's exit each of its arrays holds what the pipeline leaves, and every other buffer what it held at entry. -/
theorem hF4 (c : Dev nD) (w : Fin cfg4.W) : (dat4 (entry4 m ρ) c).arrAt w cfg4.N = exit4 m ρ c (Pipeline.arrRef spec4 w) :=
  (exitW4_arr m ρ c w).symm
theorem hrest4 (c : Dev nD) : ∀ b, b ∉ Finset.univ.image (Pipeline.arrRef spec4) → exit4 m ρ c b = entry4 m ρ c b :=
  fun b hb => exitW4_of_ne m ρ c b fun w e => hb (Finset.mem_image.mpr ⟨w, Finset.mem_univ _, e⟩)

end Cert.KernelIdeal.Fr

end
-- ==== Proof.KI.Region5.lean ====
/-
  Region 5 of the program: one row-tiled matrix product. The region's operands are a row matrix x (rows by 128), staged
  5000 rows at a time, the weight matrix w (128 by 256), staged whole once, and the result (rows by 256), written back
  5000 rows at a time. At grid point t the body reads the tile of x and the whole of w, multiplies them into a zero
  accumulator, and stores the product over the whole output tile. This module states, for any contents V the region may
  find in the arrays: the tile each window holds at a point, what the body leaves in the output tile as a function of the
  two input tiles, the body's triple, the pipeline's proof data, and the body obligation at every grid point.
-/
import proofs.«136918_j48060684042913_1_alg».proof.Proof.Gen.KernelIdeal.Launch
import proofs.«136918_j48060684042913_1_alg».proof.Proof.Gen.KernelIdeal.Skeleton
import proofs.«136918_j48060684042913_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' tiles -/

/-- Window w's tile at grid point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The staging buffer of the row tile holds rows 5000 t to 5000 t + 4999 of x at point t: it is fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the weight matrix holds all of w at every point: fetched at the first point, its block index
    never moves, and the body leaves it in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev rx5 : Rect S5000x128 := Rect.unit (s := S5000x128) ![0, 0] S5000x128.size inb_S5000x128_S5000x128_0_0
abbrev rw5 : Rect S128x256 := Rect.unit (s := S128x256) ![0, 0] S128x256.size inb_S128x256_S128x256_0_0
abbrev ro5 : Rect S5000x256 := Rect.unit (s := S5000x256) ![0, 0] S5000x256.size inb_S5000x256_S5000x256_0_0

/-! ## What the body leaves in the output tile -/

/-- The output tile after the body: its one store, the product of the row tile x0 and the weights x1. -/
def out5_2 (x0 : Vec F S5000x128 .f32) (x1 : Vec F S128x256 .f32) : Vec F S5000x256 .f32 :=
  View.canon [⟨ro5, k5_pay1 (View.ld x0 rx5) (View.ld x1 rw5)⟩]

/-- The one store covers the whole tile. -/
theorem cover5_2 (p0 : Vec F S5000x256 .f32) (y : S5000x256.Idx) :
    ∃ pc ∈ ([⟨ro5, p0⟩] : List (View.Piece (Elt F) S5000x256 .f32)), y ∈ pc.1.set :=
  View.cover_of_tiled [⟨ro5, p0⟩] S5000x256.size (by rfl) y

/-! ## The body's triple -/

set_option maxHeartbeats 1000000 in
/-- On whole staging buffers, the two inputs' at contents x0, x1 and the output's at anything, the body runs to its
    continuation with the inputs as they were and the output tile at out5_2 x0 x1. -/
theorem sound_kernel5 (c : Dev nD) (E : Set ℕ) (i : grid5.Coords)
    (arg1 : Memref sig .tc .vmem S5000x128 .f32) (harg1 : arg1.IsWhole) (arg2 : Memref sig .tc .vmem S128x256 .f32) (harg2 : arg2.IsWhole)
    (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region on core c: the arrays as the region finds them; after the body at point t each input's
    buffer still at its tile and the output's at the product of the two tiles; nothing kept between points beyond the scoped
    rest and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point t, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their tiles, so the body's triple applies; what is kept between points
    and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Fold5.lean ====
/-
  Region 5 in the fold of the buffers' contents: entered after the host stretch before it (two reshapes and a slice that
  make its row matrix and its weight matrix), left with its three operand arrays at what its pipeline leaves (the two inputs
  as entered, the product array at the fold of its write-backs) and every other buffer as entered.
-/
import proofs.«136918_j48060684042913_1_alg».proof.Proof.KI.Fold4
import proofs.«136918_j48060684042913_1_alg».proof.Proof.KI.Region5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when region 5 is entered: the host stretch before it applied to what the item before left. -/
abbrev entryW5 : Dev nD → Valuation τ sig (Elt F) := fun c => StableHlo.after hostOps5 (exitW4 m ρ c)
/-- The same read at the core's references. -/
abbrev entry5 : (c : Dev nD) → (b : Ref sig .tc) → Buf (Elt F) ((c : Thread nD τ).loc b) := fun c b => entryW5 m ρ c b

/-- The buffers when region 5 is left. -/
def exitW5 (c : Dev nD) : Valuation τ sig (Elt F) :=
  Pipeline.withArrays spec5 c (entryW5 m ρ c) fun w => (dat5 (entry5 m ρ) c).arrAt w cfg5.N
/-- The same read at the core's references. -/
abbrev exit5 : (c : Dev nD) → (b : Ref sig .tc) → Buf (Elt F) ((c : Thread nD τ).loc b) := fun c b => exitW5 m ρ c b

theorem exitW5_arr (c : Dev nD) (w : Fin cfg5.W) :
    exitW5 m ρ c (Proc.devRef .tc (Pipeline.arrRef spec5 w)) = (dat5 (entry5 m ρ) c).arrAt w cfg5.N := by
  unfold exitW5; exact Pipeline.withArrays_arr spec5 launch5.win.arr_inj c _ _ w
theorem exitW5_of_ne (c : Dev nD) (b : Ref sig .tc) (hb : ∀ w, Pipeline.arrRef spec5 w ≠ b) :
    exitW5 m ρ c (Proc.devRef .tc b) = entryW5 m ρ c (Proc.devRef .tc b) := by
  unfold exitW5; exact Pipeline.withArrays_of_ne spec5 c _ _ b hb
/-- The host stretch before region 5 leaves every buffer it does not write as it was. -/
theorem entryW5_of (c : Dev nD) (b : Ref sig .tc) (h : b ∉ hostOps5_W) :
    entryW5 m ρ c (Proc.devRef .tc b) = exitW4 m ρ c (Proc.devRef .tc b) :=
  StableHlo.after_of_writes_sub hostOps5 _ hostOps5_writes h

/-- No argument array is written by the host stretch before region 0, and none is an operand array of region 0: an argument
    holds its launch contents when region 5 is entered and when it is left. -/
theorem entryW5_arg (c : Dev nD) (b : Ref sig .tc) (hb : IsArg b) :
    entryW5 m ρ c (Proc.devRef .tc b) = m ((c : Thread nD τ).loc b) :=
  (entryW5_of m ρ c b (by rcases hb with rfl | rfl | rfl | rfl | rfl | rfl | rfl <;> decide)).trans (exitW4_arg m ρ c b hb)
theorem exitW5_arg (c : Dev nD) (b : Ref sig .tc) (hb : IsArg b) :
    exitW5 m ρ c (Proc.devRef .tc b) = m ((c : Thread nD τ).loc b) :=
  (exitW5_of_ne m ρ c b (by rcases hb with rfl | rfl | rfl | rfl | rfl | rfl | rfl <;> decide)).trans (entryW5_arg m ρ c b hb)

/-- Between the exit of the item before and region 5's exit, no product array but region 5's own changes: the host stretch
    writes none, and the region's other two operand arrays are none. -/
theorem stepW5_out (c : Dev nD) (b : Ref sig .tc) (hb : IsOut b) (hne : b ≠ main_v23) :
    exitW5 m ρ c (Proc.devRef .tc b) = exitW4 m ρ c (Proc.devRef .tc b) :=
  (exitW5_of_ne m ρ c b (by rcases hb with rfl | rfl | rfl | rfl | rfl | rfl <;> first | exact absurd rfl hne | decide)).trans
    (entryW5_of m ρ c b (by rcases hb with rfl | rfl | rfl | rfl | rfl | rfl <;> decide))

/-- The row matrix region 5 is entered with: the block's argument array with (sample, component) flattened to rows. -/
theorem entry5_x (c : Dev nD) :
    entry5 m ρ c main_v20 = shapeCast S220000x128 (m ((c : Thread nD τ).loc main_arg5)) shapeCasts_S20000x11x128_S220000x128 := by
  have e : entry5 m ρ c main_v20 = shapeCast S220000x128 (exitW4 m ρ c (Proc.devRef .tc main_arg5)) shapeCasts_S20000x11x128_S220000x128 := by
    show StableHlo.after hostOps5 (exitW4 m ρ c) (Proc.devRef .tc main_v20) = _
    after_results
    rfl
  rw [e, exitW4_arg m ρ c main_arg5 (by decide)]

/-- The weight matrix region 5 is entered with: the block's slice of the weight array as a 128 by 256 matrix. -/
theorem entry5_w (c : Dev nD) :
    entry5 m ρ c main_v22 = shapeCast S128x256 (extractStridedSlice S1x128x256 ![5, 0, 0] (m ((c : Thread nD τ).loc main_arg6)) slices_S6x128x256_S1x128x256_5_0_0) shapeCasts_S1x128x256_S128x256 := by
  have e : entry5 m ρ c main_v22 = shapeCast S128x256 (extractStridedSlice S1x128x256 ![5, 0, 0] (exitW4 m ρ c (Proc.devRef .tc main_arg6)) slices_S6x128x256_S1x128x256_5_0_0) shapeCasts_S1x128x256_S128x256 := by
    show StableHlo.after hostOps5 (exitW4 m ρ c) (Proc.devRef .tc main_v22) = _
    after_results
    rfl
  rw [e, exitW4_arg m ρ c main_arg6 (by decide)]

/-- At region 5's exit each of its arrays holds what the pipeline leaves, and every other buffer what it held at entry. -/
theorem hF5 (c : Dev nD) (w : Fin cfg5.W) : (dat5 (entry5 m ρ) c).arrAt w cfg5.N = exit5 m ρ c (Pipeline.arrRef spec5 w) :=
  (exitW5_arr m ρ c w).symm
theorem hrest5 (c : Dev nD) : ∀ b, b ∉ Finset.univ.image (Pipeline.arrRef spec5) → exit5 m ρ c b = entry5 m ρ c b :=
  fun b hb => exitW5_of_ne m ρ c b fun w e => hb (Finset.mem_image.mpr ⟨w, Finset.mem_univ _, e⟩)

end Cert.KernelIdeal.Fr

end
-- ==== Proof.KI.Pdats.lean ====
/-
  The proof data of all six row-tiled matrix products, each at the contents its region is entered with.
-/
import proofs.«136918_j48060684042913_1_alg».proof.Proof.KI.Fold5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (entry0 m ρ) c
  | ⟨1, _⟩ => fun c => dat1 (entry1 m ρ) c
  | ⟨2, _⟩ => fun c => dat2 (entry2 m ρ) c
  | ⟨3, _⟩ => fun c => dat3 (entry3 m ρ) c
  | ⟨4, _⟩ => fun c => dat4 (entry4 m ρ) c
  | ⟨5, _⟩ => fun c => dat5 (entry5 m ρ) c

end Cert.KernelIdeal.Fr

end
-- ==== Proof.KI.Reg0.lean ====
/-
  Region 0 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.KI.Pdats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m ρ) c).loose
  hwaits := Pipeline.hwaits_of_owed_zero _ _ _ _ L lv 0 fun _ _ => rfl
  pre c := iprop(StableHlo.held (c : Thread nD τ) (Pipeline.ucRefs τ sig) (entryW0 m ρ c) ∗ Rest c)
  post c := iprop(StableHlo.held (c : Thread nD τ) (Pipeline.ucRefs τ sig) (exitW0 m ρ c) ∗ Rest c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (exit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg1.lean ====
/-
  Region 1 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.KI.Pdats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m ρ) c).loose
  hwaits := Pipeline.hwaits_of_owed_zero _ _ _ _ L lv 1 fun _ _ => rfl
  pre c := iprop(StableHlo.held (c : Thread nD τ) (Pipeline.ucRefs τ sig) (entryW1 m ρ c) ∗ Rest c)
  post c := iprop(StableHlo.held (c : Thread nD τ) (Pipeline.ucRefs τ sig) (exitW1 m ρ c) ∗ Rest c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (entry1 m ρ c) (exit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg2.lean ====
/-
  Region 2 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.KI.Pdats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (entry2 m ρ) c).loose
  hwaits := Pipeline.hwaits_of_owed_zero _ _ _ _ L lv 2 fun _ _ => rfl
  pre c := iprop(StableHlo.held (c : Thread nD τ) (Pipeline.ucRefs τ sig) (entryW2 m ρ c) ∗ Rest c)
  post c := iprop(StableHlo.held (c : Thread nD τ) (Pipeline.ucRefs τ sig) (exitW2 m ρ c) ∗ Rest c)
  X c := iprop(∃ r, prngReg c r)
  Y c := iprop(∃ r, prngReg c r)
  Z c := Pipeline.unscopedRest (Ix := Unit) (Name := ℕ) (U := UR sig nD τ) (Lvl := ℕ) spec2 c (entry2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (entry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (entry2 m ρ c) (exit2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg3.lean ====
/-
  Region 3 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.KI.Pdats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (entry3 m ρ) c).loose
  hwaits := Pipeline.hwaits_of_owed_zero _ _ _ _ L lv 3 fun _ _ => rfl
  pre c := iprop(StableHlo.held (c : Thread nD τ) (Pipeline.ucRefs τ sig) (entryW3 m ρ c) ∗ Rest c)
  post c := iprop(StableHlo.held (c : Thread nD τ) (Pipeline.ucRefs τ sig) (exitW3 m ρ c) ∗ Rest c)
  X c := iprop(∃ r, prngReg c r)
  Y c := iprop(∃ r, prngReg c r)
  Z c := Pipeline.unscopedRest (Ix := Unit) (Name := ℕ) (U := UR sig nD τ) (Lvl := ℕ) spec3 c (entry3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (entry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (entry3 m ρ c) (exit3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg4.lean ====
/-
  Region 4 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.KI.Pdats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (entry4 m ρ) c).loose
  hwaits := Pipeline.hwaits_of_owed_zero _ _ _ _ L lv 4 fun _ _ => rfl
  pre c := iprop(StableHlo.held (c : Thread nD τ) (Pipeline.ucRefs τ sig) (entryW4 m ρ c) ∗ Rest c)
  post c := iprop(StableHlo.held (c : Thread nD τ) (Pipeline.ucRefs τ sig) (exitW4 m ρ c) ∗ Rest c)
  X c := iprop(∃ r, prngReg c r)
  Y c := iprop(∃ r, prngReg c r)
  Z c := Pipeline.unscopedRest (Ix := Unit) (Name := ℕ) (U := UR sig nD τ) (Lvl := ℕ) spec4 c (entry4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (entry4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (entry4 m ρ c) (exit4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg5.lean ====
/-
  Region 5 as a segment of the run: entered holding every unscoped buffer at the contents the host stretch before it
  leaves, left holding them at the region's exit contents. At entry its three operand arrays are split out of the unscoped
  buffers and at exit put back at what the pipeline leaves; the generator register goes into the pipeline's invariant and
  comes back; the kernel has no semaphore of its own and owes nothing.
-/
import proofs.«136918_j48060684042913_1_alg».proof.Proof.KI.Pdats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (entry5 m ρ) c).loose
  hwaits := Pipeline.hwaits_of_owed_zero _ _ _ _ L lv 5 fun _ _ => rfl
  pre c := iprop(StableHlo.held (c : Thread nD τ) (Pipeline.ucRefs τ sig) (entryW5 m ρ c) ∗ Rest c)
  post c := iprop(StableHlo.held (c : Thread nD τ) (Pipeline.ucRefs τ sig) (exitW5 m ρ c) ∗ Rest c)
  X c := iprop(∃ r, prngReg c r)
  Y c := iprop(∃ r, prngReg c r)
  Z c := Pipeline.unscopedRest (Ix := Unit) (Name := ℕ) (U := UR sig nD τ) (Lvl := ℕ) spec5 c (entry5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (entry5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (entry5 m ρ c) (exit5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
/-
  The run of the whole program: the main function is thirteen items, seven stretches of host operations with the six
  row-tiled matrix products between them. Each item is entered from the contents the one before leaves, so every weakly
  fair execution terminates without a fault, and at the end every unscoped buffer of the core holds the last item's
  contents: the concatenation's stretch applied to what the sixth product's region leaves. No item writes an argument
  array (the host stretches write their own results, the regions their product arrays), so each argument ends as launched.
-/
import proofs.«136918_j48060684042913_1_alg».proof.Proof.KI.Reg0
import proofs.«136918_j48060684042913_1_alg».proof.Proof.KI.Reg1
import proofs.«136918_j48060684042913_1_alg».proof.Proof.KI.Reg2
import proofs.«136918_j48060684042913_1_alg».proof.Proof.KI.Reg3
import proofs.«136918_j48060684042913_1_alg».proof.Proof.KI.Reg4
import proofs.«136918_j48060684042913_1_alg».proof.Proof.KI.Reg5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen items in order: a host segment per stretch from the contents before it, a region per product. -/
abbrev segments : List (Pipeline.Seg (pcfgs (F := F)) adm (pdats m ρ) () defs₀ 𝒱₀ L lv) :=
  [ .host (hseg hostOps0 hostOps0_sub hostOps0_fresh (launchW m ρ)),
    .region (reg0 m ρ),
    .host (hseg hostOps1 hostOps1_sub hostOps1_fresh (exitW0 m ρ)),
    .region (reg1 m ρ),
    .host (hseg hostOps2 hostOps2_sub hostOps2_fresh (exitW1 m ρ)),
    .region (reg2 m ρ),
    .host (hseg hostOps3 hostOps3_sub hostOps3_fresh (exitW2 m ρ)),
    .region (reg3 m ρ),
    .host (hseg hostOps4 hostOps4_sub hostOps4_fresh (exitW3 m ρ)),
    .region (reg4 m ρ),
    .host (hseg hostOps5 hostOps5_sub hostOps5_fresh (exitW4 m ρ)),
    .region (reg5 m ρ),
    .host (hseg hostOps6 hostOps6_sub hostOps6_fresh (exitW5 m ρ)) ]

/-- The main function is the run of those items. -/
theorem main_run (c : Dev nD) : main (F := F) c = Pipeline.Seg.run (segments m ρ) := (main_chain c).trans (by chain_rfl)

/-- The buffers at the end: the last stretch (the concatenation) applied to what the sixth region leaves. -/
abbrev finalW : Dev nD → Valuation τ sig (Elt F) := fun c => StableHlo.after hostOps6 (exitW5 m ρ c)

/-- The last thread state without the dues. -/
abbrev Tlast (c : Dev nD) : sProp 𝕄 := iprop(StableHlo.held (c : Thread nD τ) (Pipeline.ucRefs τ sig) (finalW m ρ c) ∗ ∃ r, prngReg c r)

set_option backward.isDefEq.respectTransparency.types false in
/-- Every weakly fair execution of the main function from the memory m with zero counters terminates, nothing faulting, and
    every final state holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = finalW m ρ c b) :=
  Pipeline.θ_run_regions_kit (pcfgs (F := F)) adm (pdats m ρ) () cellOf_inj emb₁ defs₀ 𝒱₀ L lv m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (launchW m ρ c) ∗ Rest c)) (Tₙ := Tlast m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show (iprop(StableHlo.held (c : Thread nD τ) (Pipeline.ucRefs τ sig) (finalW m ρ c) ∗ Rest c) : sProp 𝕄)
          ⊢ iprop(Tlast m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (launchW m ρ c)
        from Pipeline.unscopedBufs_held c (launchW m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = finalW m ρ c b)
    (hfin := fun c s' => by
      iintro ⟨⟨Hh, -⟩, HSI⟩
      unfold StableHlo.held
      imodintro
      iapply (pointsTo_read_all (Pipeline.ucRefs τ sig) (fun b => (((c : Thread nD τ)).1, b)) (finalW m ρ c) s')
      isplitl [Hh] <;> iassumption)
    (hQ := fun s h => h)

/-! ## What no item writes ends as launched -/

theorem finalW_of (c : Dev nD) (b : Ref sig .tc) (h : b ∉ hostOps6_W) :
    finalW m ρ c (Proc.devRef .tc b) = exitW5 m ρ c (Proc.devRef .tc b) :=
  StableHlo.after_of_writes_sub hostOps6 _ hostOps6_writes h

/-- A buffer that no host stretch writes and that is no region's operand array holds its launch contents at the end. -/
theorem kept (c : Dev nD) (b : Ref sig .tc)
    (h0 : b ∉ hostOps0_W) (h1 : b ∉ hostOps1_W) (h2 : b ∉ hostOps2_W) (h3 : b ∉ hostOps3_W) (h4 : b ∉ hostOps4_W)
    (h5 : b ∉ hostOps5_W) (h6 : b ∉ hostOps6_W)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b) (r4 : ∀ w, Pipeline.arrRef spec4 w ≠ b) (r5 : ∀ w, Pipeline.arrRef spec5 w ≠ b) :
    finalW m ρ c (Proc.devRef .tc b) = m ((c : Thread nD τ).loc b) :=
  (finalW_of m ρ c b h6).trans <| (exitW5_of_ne m ρ c b r5).trans <| (entryW5_of m ρ c b h5).trans <|
  (exitW4_of_ne m ρ c b r4).trans <| (entryW4_of m ρ c b h4).trans <| (exitW3_of_ne m ρ c b r3).trans <|
  (entryW3_of m ρ c b h3).trans <| (exitW2_of_ne m ρ c b r2).trans <| (entryW2_of m ρ c b h2).trans <|
  (exitW1_of_ne m ρ c b r1).trans <| (entryW1_of m ρ c b h1).trans <| (exitW0_of_ne m ρ c b r0).trans <|
  (entryW0_of m ρ c b h0).trans rfl

/-- An argument array ends as launched. -/
theorem kept_arg (c : Dev nD) (b : Ref sig .tc)
    (h : b = main_arg0 ∨ b = main_arg1 ∨ b = main_arg2 ∨ b = main_arg3 ∨ b = main_arg4 ∨ b = main_arg5 ∨ b = main_arg6) :
    finalW m ρ c (Proc.devRef .tc b) = m ((c : Thread nD τ).loc b) := by
  rcases h with rfl | rfl | rfl | rfl | rfl | rfl | rfl <;>
    exact kept m ρ c _ (by decide) (by decide) (by decide) (by decide) (by decide) (by decide) (by decide)
      (by decide) (by decide) (by decide) (by decide) (by decide) (by decide)

/-- The frame: every weakly fair execution terminates without a fault and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (kept_arg m ρ c main_arg0 (by decide)),
     (h c _ (mem_uc main_arg1 (by decide))).trans (kept_arg m ρ c main_arg1 (by decide)),
     (h c _ (mem_uc main_arg2 (by decide))).trans (kept_arg m ρ c main_arg2 (by decide)),
     (h c _ (mem_uc main_arg3 (by decide))).trans (kept_arg m ρ c main_arg3 (by decide)),
     (h c _ (mem_uc main_arg4 (by decide))).trans (kept_arg m ρ c main_arg4 (by decide)),
     (h c _ (mem_uc main_arg5 (by decide))).trans (kept_arg m ρ c main_arg5 (by decide)),
     (h c _ (mem_uc main_arg6 (by decide))).trans (kept_arg m ρ c main_arg6 (by decide))⟩) (run_all m ρ)

end Cert.KernelIdeal.Fr

end
-- ==== Proof.KI.Tile.lean ====
/-
  One tile of the row-tiled product at the exact values: the body's stored value, a matrix product of the 5000 by 128 row
  tile with the 128 by 256 weights into a zero accumulator (the narrowing of both operands to a shorter float format is the
  identity on exact values), read at entry (r, c), is the sum over k of x(r, k) w(k, c).
-/
import proofs.«136918_j48060684042913_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Fr

open Cert.KernelIdeal Cert.KernelIdeal.Gen Idealize.ShloMosaic Idealize.ShloMosaic.ValueIdx

/-- The tile product's operand indices: the left operand is read at (row of the output, contraction index), -/
theorem tile_lhs_0 (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem tile_lhs_1 (j : S5000x256.Idx) (q : dot_S5000x128_S128x256_S5000x256_1_0_0_1_n_n.contr.Idx) :
    (dot_S5000x128_S128x256_S5000x256_1_0_0_1_n_n.lhsIdx j q 1).val = (q ⟨0, by decide⟩).val :=
  dot_S5000x128_S128x256_S5000x256_1_0_0_1_n_n.lhsIdx_val_of_single rfl j q
/-- and the right operand at (contraction index, column of the output). -/
theorem tile_rhs_0 (j : S5000x256.Idx) (q : dot_S5000x128_S128x256_S5000x256_1_0_0_1_n_n.contr.Idx) :
    (dot_S5000x128_S128x256_S5000x256_1_0_0_1_n_n.rhsIdx j q 0).val = (q ⟨0, by decide⟩).val :=
  dot_S5000x128_S128x256_S5000x256_1_0_0_1_n_n.rhsIdx_val_of_single rfl j q
theorem tile_rhs_1 (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The value every region's body stores, as one function of the row tile and the weights. -/
def tileMM (x0 : Vec Ideal S5000x128 .f32) (x1 : Vec Ideal S128x256 .f32) : FVec Ideal S5000x256 .f32 :=
  matmul dot_S5000x128_S128x256_S5000x256_1_0_0_1_n_n none
    (truncf .bf16 (shapeCast S5000x128 x0 shapeCasts_S5000x128_S5000x128) bitsLt_bf16_f32)
    (truncf .bf16 (shapeCast S128x256 x1 shapeCasts_S128x256_S128x256) bitsLt_bf16_f32)
    (constant S5000x256 .f32 0x00000000#32)

/-- Entry (r, c) of a tile's product is the sum over k of x(r, k) w(k, c). -/
theorem tileMM_apply (x0 : Vec Ideal S5000x128 .f32) (x1 : Vec Ideal S128x256 .f32) (j : S5000x256.Idx) :
    tileMM x0 x1 j = ∑ k : Fin 128, x0 (ix2 (j 0) k) * x1 (ix2 k (j 1)) := by
  unfold tileMM
  rw [shapeCast_self, shapeCast_self]
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx j ((contrEquiv1 dot_S5000x128_S128x256_S5000x256_1_0_0_1_n_n 128 rfl rfl).symm k) = ix2 (j 0) k := funext fun a => Fin.ext (by
    match a with
    | ⟨0, _⟩ => exact tile_lhs_0 _ _
    | ⟨1, _⟩ => exact (tile_lhs_1 _ _).trans hk)
  have er : dot_S5000x128_S128x256_S5000x256_1_0_0_1_n_n.rhsIdx j ((contrEquiv1 dot_S5000x128_S128x256_S5000x256_1_0_0_1_n_n 128 rfl rfl).symm k) = ix2 k (j 1) := funext fun a => Fin.ext (by
    match a with
    | ⟨0, _⟩ => exact (tile_rhs_0 _ _).trans hk
    | ⟨1, _⟩ => exact tile_rhs_1 _ _)
  rw [el, er]
  rfl

end Cert.KernelIdeal.Fr

end
-- ==== Proof.Spec.lean ====
/-
  The mathematics both programs compute, block by block: a matrix of M rows and 128 columns times a 128 by 256 matrix,
  over the extended reals. Entry (r, c) of the product is the sum over k of x(r, k) w(k, c).
-/
import Idealize.ShloMosaic.PureOps.Ideal
import Idealize.ShloMosaic.Lib.ValueIdx

noncomputable section

open scoped BigOperators

namespace Cert.Spec

open Idealize.ShloMosaic Idealize.ShloMosaic.ValueIdx

/-- The product of an M by 128 matrix with a 128 by 256 matrix, entry by entry. -/
def rowProd {M : ℕ} (x : (⟨2, ![M, 128]⟩ : Shape).Idx → EReal) (w : (⟨2, ![128, 256]⟩ : Shape).Idx → EReal) :
    (⟨2, ![M, 256]⟩ : Shape).Idx → EReal :=
  fun i => ∑ k : Fin 128, x (ix2 (i 0) k) * w (ix2 k (i 1))

theorem rowProd_apply {M : ℕ} (x : (⟨2, ![M, 128]⟩ : Shape).Idx → EReal) (w : (⟨2, ![128, 256]⟩ : Shape).Idx → EReal)
    (i : (⟨2, ![M, 256]⟩ : Shape).Idx) : rowProd x w i = ∑ k : Fin 128, x (ix2 (i 0) k) * w (ix2 k (i 1)) := rfl

end Cert.Spec

end
-- ==== Proof.KI.Value0.lean ====
/-
  Region 0 at the exact values: the array its write-backs leave is the product of the row matrix and the weight matrix it
  was entered with. Grid point t writes back rows 5000 t to 5000 t + 4999 of that product (its row tile is those rows of
  the row matrix, its weights the whole weight matrix, and a tile's product entry is the sum over k of x(r, k) w(k, c));
  row r of the array lies in the tile of point r / 5000, so the tiles cover the array.
-/
import proofs.«136918_j48060684042913_1_alg».proof.Proof.KI.Region0
import proofs.«136918_j48060684042913_1_alg».proof.Proof.KI.Tile
import proofs.«136918_j48060684042913_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

-- the arrays' contents when the region is entered, at the exact values
variable (V : (c : Dev nD) → (b : Ref sig .tc) → Buf (Elt Ideal) ((c : Thread nD τ).loc b))

/-- The row matrix and the weight matrix region 0 is entered with. -/
abbrev xarr0 (c : Dev nD) : S20000x128.Idx → EReal := V c main_v0
abbrev warr0 (c : Dev nD) : S128x256.Idx → EReal := V c main_v2

theorem hz0 : (![0, 0] : Fin 2 → Nat) = fun _ => 0 := funext fun a => by fin_cases a <;> rfl

/-- The three index maps over the grid: the row tile and the output tile move together down the rows, one tile a point;
    the weights' block never moves. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is its block of the product of the two matrices the region was entered with. -/
theorem flushed0_eq (c : Dev nD) (t : Fin cfg0.N) :
    (dat0 V c).flushed 2 t = ((cfg0.win 2).blk t).view.read (Elt Ideal) (rowProd (xarr0 V c) (warr0 V c)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x256) hz0]
  obtain ⟨e0, e1, e2, e3, e4, e5⟩ := idx_facts0 t
  funext j
  show tileMM (iblk0 V c 0 t) (iblk0 V c 1 t) j = rowProd (xarr0 V c) (warr0 V c) (((cfg0.win 2).blk t).view.emb j)
  rw [tileMM_apply, rowProd_apply]
  refine Finset.sum_congr rfl fun k _ => ?_
  show xarr0 V c (((cfg0.win 0).blk t).view.emb (ix2 (j 0) k)) * warr0 V c (((cfg0.win 1).blk t).view.emb (ix2 k (j 1)))
    = xarr0 V c (ix2 ((((cfg0.win 2).blk t).view.emb j) 0) k) * warr0 V c (ix2 k ((((cfg0.win 2).blk t).view.emb j) 1))
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  exact congrArg₂ (· * ·) (congrArg (xarr0 V c) h0) (congrArg (warr0 V c) h1)

/-- An index of the product array is in point t's block iff each coordinate is in the block's range on its axis. -/
theorem mem_blk0 (t : Fin cfg0.N) (i : S20000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v3).slice (win0_2.rect t)).set ↔ _
  rw [View.set_slice_whole, Rect.mem_set_unit]
  exact Iff.rfl

/-- Every index of the product array is in some point's block: row r in the block of point r / 5000. -/
theorem covered0 (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  have hN : cfg0.N = 4 := N_0
  have ht : (i 0).val / 5000 < cfg0.N := by rw [hN]; omega
  refine ⟨⟨(i 0).val / 5000, ht⟩, flush0_2 _, ?_⟩
  rw [mem_blk0]
  obtain ⟨e0, e1, e2, e3, e4, e5⟩ := idx_facts0 ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 256 ≤ (i 1).val ∧ (i 1).val < win0_2.index ⟨(i 0).val / 5000, ht⟩ (1 : Fin 2) * 256 + 256
    rw [e5]; omega

/-- The array region 0's write-backs leave is the product of the two matrices it was entered with. -/
theorem arrAt0 (c : Dev nD) : (dat0 V c).arrAt 2 cfg0.N = rowProd (xarr0 V c) (warr0 V c) :=
  (dat0 V c).arrAt_eq_of_cover 2 (rowProd (xarr0 V c) (warr0 V c)) (fun t _ => flushed0_eq V c t) (covered0)

end Cert.KernelIdeal.Fr

end
-- ==== Proof.KI.Value1.lean ====
/-
  Region 1 at the exact values: the array its write-backs leave is the product of the row matrix and the weight matrix it
  was entered with. Grid point t writes back rows 5000 t to 5000 t + 4999 of that product (its row tile is those rows of
  the row matrix, its weights the whole weight matrix, and a tile's product entry is the sum over k of x(r, k) w(k, c));
  row r of the array lies in the tile of point r / 5000, so the tiles cover the array.
-/
import proofs.«136918_j48060684042913_1_alg».proof.Proof.KI.Region1
import proofs.«136918_j48060684042913_1_alg».proof.Proof.KI.Tile
import proofs.«136918_j48060684042913_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

-- the arrays' contents when the region is entered, at the exact values
variable (V : (c : Dev nD) → (b : Ref sig .tc) → Buf (Elt Ideal) ((c : Thread nD τ).loc b))

/-- The row matrix and the weight matrix region 1 is entered with. -/
abbrev xarr1 (c : Dev nD) : S60000x128.Idx → EReal := V c main_v4
abbrev warr1 (c : Dev nD) : S128x256.Idx → EReal := V c main_v6

theorem hz1 : (![0, 0] : Fin 2 → Nat) = fun _ => 0 := funext fun a => by fin_cases a <;> rfl

/-- The three index maps over the grid: the row tile and the output tile move together down the rows, one tile a point;
    the weights' block never moves. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What grid point t writes back is its block of the product of the two matrices the region was entered with. -/
theorem flushed1_eq (c : Dev nD) (t : Fin cfg1.N) :
    (dat1 V c).flushed 2 t = ((cfg1.win 2).blk t).view.read (Elt Ideal) (rowProd (xarr1 V c) (warr1 V c)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S128x256) hz1]
  obtain ⟨e0, e1, e2, e3, e4, e5⟩ := idx_facts1 t
  funext j
  show tileMM (iblk1 V c 0 t) (iblk1 V c 1 t) j = rowProd (xarr1 V c) (warr1 V c) (((cfg1.win 2).blk t).view.emb j)
  rw [tileMM_apply, rowProd_apply]
  refine Finset.sum_congr rfl fun k _ => ?_
  show xarr1 V c (((cfg1.win 0).blk t).view.emb (ix2 (j 0) k)) * warr1 V c (((cfg1.win 1).blk t).view.emb (ix2 k (j 1)))
    = xarr1 V c (ix2 ((((cfg1.win 2).blk t).view.emb j) 0) k) * warr1 V c (ix2 k ((((cfg1.win 2).blk t).view.emb j) 1))
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 256 + 1 * (j 1).val = win1_2.index t (1 : Fin 2) * 256 + 1 * (j 1).val; omega
  exact congrArg₂ (· * ·) (congrArg (xarr1 V c) h0) (congrArg (warr1 V c) h1)

/-- An index of the product array is in point t's block iff each coordinate is in the block's range on its axis. -/
theorem mem_blk1 (t : Fin cfg1.N) (i : S60000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v7).slice (win1_2.rect t)).set ↔ _
  rw [View.set_slice_whole, Rect.mem_set_unit]
  exact Iff.rfl

/-- Every index of the product array is in some point's block: row r in the block of point r / 5000. -/
theorem covered1 (i : S60000x256.Idx) :
    ∃ t : Fin cfg1.N, (cfg1.win 2).flush t = true ∧ i ∈ ((cfg1.win 2).blk t).view.set := by
  have hi0 : (i 0).val < 60000 := (i 0).isLt
  have hi1 : (i 1).val < 256 := (i 1).isLt
  have hN : cfg1.N = 12 := N_1
  have ht : (i 0).val / 5000 < cfg1.N := by rw [hN]; omega
  refine ⟨⟨(i 0).val / 5000, ht⟩, flush1_2 _, ?_⟩
  rw [mem_blk1]
  obtain ⟨e0, e1, e2, e3, e4, e5⟩ := idx_facts1 ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 256 ≤ (i 1).val ∧ (i 1).val < win1_2.index ⟨(i 0).val / 5000, ht⟩ (1 : Fin 2) * 256 + 256
    rw [e5]; omega

/-- The array region 1's write-backs leave is the product of the two matrices it was entered with. -/
theorem arrAt1 (c : Dev nD) : (dat1 V c).arrAt 2 cfg1.N = rowProd (xarr1 V c) (warr1 V c) :=
  (dat1 V c).arrAt_eq_of_cover 2 (rowProd (xarr1 V c) (warr1 V c)) (fun t _ => flushed1_eq V c t) (covered1)

end Cert.KernelIdeal.Fr

end
-- ==== Proof.KI.Value2.lean ====
/-
  Region 2 at the exact values: the array its write-backs leave is the product of the row matrix and the weight matrix it
  was entered with. Grid point t writes back rows 5000 t to 5000 t + 4999 of that product (its row tile is those rows of
  the row matrix, its weights the whole weight matrix, and a tile's product entry is the sum over k of x(r, k) w(k, c));
  row r of the array lies in the tile of point r / 5000, so the tiles cover the array.
-/
import proofs.«136918_j48060684042913_1_alg».proof.Proof.KI.Region2
import proofs.«136918_j48060684042913_1_alg».proof.Proof.KI.Tile
import proofs.«136918_j48060684042913_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

-- the arrays' contents when the region is entered, at the exact values
variable (V : (c : Dev nD) → (b : Ref sig .tc) → Buf (Elt Ideal) ((c : Thread nD τ).loc b))

/-- The row matrix and the weight matrix region 2 is entered with. -/
abbrev xarr2 (c : Dev nD) : S100000x128.Idx → EReal := V c main_v8
abbrev warr2 (c : Dev nD) : S128x256.Idx → EReal := V c main_v10

theorem hz2 : (![0, 0] : Fin 2 → Nat) = fun _ => 0 := funext fun a => by fin_cases a <;> rfl

/-- The three index maps over the grid: the row tile and the output tile move together down the rows, one tile a point;
    the weights' block never moves. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What grid point t writes back is its block of the product of the two matrices the region was entered with. -/
theorem flushed2_eq (c : Dev nD) (t : Fin cfg2.N) :
    (dat2 V c).flushed 2 t = ((cfg2.win 2).blk t).view.read (Elt Ideal) (rowProd (xarr2 V c) (warr2 V c)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x256) hz2]
  obtain ⟨e0, e1, e2, e3, e4, e5⟩ := idx_facts2 t
  funext j
  show tileMM (iblk2 V c 0 t) (iblk2 V c 1 t) j = rowProd (xarr2 V c) (warr2 V c) (((cfg2.win 2).blk t).view.emb j)
  rw [tileMM_apply, rowProd_apply]
  refine Finset.sum_congr rfl fun k _ => ?_
  show xarr2 V c (((cfg2.win 0).blk t).view.emb (ix2 (j 0) k)) * warr2 V c (((cfg2.win 1).blk t).view.emb (ix2 k (j 1)))
    = xarr2 V c (ix2 ((((cfg2.win 2).blk t).view.emb j) 0) k) * warr2 V c (ix2 k ((((cfg2.win 2).blk t).view.emb j) 1))
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 256 + 1 * (j 1).val = win2_2.index t (1 : Fin 2) * 256 + 1 * (j 1).val; omega
  exact congrArg₂ (· * ·) (congrArg (xarr2 V c) h0) (congrArg (warr2 V c) h1)

/-- An index of the product array is in point t's block iff each coordinate is in the block's range on its axis. -/
theorem mem_blk2 (t : Fin cfg2.N) (i : S100000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v11).slice (win2_2.rect t)).set ↔ _
  rw [View.set_slice_whole, Rect.mem_set_unit]
  exact Iff.rfl

/-- Every index of the product array is in some point's block: row r in the block of point r / 5000. -/
theorem covered2 (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  have hN : cfg2.N = 20 := N_2
  have ht : (i 0).val / 5000 < cfg2.N := by rw [hN]; omega
  refine ⟨⟨(i 0).val / 5000, ht⟩, flush2_2 _, ?_⟩
  rw [mem_blk2]
  obtain ⟨e0, e1, e2, e3, e4, e5⟩ := idx_facts2 ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 256 ≤ (i 1).val ∧ (i 1).val < win2_2.index ⟨(i 0).val / 5000, ht⟩ (1 : Fin 2) * 256 + 256
    rw [e5]; omega

/-- The array region 2's write-backs leave is the product of the two matrices it was entered with. -/
theorem arrAt2 (c : Dev nD) : (dat2 V c).arrAt 2 cfg2.N = rowProd (xarr2 V c) (warr2 V c) :=
  (dat2 V c).arrAt_eq_of_cover 2 (rowProd (xarr2 V c) (warr2 V c)) (fun t _ => flushed2_eq V c t) (covered2)

end Cert.KernelIdeal.Fr

end
-- ==== Proof.KI.Value3.lean ====
/-
  Region 3 at the exact values: the array its write-backs leave is the product of the row matrix and the weight matrix it
  was entered with. Grid point t writes back rows 5000 t to 5000 t + 4999 of that product (its row tile is those rows of
  the row matrix, its weights the whole weight matrix, and a tile's product entry is the sum over k of x(r, k) w(k, c));
  row r of the array lies in the tile of point r / 5000, so the tiles cover the array.
-/
import proofs.«136918_j48060684042913_1_alg».proof.Proof.KI.Region3
import proofs.«136918_j48060684042913_1_alg».proof.Proof.KI.Tile
import proofs.«136918_j48060684042913_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

-- the arrays' contents when the region is entered, at the exact values
variable (V : (c : Dev nD) → (b : Ref sig .tc) → Buf (Elt Ideal) ((c : Thread nD τ).loc b))

/-- The row matrix and the weight matrix region 3 is entered with. -/
abbrev xarr3 (c : Dev nD) : S140000x128.Idx → EReal := V c main_v12
abbrev warr3 (c : Dev nD) : S128x256.Idx → EReal := V c main_v14

theorem hz3 : (![0, 0] : Fin 2 → Nat) = fun _ => 0 := funext fun a => by fin_cases a <;> rfl

/-- The three index maps over the grid: the row tile and the output tile move together down the rows, one tile a point;
    the weights' block never moves. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What grid point t writes back is its block of the product of the two matrices the region was entered with. -/
theorem flushed3_eq (c : Dev nD) (t : Fin cfg3.N) :
    (dat3 V c).flushed 2 t = ((cfg3.win 2).blk t).view.read (Elt Ideal) (rowProd (xarr3 V c) (warr3 V c)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x256) hz3]
  obtain ⟨e0, e1, e2, e3, e4, e5⟩ := idx_facts3 t
  funext j
  show tileMM (iblk3 V c 0 t) (iblk3 V c 1 t) j = rowProd (xarr3 V c) (warr3 V c) (((cfg3.win 2).blk t).view.emb j)
  rw [tileMM_apply, rowProd_apply]
  refine Finset.sum_congr rfl fun k _ => ?_
  show xarr3 V c (((cfg3.win 0).blk t).view.emb (ix2 (j 0) k)) * warr3 V c (((cfg3.win 1).blk t).view.emb (ix2 k (j 1)))
    = xarr3 V c (ix2 ((((cfg3.win 2).blk t).view.emb j) 0) k) * warr3 V c (ix2 k ((((cfg3.win 2).blk t).view.emb j) 1))
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 128 + 1 * k.val = k.val; omega
    | ⟨1, _⟩ => show win3_1.index t (1 : Fin 2) * 256 + 1 * (j 1).val = win3_2.index t (1 : Fin 2) * 256 + 1 * (j 1).val; omega
  exact congrArg₂ (· * ·) (congrArg (xarr3 V c) h0) (congrArg (warr3 V c) h1)

/-- An index of the product array is in point t's block iff each coordinate is in the block's range on its axis. -/
theorem mem_blk3 (t : Fin cfg3.N) (i : S140000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v15).slice (win3_2.rect t)).set ↔ _
  rw [View.set_slice_whole, Rect.mem_set_unit]
  exact Iff.rfl

/-- Every index of the product array is in some point's block: row r in the block of point r / 5000. -/
theorem covered3 (i : S140000x256.Idx) :
    ∃ t : Fin cfg3.N, (cfg3.win 2).flush t = true ∧ i ∈ ((cfg3.win 2).blk t).view.set := by
  have hi0 : (i 0).val < 140000 := (i 0).isLt
  have hi1 : (i 1).val < 256 := (i 1).isLt
  have hN : cfg3.N = 28 := N_3
  have ht : (i 0).val / 5000 < cfg3.N := by rw [hN]; omega
  refine ⟨⟨(i 0).val / 5000, ht⟩, flush3_2 _, ?_⟩
  rw [mem_blk3]
  obtain ⟨e0, e1, e2, e3, e4, e5⟩ := idx_facts3 ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 256 ≤ (i 1).val ∧ (i 1).val < win3_2.index ⟨(i 0).val / 5000, ht⟩ (1 : Fin 2) * 256 + 256
    rw [e5]; omega

/-- The array region 3's write-backs leave is the product of the two matrices it was entered with. -/
theorem arrAt3 (c : Dev nD) : (dat3 V c).arrAt 2 cfg3.N = rowProd (xarr3 V c) (warr3 V c) :=
  (dat3 V c).arrAt_eq_of_cover 2 (rowProd (xarr3 V c) (warr3 V c)) (fun t _ => flushed3_eq V c t) (covered3)

end Cert.KernelIdeal.Fr

end
-- ==== Proof.KI.Value4.lean ====
/-
  Region 4 at the exact values: the array its write-backs leave is the product of the row matrix and the weight matrix it
  was entered with. Grid point t writes back rows 5000 t to 5000 t + 4999 of that product (its row tile is those rows of
  the row matrix, its weights the whole weight matrix, and a tile's product entry is the sum over k of x(r, k) w(k, c));
  row r of the array lies in the tile of point r / 5000, so the tiles cover the array.
-/
import proofs.«136918_j48060684042913_1_alg».proof.Proof.KI.Region4
import proofs.«136918_j48060684042913_1_alg».proof.Proof.KI.Tile
import proofs.«136918_j48060684042913_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

-- the arrays' contents when the region is entered, at the exact values
variable (V : (c : Dev nD) → (b : Ref sig .tc) → Buf (Elt Ideal) ((c : Thread nD τ).loc b))

/-- The row matrix and the weight matrix region 4 is entered with. -/
abbrev xarr4 (c : Dev nD) : S180000x128.Idx → EReal := V c main_v16
abbrev warr4 (c : Dev nD) : S128x256.Idx → EReal := V c main_v18

theorem hz4 : (![0, 0] : Fin 2 → Nat) = fun _ => 0 := funext fun a => by fin_cases a <;> rfl

/-- The three index maps over the grid: the row tile and the output tile move together down the rows, one tile a point;
    the weights' block never moves. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What grid point t writes back is its block of the product of the two matrices the region was entered with. -/
theorem flushed4_eq (c : Dev nD) (t : Fin cfg4.N) :
    (dat4 V c).flushed 2 t = ((cfg4.win 2).blk t).view.read (Elt Ideal) (rowProd (xarr4 V c) (warr4 V c)) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x256) hz4]
  obtain ⟨e0, e1, e2, e3, e4, e5⟩ := idx_facts4 t
  funext j
  show tileMM (iblk4 V c 0 t) (iblk4 V c 1 t) j = rowProd (xarr4 V c) (warr4 V c) (((cfg4.win 2).blk t).view.emb j)
  rw [tileMM_apply, rowProd_apply]
  refine Finset.sum_congr rfl fun k _ => ?_
  show xarr4 V c (((cfg4.win 0).blk t).view.emb (ix2 (j 0) k)) * warr4 V c (((cfg4.win 1).blk t).view.emb (ix2 k (j 1)))
    = xarr4 V c (ix2 ((((cfg4.win 2).blk t).view.emb j) 0) k) * warr4 V c (ix2 k ((((cfg4.win 2).blk t).view.emb j) 1))
  have h0 : ((cfg4.win 0).blk t).view.emb (ix2 (j 0) k) = ix2 ((((cfg4.win 2).blk t).view.emb j) 0) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (ix2 k (j 1)) = ix2 k ((((cfg4.win 2).blk t).view.emb j) 1) := by
    funext a; apply Fin.ext
    match a with
    | ⟨0, _⟩ => show win4_1.index t (0 : Fin 2) * 128 + 1 * k.val = k.val; omega
    | ⟨1, _⟩ => show win4_1.index t (1 : Fin 2) * 256 + 1 * (j 1).val = win4_2.index t (1 : Fin 2) * 256 + 1 * (j 1).val; omega
  exact congrArg₂ (· * ·) (congrArg (xarr4 V c) h0) (congrArg (warr4 V c) h1)

/-- An index of the product array is in point t's block iff each coordinate is in the block's range on its axis. -/
theorem mem_blk4 (t : Fin cfg4.N) (i : S180000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v19).slice (win4_2.rect t)).set ↔ _
  rw [View.set_slice_whole, Rect.mem_set_unit]
  exact Iff.rfl

/-- Every index of the product array is in some point's block: row r in the block of point r / 5000. -/
theorem covered4 (i : S180000x256.Idx) :
    ∃ t : Fin cfg4.N, (cfg4.win 2).flush t = true ∧ i ∈ ((cfg4.win 2).blk t).view.set := by
  have hi0 : (i 0).val < 180000 := (i 0).isLt
  have hi1 : (i 1).val < 256 := (i 1).isLt
  have hN : cfg4.N = 36 := N_4
  have ht : (i 0).val / 5000 < cfg4.N := by rw [hN]; omega
  refine ⟨⟨(i 0).val / 5000, ht⟩, flush4_2 _, ?_⟩
  rw [mem_blk4]
  obtain ⟨e0, e1, e2, e3, e4, e5⟩ := idx_facts4 ⟨(i 0).val / 5000, ht⟩
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 256 ≤ (i 1).val ∧ (i 1).val < win4_2.index ⟨(i 0).val / 5000, ht⟩ (1 : Fin 2) * 256 + 256
    rw [e5]; omega

/-- The array region 4's write-backs leave is the product of the two matrices it was entered with. -/
theorem arrAt4 (c : Dev nD) : (dat4 V c).arrAt 2 cfg4.N = rowProd (xarr4 V c) (warr4 V c) :=
  (dat4 V c).arrAt_eq_of_cover 2 (rowProd (xarr4 V c) (warr4 V c)) (fun t _ => flushed4_eq V c t) (covered4)

end Cert.KernelIdeal.Fr

end
-- ==== Proof.KI.Value5.lean ====
/-
  Region 5 at the exact values: the array its write-backs leave is the product of the row matrix and the weight matrix it
  was entered with. Grid point t writes back rows 5000 t to 5000 t + 4999 of that product (its row tile is those rows of
  the row matrix, its weights the whole weight matrix, and a tile's product entry is the sum over k of x(r, k) w(k, c));
  row r of the array lies in the tile of point r / 5000, so the tiles cover the array.
-/
import proofs.«136918_j48060684042913_1_alg».proof.Proof.KI.Region5
import proofs.«136918_j48060684042913_1_alg».proof.Proof.KI.Tile
import proofs.«136918_j48060684042913_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

-- the arrays' contents when the region is entered, at the exact values
variable (V : (c : Dev nD) → (b : Ref sig .tc) → Buf (Elt Ideal) ((c : Thread nD τ).loc b))

/-- The row matrix and the weight matrix region 5 is entered with. -/
abbrev xarr5 (c : Dev nD) : S220000x128.Idx → EReal := V c main_v20
abbrev warr5 (c : Dev nD) : S128x256.Idx → EReal := V c main_v22

theorem hz5 : (![0, 0] : Fin 2 → Nat) = fun _ => 0 := funext fun a => by fin_cases a <;> rfl

/-- The three index maps over the grid: the row tile and the output tile move together down the rows, one tile a point;
    the weights' block never moves. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What grid point t writes back is its block of the product of the two matrices the region was entered with. -/
theorem flushed5_eq (c : Dev nD) (t : Fin cfg5.N) :
    (dat5 V c).flushed 2 t = ((cfg5.win 2).blk t).view.read (Elt Ideal) (rowProd (xarr5 V c) (warr5 V c)) := by
  show (cfg5.win 2).cut (grid5.coords t) ((dat5 V c).after 2 t) = _
  rw [after5_2]
  unfold out5_2
  rw [View.canon_unit_zero hz5]
  simp only [View.ld_unit_zero (S := S5000x128) hz5, View.ld_unit_zero (S := S128x256) hz5]
  obtain ⟨e0, e1, e2, e3, e4, e5⟩ := idx_facts5 t
  funext j
  show tileMM (iblk5 V c 0 t) (iblk5 V c 1 t) j = rowProd (xarr5 V c) (warr5 V c) (((cfg5.win 2).blk t).view.emb j)
  rw [tileMM_apply, rowProd_apply]
  refine Finset.sum_congr rfl fun k _ => ?_
  show xarr5 V c (((cfg5.win 0).blk t).view.emb (ix2 (j 0) k)) * warr5 V c (((cfg5.win 1).blk t).view.emb (ix2 k (j 1)))
    = xarr5 V c (ix2 ((((cfg5.win 2).blk t).view.emb j) 0) k) * warr5 V c (ix2 k ((((cfg5.win 2).blk t).view.emb j) 1))
  have h0 : ((cfg5.win 0).blk t).view.emb (ix2 (j 0) k) = ix2 ((((cfg5.win 2).blk t).view.emb j) 0) k := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * k.val = k.val; omega
  have h1 : ((cfg5.win 1).blk t).view.emb (ix2 k (j 1)) = ix2 k ((((cfg5.win 2).blk t).view.emb j) 1) := by
    funext a; apply Fin.ext
    match a with
    | ⟨0, _⟩ => show win5_1.index t (0 : Fin 2) * 128 + 1 * k.val = k.val; omega
    | ⟨1, _⟩ => show win5_1.index t (1 : Fin 2) * 256 + 1 * (j 1).val = win5_2.index t (1 : Fin 2) * 256 + 1 * (j 1).val; omega
  exact congrArg₂ (· * ·) (congrArg (xarr5 V c) h0) (congrArg (warr5 V c) h1)

/-- An index of the product array is in point t's block iff each coordinate is in the block's range on its axis. -/
theorem mem_blk5 (t : Fin cfg5.N) (i : S220000x256.Idx) :
    i ∈ ((cfg5.win 2).blk t).view.set ↔ ∀ a : Fin 2, win5_2.index t a * S5000x256.size a ≤ (i a).val ∧ (i a).val < win5_2.index t a * S5000x256.size a + S5000x256.size a := by
  show i ∈ ((View.whole main_v23).slice (win5_2.rect t)).set ↔ _
  rw [View.set_slice_whole, Rect.mem_set_unit]
  exact Iff.rfl

/-- Every index of the product array is in some point's block: row r in the block of point r / 5000. -/
theorem covered5 (i : S220000x256.Idx) :
    ∃ t : Fin cfg5.N, (cfg5.win 2).flush t = true ∧ i ∈ ((cfg5.win 2).blk t).view.set := by
  have hi0 : (i 0).val < 220000 := (i 0).isLt
  have hi1 : (i 1).val < 256 := (i 1).isLt
  have hN : cfg5.N = 44 := N_5
  have ht : (i 0).val / 5000 < cfg5.N := by rw [hN]; omega
  refine ⟨⟨(i 0).val / 5000, ht⟩, flush5_2 _, ?_⟩
  rw [mem_blk5]
  obtain ⟨e0, e1, e2, e3, e4, e5⟩ := idx_facts5 ⟨(i 0).val / 5000, ht⟩
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 256 ≤ (i 1).val ∧ (i 1).val < win5_2.index ⟨(i 0).val / 5000, ht⟩ (1 : Fin 2) * 256 + 256
    rw [e5]; omega

/-- The array region 5's write-backs leave is the product of the two matrices it was entered with. -/
theorem arrAt5 (c : Dev nD) : (dat5 V c).arrAt 2 cfg5.N = rowProd (xarr5 V c) (warr5 V c) :=
  (dat5 V c).arrAt_eq_of_cover 2 (rowProd (xarr5 V c) (warr5 V c)) (fun t _ => flushed5_eq V c t) (covered5)

end Cert.KernelIdeal.Fr

end
-- ==== Proof.KI.Final.lean ====
/-
  The value of the whole program at the exact values. At the end of the run the result array is the concatenation, along
  the rows, of the six product arrays; product array l is left by region l and kept by every later item; by the region's
  value it is the product of the two matrices the region was entered with; and those are block l's argument array with
  (sample, component) flattened to rows, and slice l of the weight array as a 128 by 256 matrix.
-/
import proofs.«136918_j48060684042913_1_alg».proof.Proof.KI.Run
import proofs.«136918_j48060684042913_1_alg».proof.Proof.KI.Value0
import proofs.«136918_j48060684042913_1_alg».proof.Proof.KI.Value1
import proofs.«136918_j48060684042913_1_alg».proof.Proof.KI.Value2
import proofs.«136918_j48060684042913_1_alg».proof.Proof.KI.Value3
import proofs.«136918_j48060684042913_1_alg».proof.Proof.KI.Value4
import proofs.«136918_j48060684042913_1_alg».proof.Proof.KI.Value5

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Cert.Spec

variable (m : (ℓ : Loc nD τ sig) → Buf (Elt Ideal) ℓ) (ρ : Dev nD → PrngReg)

/-! ## The blocks' matrices, as functions of the launch memory -/

abbrev blockX0 (c : Dev nD) : S20000x128.Idx → EReal := shapeCast S20000x128 (m ((c : Thread nD τ).loc main_arg0)) shapeCasts_S20000x1x128_S20000x128
abbrev blockX1 (c : Dev nD) : S60000x128.Idx → EReal := shapeCast S60000x128 (m ((c : Thread nD τ).loc main_arg1)) shapeCasts_S20000x3x128_S60000x128
abbrev blockX2 (c : Dev nD) : S100000x128.Idx → EReal := shapeCast S100000x128 (m ((c : Thread nD τ).loc main_arg2)) shapeCasts_S20000x5x128_S100000x128
abbrev blockX3 (c : Dev nD) : S140000x128.Idx → EReal := shapeCast S140000x128 (m ((c : Thread nD τ).loc main_arg3)) shapeCasts_S20000x7x128_S140000x128
abbrev blockX4 (c : Dev nD) : S180000x128.Idx → EReal := shapeCast S180000x128 (m ((c : Thread nD τ).loc main_arg4)) shapeCasts_S20000x9x128_S180000x128
abbrev blockX5 (c : Dev nD) : S220000x128.Idx → EReal := shapeCast S220000x128 (m ((c : Thread nD τ).loc main_arg5)) shapeCasts_S20000x11x128_S220000x128

abbrev blockW0 (c : Dev nD) : S128x256.Idx → EReal := shapeCast S128x256 (extractStridedSlice S1x128x256 ![0, 0, 0] (m ((c : Thread nD τ).loc main_arg6)) slices_S6x128x256_S1x128x256_0_0_0) shapeCasts_S1x128x256_S128x256
abbrev blockW1 (c : Dev nD) : S128x256.Idx → EReal := shapeCast S128x256 (extractStridedSlice S1x128x256 ![1, 0, 0] (m ((c : Thread nD τ).loc main_arg6)) slices_S6x128x256_S1x128x256_1_0_0) shapeCasts_S1x128x256_S128x256
abbrev blockW2 (c : Dev nD) : S128x256.Idx → EReal := shapeCast S128x256 (extractStridedSlice S1x128x256 ![2, 0, 0] (m ((c : Thread nD τ).loc main_arg6)) slices_S6x128x256_S1x128x256_2_0_0) shapeCasts_S1x128x256_S128x256
abbrev blockW3 (c : Dev nD) : S128x256.Idx → EReal := shapeCast S128x256 (extractStridedSlice S1x128x256 ![3, 0, 0] (m ((c : Thread nD τ).loc main_arg6)) slices_S6x128x256_S1x128x256_3_0_0) shapeCasts_S1x128x256_S128x256
abbrev blockW4 (c : Dev nD) : S128x256.Idx → EReal := shapeCast S128x256 (extractStridedSlice S1x128x256 ![4, 0, 0] (m ((c : Thread nD τ).loc main_arg6)) slices_S6x128x256_S1x128x256_4_0_0) shapeCasts_S1x128x256_S128x256
abbrev blockW5 (c : Dev nD) : S128x256.Idx → EReal := shapeCast S128x256 (extractStridedSlice S1x128x256 ![5, 0, 0] (m ((c : Thread nD τ).loc main_arg6)) slices_S6x128x256_S1x128x256_5_0_0) shapeCasts_S1x128x256_S128x256

/-! ## Each product array at the end of the sixth region -/

theorem piece0 (c : Dev nD) : exitW5 m ρ c (Proc.devRef .tc main_v3) = rowProd (blockX0 m c) (blockW0 m c) :=
  (stepW5_out m ρ c main_v3 (by decide) (by decide)).trans <| (stepW4_out m ρ c main_v3 (by decide) (by decide)).trans <|
  (stepW3_out m ρ c main_v3 (by decide) (by decide)).trans <| (stepW2_out m ρ c main_v3 (by decide) (by decide)).trans <|
  (stepW1_out m ρ c main_v3 (by decide) (by decide)).trans <| (exitW0_arr m ρ c 2).trans <| (arrAt0 (entry0 m ρ) c).trans <| by
    show rowProd (entry0 m ρ c main_v0) (entry0 m ρ c main_v2) = _
    rw [entry0_x, entry0_w]

theorem piece1 (c : Dev nD) : exitW5 m ρ c (Proc.devRef .tc main_v7) = rowProd (blockX1 m c) (blockW1 m c) :=
  (stepW5_out m ρ c main_v7 (by decide) (by decide)).trans <| (stepW4_out m ρ c main_v7 (by decide) (by decide)).trans <|
  (stepW3_out m ρ c main_v7 (by decide) (by decide)).trans <| (stepW2_out m ρ c main_v7 (by decide) (by decide)).trans <|
  (exitW1_arr m ρ c 2).trans <| (arrAt1 (entry1 m ρ) c).trans <| by
    show rowProd (entry1 m ρ c main_v4) (entry1 m ρ c main_v6) = _
    rw [entry1_x, entry1_w]

theorem piece2 (c : Dev nD) : exitW5 m ρ c (Proc.devRef .tc main_v11) = rowProd (blockX2 m c) (blockW2 m c) :=
  (stepW5_out m ρ c main_v11 (by decide) (by decide)).trans <| (stepW4_out m ρ c main_v11 (by decide) (by decide)).trans <|
  (stepW3_out m ρ c main_v11 (by decide) (by decide)).trans <|
  (exitW2_arr m ρ c 2).trans <| (arrAt2 (entry2 m ρ) c).trans <| by
    show rowProd (entry2 m ρ c main_v8) (entry2 m ρ c main_v10) = _
    rw [entry2_x, entry2_w]

theorem piece3 (c : Dev nD) : exitW5 m ρ c (Proc.devRef .tc main_v15) = rowProd (blockX3 m c) (blockW3 m c) :=
  (stepW5_out m ρ c main_v15 (by decide) (by decide)).trans <| (stepW4_out m ρ c main_v15 (by decide) (by decide)).trans <|
  (exitW3_arr m ρ c 2).trans <| (arrAt3 (entry3 m ρ) c).trans <| by
    show rowProd (entry3 m ρ c main_v12) (entry3 m ρ c main_v14) = _
    rw [entry3_x, entry3_w]

theorem piece4 (c : Dev nD) : exitW5 m ρ c (Proc.devRef .tc main_v19) = rowProd (blockX4 m c) (blockW4 m c) :=
  (stepW5_out m ρ c main_v19 (by decide) (by decide)).trans <|
  (exitW4_arr m ρ c 2).trans <| (arrAt4 (entry4 m ρ) c).trans <| by
    show rowProd (entry4 m ρ c main_v16) (entry4 m ρ c main_v18) = _
    rw [entry4_x, entry4_w]

theorem piece5 (c : Dev nD) : exitW5 m ρ c (Proc.devRef .tc main_v23) = rowProd (blockX5 m c) (blockW5 m c) :=
  (exitW5_arr m ρ c 2).trans <| (arrAt5 (entry5 m ρ) c).trans <| by
    show rowProd (entry5 m ρ c main_v20) (entry5 m ρ c main_v22) = _
    rw [entry5_x, entry5_w]

/-! ## The result array -/

/-- The program's result as a function of the launch memory: the six blocks' products, concatenated along the rows. -/
def result (c : Dev nD) : S720000x256.Idx → EReal :=
  concatenate S720000x256 0 [⟨S20000x256, rowProd (blockX0 m c) (blockW0 m c)⟩, ⟨S60000x256, rowProd (blockX1 m c) (blockW1 m c)⟩,
    ⟨S100000x256, rowProd (blockX2 m c) (blockW2 m c)⟩, ⟨S140000x256, rowProd (blockX3 m c) (blockW3 m c)⟩,
    ⟨S180000x256, rowProd (blockX4 m c) (blockW4 m c)⟩, ⟨S220000x256, rowProd (blockX5 m c) (blockW5 m c)⟩]
    concatenates_S20000x256_S60000x256_S100000x256_S140000x256_S180000x256_S220000x256_S720000x256_d0

theorem final_result (c : Dev nD) : finalW m ρ c (Proc.devRef .tc main_v24) = result m c := by
  have e : finalW m ρ c (Proc.devRef .tc main_v24) = concatenate S720000x256 0 [⟨S20000x256, exitW5 m ρ c (Proc.devRef .tc main_v3)⟩,
      ⟨S60000x256, exitW5 m ρ c (Proc.devRef .tc main_v7)⟩, ⟨S100000x256, exitW5 m ρ c (Proc.devRef .tc main_v11)⟩,
      ⟨S140000x256, exitW5 m ρ c (Proc.devRef .tc main_v15)⟩, ⟨S180000x256, exitW5 m ρ c (Proc.devRef .tc main_v19)⟩,
      ⟨S220000x256, exitW5 m ρ c (Proc.devRef .tc main_v23)⟩]
      concatenates_S20000x256_S60000x256_S100000x256_S140000x256_S180000x256_S220000x256_S720000x256_d0 := by
    show StableHlo.after hostOps6 (exitW5 m ρ c) (Proc.devRef .tc main_v24) = _
    after_results
    rfl
  rw [e, piece0 m ρ c, piece1 m ρ c, piece2 m ρ c, piece3 m ρ c, piece4 m ρ c, piece5 m ρ c]
  rfl

/-- Every weakly fair execution terminates without a fault with the result array at the concatenated products and the
    seven argument arrays as launched. -/
theorem run_value : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v24 (by decide))).trans (final_result m ρ c),
     (h c _ (mem_uc main_arg0 (by decide))).trans (kept_arg m ρ c main_arg0 (by decide)),
     (h c _ (mem_uc main_arg1 (by decide))).trans (kept_arg m ρ c main_arg1 (by decide)),
     (h c _ (mem_uc main_arg2 (by decide))).trans (kept_arg m ρ c main_arg2 (by decide)),
     (h c _ (mem_uc main_arg3 (by decide))).trans (kept_arg m ρ c main_arg3 (by decide)),
     (h c _ (mem_uc main_arg4 (by decide))).trans (kept_arg m ρ c main_arg4 (by decide)),
     (h c _ (mem_uc main_arg5 (by decide))).trans (kept_arg m ρ c main_arg5 (by decide)),
     (h c _ (mem_uc main_arg6 (by decide))).trans (kept_arg m ρ c main_arg6 (by decide))⟩) (run_all m ρ)

end Cert.KernelIdeal.Fr

end
-- ==== Proof.RefPiece0.lean ====
/-
  Block 0 of the reference at the exact values. The reference contracts the (samples, components, 128) array with the
  128 by 256 weights over the last axis and flattens (sample, component) to one row index r = sample * components + component.
  Entry (r, c) of the flattened result is therefore the sum over k of x(r / components, r % components, k) w(k, c), which is
  the product of the flattened array (rows r, 128 columns) with the weights.
-/
import proofs.«136918_j48060684042913_1_alg».proof.Proof.Gen.ReferenceIdeal.Read
import proofs.«136918_j48060684042913_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- Row r of the flattened block is sample r / components, component r % components. -/
abbrev src0 (i : S20000x256.Idx) : S20000x1x256.Idx :=
  ix3 ⟨(i 0).val / 1, by have h0 : (i 0).val < 20000 := (i 0).isLt; show (i 0).val / 1 < 20000; omega⟩
    ⟨(i 0).val % 1, by show (i 0).val % 1 < 1; omega⟩ (i 1)

/-- Block 0 of the reference is the product of the flattened array with the block's weights. -/
theorem refpiece0 (x : (⟨S20000x1x128, .f32⟩ : BufTy).Contents (Elt Ideal)) (x6 : (⟨S6x128x256, .f32⟩ : BufTy).Contents (Elt Ideal))
    (h : S20000x1x128.ShapeCasts (⟨2, ![20000, 128]⟩ : Shape)) :
    val_main_v3 (F := Ideal) x x6 = rowProd (shapeCast (⟨2, ![20000, 128]⟩ : Shape) x h) (val_main_v1 (F := Ideal) x6) := by
  funext i
  have h0 : (i 0).val < 20000 := (i 0).isLt
  have h1 : (i 1).val < 256 := (i 1).isLt
  have e3 : val_main_v3 (F := Ideal) x x6 i = val_main_v2 (F := Ideal) x x6 (src0 i) := by
    unfold val_main_v3
    generalize val_main_v2 (F := Ideal) x x6 = y
    exact shapeCast_apply y shapeCasts_S20000x1x256_S20000x256 i (src0 i)
      (by rewrite [Shape.rowMajor_val_three, Shape.rowMajor_val_two]
          show ((i 0).val / 1 * 1 + (i 0).val % 1) * 256 + (i 1).val = (i 0).val * 256 + (i 1).val
          omega)
  rw [e3, val_main_v2_apply, rowProd_apply]
  refine Finset.sum_congr rfl fun k _ => ?_
  have ex : x (lidx_main_v2 (src0 i) k) = shapeCast (⟨2, ![20000, 128]⟩ : Shape) x h (ix2 (i 0) k) := by
    refine (shapeCast_apply x h (ix2 (i 0) k) (lidx_main_v2 (src0 i) k) ?_).symm
    rewrite [Shape.rowMajor_val_three, Shape.rowMajor_val_two]
    show ((i 0).val / 1 * 1 + (i 0).val % 1) * 128 + k.val = (i 0).val * 128 + k.val
    omega
  have ew : ridx_main_v2 (src0 i) k = ix2 k (i 1) := funext fun a => Fin.ext (by
    match a with
    | ⟨0, _⟩ => rfl
    | ⟨1, _⟩ => rfl)
  exact congrArg₂ (· * ·) ex (congrArg (val_main_v1 (F := Ideal) x6) ew)

end Cert.ReferenceIdeal.RefValue

end
-- ==== Proof.RefPiece1.lean ====
/-
  Block 1 of the reference at the exact values. The reference contracts the (samples, components, 128) array with the
  128 by 256 weights over the last axis and flattens (sample, component) to one row index r = sample * components + component.
  Entry (r, c) of the flattened result is therefore the sum over k of x(r / components, r % components, k) w(k, c), which is
  the product of the flattened array (rows r, 128 columns) with the weights.
-/
import proofs.«136918_j48060684042913_1_alg».proof.Proof.Gen.ReferenceIdeal.Read
import proofs.«136918_j48060684042913_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- Row r of the flattened block is sample r / components, component r % components. -/
abbrev src1 (i : S60000x256.Idx) : S20000x3x256.Idx :=
  ix3 ⟨(i 0).val / 3, by have h0 : (i 0).val < 60000 := (i 0).isLt; show (i 0).val / 3 < 20000; omega⟩
    ⟨(i 0).val % 3, by show (i 0).val % 3 < 3; omega⟩ (i 1)

/-- Block 1 of the reference is the product of the flattened array with the block's weights. -/
theorem refpiece1 (x : (⟨S20000x3x128, .f32⟩ : BufTy).Contents (Elt Ideal)) (x6 : (⟨S6x128x256, .f32⟩ : BufTy).Contents (Elt Ideal))
    (h : S20000x3x128.ShapeCasts (⟨2, ![60000, 128]⟩ : Shape)) :
    val_main_v7 (F := Ideal) x x6 = rowProd (shapeCast (⟨2, ![60000, 128]⟩ : Shape) x h) (val_main_v5 (F := Ideal) x6) := by
  funext i
  have h0 : (i 0).val < 60000 := (i 0).isLt
  have h1 : (i 1).val < 256 := (i 1).isLt
  have e3 : val_main_v7 (F := Ideal) x x6 i = val_main_v6 (F := Ideal) x x6 (src1 i) := by
    unfold val_main_v7
    generalize val_main_v6 (F := Ideal) x x6 = y
    exact shapeCast_apply y shapeCasts_S20000x3x256_S60000x256 i (src1 i)
      (by rewrite [Shape.rowMajor_val_three, Shape.rowMajor_val_two]
          show ((i 0).val / 3 * 3 + (i 0).val % 3) * 256 + (i 1).val = (i 0).val * 256 + (i 1).val
          omega)
  rw [e3, val_main_v6_apply, rowProd_apply]
  refine Finset.sum_congr rfl fun k _ => ?_
  have ex : x (lidx_main_v6 (src1 i) k) = shapeCast (⟨2, ![60000, 128]⟩ : Shape) x h (ix2 (i 0) k) := by
    refine (shapeCast_apply x h (ix2 (i 0) k) (lidx_main_v6 (src1 i) k) ?_).symm
    rewrite [Shape.rowMajor_val_three, Shape.rowMajor_val_two]
    show ((i 0).val / 3 * 3 + (i 0).val % 3) * 128 + k.val = (i 0).val * 128 + k.val
    omega
  have ew : ridx_main_v6 (src1 i) k = ix2 k (i 1) := funext fun a => Fin.ext (by
    match a with
    | ⟨0, _⟩ => rfl
    | ⟨1, _⟩ => rfl)
  exact congrArg₂ (· * ·) ex (congrArg (val_main_v5 (F := Ideal) x6) ew)

end Cert.ReferenceIdeal.RefValue

end
-- ==== Proof.RefPiece2.lean ====
/-
  Block 2 of the reference at the exact values. The reference contracts the (samples, components, 128) array with the
  128 by 256 weights over the last axis and flattens (sample, component) to one row index r = sample * components + component.
  Entry (r, c) of the flattened result is therefore the sum over k of x(r / components, r % components, k) w(k, c), which is
  the product of the flattened array (rows r, 128 columns) with the weights.
-/
import proofs.«136918_j48060684042913_1_alg».proof.Proof.Gen.ReferenceIdeal.Read
import proofs.«136918_j48060684042913_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- Row r of the flattened block is sample r / components, component r % components. -/
abbrev src2 (i : S100000x256.Idx) : S20000x5x256.Idx :=
  ix3 ⟨(i 0).val / 5, by have h0 : (i 0).val < 100000 := (i 0).isLt; show (i 0).val / 5 < 20000; omega⟩
    ⟨(i 0).val % 5, by show (i 0).val % 5 < 5; omega⟩ (i 1)

/-- Block 2 of the reference is the product of the flattened array with the block's weights. -/
theorem refpiece2 (x : (⟨S20000x5x128, .f32⟩ : BufTy).Contents (Elt Ideal)) (x6 : (⟨S6x128x256, .f32⟩ : BufTy).Contents (Elt Ideal))
    (h : S20000x5x128.ShapeCasts (⟨2, ![100000, 128]⟩ : Shape)) :
    val_main_v11 (F := Ideal) x x6 = rowProd (shapeCast (⟨2, ![100000, 128]⟩ : Shape) x h) (val_main_v9 (F := Ideal) x6) := by
  funext i
  have h0 : (i 0).val < 100000 := (i 0).isLt
  have h1 : (i 1).val < 256 := (i 1).isLt
  have e3 : val_main_v11 (F := Ideal) x x6 i = val_main_v10 (F := Ideal) x x6 (src2 i) := by
    unfold val_main_v11
    generalize val_main_v10 (F := Ideal) x x6 = y
    exact shapeCast_apply y shapeCasts_S20000x5x256_S100000x256 i (src2 i)
      (by rewrite [Shape.rowMajor_val_three, Shape.rowMajor_val_two]
          show ((i 0).val / 5 * 5 + (i 0).val % 5) * 256 + (i 1).val = (i 0).val * 256 + (i 1).val
          omega)
  rw [e3, val_main_v10_apply, rowProd_apply]
  refine Finset.sum_congr rfl fun k _ => ?_
  have ex : x (lidx_main_v10 (src2 i) k) = shapeCast (⟨2, ![100000, 128]⟩ : Shape) x h (ix2 (i 0) k) := by
    refine (shapeCast_apply x h (ix2 (i 0) k) (lidx_main_v10 (src2 i) k) ?_).symm
    rewrite [Shape.rowMajor_val_three, Shape.rowMajor_val_two]
    show ((i 0).val / 5 * 5 + (i 0).val % 5) * 128 + k.val = (i 0).val * 128 + k.val
    omega
  have ew : ridx_main_v10 (src2 i) k = ix2 k (i 1) := funext fun a => Fin.ext (by
    match a with
    | ⟨0, _⟩ => rfl
    | ⟨1, _⟩ => rfl)
  exact congrArg₂ (· * ·) ex (congrArg (val_main_v9 (F := Ideal) x6) ew)

end Cert.ReferenceIdeal.RefValue

end
-- ==== Proof.RefPiece3.lean ====
/-
  Block 3 of the reference at the exact values. The reference contracts the (samples, components, 128) array with the
  128 by 256 weights over the last axis and flattens (sample, component) to one row index r = sample * components + component.
  Entry (r, c) of the flattened result is therefore the sum over k of x(r / components, r % components, k) w(k, c), which is
  the product of the flattened array (rows r, 128 columns) with the weights.
-/
import proofs.«136918_j48060684042913_1_alg».proof.Proof.Gen.ReferenceIdeal.Read
import proofs.«136918_j48060684042913_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- Row r of the flattened block is sample r / components, component r % components. -/
abbrev src3 (i : S140000x256.Idx) : S20000x7x256.Idx :=
  ix3 ⟨(i 0).val / 7, by have h0 : (i 0).val < 140000 := (i 0).isLt; show (i 0).val / 7 < 20000; omega⟩
    ⟨(i 0).val % 7, by show (i 0).val % 7 < 7; omega⟩ (i 1)

/-- Block 3 of the reference is the product of the flattened array with the block's weights. -/
theorem refpiece3 (x : (⟨S20000x7x128, .f32⟩ : BufTy).Contents (Elt Ideal)) (x6 : (⟨S6x128x256, .f32⟩ : BufTy).Contents (Elt Ideal))
    (h : S20000x7x128.ShapeCasts (⟨2, ![140000, 128]⟩ : Shape)) :
    val_main_v15 (F := Ideal) x x6 = rowProd (shapeCast (⟨2, ![140000, 128]⟩ : Shape) x h) (val_main_v13 (F := Ideal) x6) := by
  funext i
  have h0 : (i 0).val < 140000 := (i 0).isLt
  have h1 : (i 1).val < 256 := (i 1).isLt
  have e3 : val_main_v15 (F := Ideal) x x6 i = val_main_v14 (F := Ideal) x x6 (src3 i) := by
    unfold val_main_v15
    generalize val_main_v14 (F := Ideal) x x6 = y
    exact shapeCast_apply y shapeCasts_S20000x7x256_S140000x256 i (src3 i)
      (by rewrite [Shape.rowMajor_val_three, Shape.rowMajor_val_two]
          show ((i 0).val / 7 * 7 + (i 0).val % 7) * 256 + (i 1).val = (i 0).val * 256 + (i 1).val
          omega)
  rw [e3, val_main_v14_apply, rowProd_apply]
  refine Finset.sum_congr rfl fun k _ => ?_
  have ex : x (lidx_main_v14 (src3 i) k) = shapeCast (⟨2, ![140000, 128]⟩ : Shape) x h (ix2 (i 0) k) := by
    refine (shapeCast_apply x h (ix2 (i 0) k) (lidx_main_v14 (src3 i) k) ?_).symm
    rewrite [Shape.rowMajor_val_three, Shape.rowMajor_val_two]
    show ((i 0).val / 7 * 7 + (i 0).val % 7) * 128 + k.val = (i 0).val * 128 + k.val
    omega
  have ew : ridx_main_v14 (src3 i) k = ix2 k (i 1) := funext fun a => Fin.ext (by
    match a with
    | ⟨0, _⟩ => rfl
    | ⟨1, _⟩ => rfl)
  exact congrArg₂ (· * ·) ex (congrArg (val_main_v13 (F := Ideal) x6) ew)

end Cert.ReferenceIdeal.RefValue

end
-- ==== Proof.RefPiece4.lean ====
/-
  Block 4 of the reference at the exact values. The reference contracts the (samples, components, 128) array with the
  128 by 256 weights over the last axis and flattens (sample, component) to one row index r = sample * components + component.
  Entry (r, c) of the flattened result is therefore the sum over k of x(r / components, r % components, k) w(k, c), which is
  the product of the flattened array (rows r, 128 columns) with the weights.
-/
import proofs.«136918_j48060684042913_1_alg».proof.Proof.Gen.ReferenceIdeal.Read
import proofs.«136918_j48060684042913_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- Row r of the flattened block is sample r / components, component r % components. -/
abbrev src4 (i : S180000x256.Idx) : S20000x9x256.Idx :=
  ix3 ⟨(i 0).val / 9, by have h0 : (i 0).val < 180000 := (i 0).isLt; show (i 0).val / 9 < 20000; omega⟩
    ⟨(i 0).val % 9, by show (i 0).val % 9 < 9; omega⟩ (i 1)

/-- Block 4 of the reference is the product of the flattened array with the block's weights. -/
theorem refpiece4 (x : (⟨S20000x9x128, .f32⟩ : BufTy).Contents (Elt Ideal)) (x6 : (⟨S6x128x256, .f32⟩ : BufTy).Contents (Elt Ideal))
    (h : S20000x9x128.ShapeCasts (⟨2, ![180000, 128]⟩ : Shape)) :
    val_main_v19 (F := Ideal) x x6 = rowProd (shapeCast (⟨2, ![180000, 128]⟩ : Shape) x h) (val_main_v17 (F := Ideal) x6) := by
  funext i
  have h0 : (i 0).val < 180000 := (i 0).isLt
  have h1 : (i 1).val < 256 := (i 1).isLt
  have e3 : val_main_v19 (F := Ideal) x x6 i = val_main_v18 (F := Ideal) x x6 (src4 i) := by
    unfold val_main_v19
    generalize val_main_v18 (F := Ideal) x x6 = y
    exact shapeCast_apply y shapeCasts_S20000x9x256_S180000x256 i (src4 i)
      (by rewrite [Shape.rowMajor_val_three, Shape.rowMajor_val_two]
          show ((i 0).val / 9 * 9 + (i 0).val % 9) * 256 + (i 1).val = (i 0).val * 256 + (i 1).val
          omega)
  rw [e3, val_main_v18_apply, rowProd_apply]
  refine Finset.sum_congr rfl fun k _ => ?_
  have ex : x (lidx_main_v18 (src4 i) k) = shapeCast (⟨2, ![180000, 128]⟩ : Shape) x h (ix2 (i 0) k) := by
    refine (shapeCast_apply x h (ix2 (i 0) k) (lidx_main_v18 (src4 i) k) ?_).symm
    rewrite [Shape.rowMajor_val_three, Shape.rowMajor_val_two]
    show ((i 0).val / 9 * 9 + (i 0).val % 9) * 128 + k.val = (i 0).val * 128 + k.val
    omega
  have ew : ridx_main_v18 (src4 i) k = ix2 k (i 1) := funext fun a => Fin.ext (by
    match a with
    | ⟨0, _⟩ => rfl
    | ⟨1, _⟩ => rfl)
  exact congrArg₂ (· * ·) ex (congrArg (val_main_v17 (F := Ideal) x6) ew)

end Cert.ReferenceIdeal.RefValue

end
-- ==== Proof.RefPiece5.lean ====
/-
  Block 5 of the reference at the exact values. The reference contracts the (samples, components, 128) array with the
  128 by 256 weights over the last axis and flattens (sample, component) to one row index r = sample * components + component.
  Entry (r, c) of the flattened result is therefore the sum over k of x(r / components, r % components, k) w(k, c), which is
  the product of the flattened array (rows r, 128 columns) with the weights.
-/
import proofs.«136918_j48060684042913_1_alg».proof.Proof.Gen.ReferenceIdeal.Read
import proofs.«136918_j48060684042913_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- Row r of the flattened block is sample r / components, component r % components. -/
abbrev src5 (i : S220000x256.Idx) : S20000x11x256.Idx :=
  ix3 ⟨(i 0).val / 11, by have h0 : (i 0).val < 220000 := (i 0).isLt; show (i 0).val / 11 < 20000; omega⟩
    ⟨(i 0).val % 11, by show (i 0).val % 11 < 11; omega⟩ (i 1)

/-- Block 5 of the reference is the product of the flattened array with the block's weights. -/
theorem refpiece5 (x : (⟨S20000x11x128, .f32⟩ : BufTy).Contents (Elt Ideal)) (x6 : (⟨S6x128x256, .f32⟩ : BufTy).Contents (Elt Ideal))
    (h : S20000x11x128.ShapeCasts (⟨2, ![220000, 128]⟩ : Shape)) :
    val_main_v23 (F := Ideal) x x6 = rowProd (shapeCast (⟨2, ![220000, 128]⟩ : Shape) x h) (val_main_v21 (F := Ideal) x6) := by
  funext i
  have h0 : (i 0).val < 220000 := (i 0).isLt
  have h1 : (i 1).val < 256 := (i 1).isLt
  have e3 : val_main_v23 (F := Ideal) x x6 i = val_main_v22 (F := Ideal) x x6 (src5 i) := by
    unfold val_main_v23
    generalize val_main_v22 (F := Ideal) x x6 = y
    exact shapeCast_apply y shapeCasts_S20000x11x256_S220000x256 i (src5 i)
      (by rewrite [Shape.rowMajor_val_three, Shape.rowMajor_val_two]
          show ((i 0).val / 11 * 11 + (i 0).val % 11) * 256 + (i 1).val = (i 0).val * 256 + (i 1).val
          omega)
  rw [e3, val_main_v22_apply, rowProd_apply]
  refine Finset.sum_congr rfl fun k _ => ?_
  have ex : x (lidx_main_v22 (src5 i) k) = shapeCast (⟨2, ![220000, 128]⟩ : Shape) x h (ix2 (i 0) k) := by
    refine (shapeCast_apply x h (ix2 (i 0) k) (lidx_main_v22 (src5 i) k) ?_).symm
    rewrite [Shape.rowMajor_val_three, Shape.rowMajor_val_two]
    show ((i 0).val / 11 * 11 + (i 0).val % 11) * 128 + k.val = (i 0).val * 128 + k.val
    omega
  have ew : ridx_main_v22 (src5 i) k = ix2 k (i 1) := funext fun a => Fin.ext (by
    match a with
    | ⟨0, _⟩ => rfl
    | ⟨1, _⟩ => rfl)
  exact congrArg₂ (· * ·) ex (congrArg (val_main_v21 (F := Ideal) x6) ew)

end Cert.ReferenceIdeal.RefValue

end
-- ==== Proof.RefValue.lean ====
/-
  The reference program's value at the exact values: six contractions of a (samples, components, 128) array with a 128 by
  256 slice of the weights, each flattened to rows, concatenated along the rows. Each flattened contraction is the product
  of the flattened array with its weights, so the whole result is the concatenation of six row-matrix products.
-/
import proofs.«136918_j48060684042913_1_alg».proof.Proof.RefPiece0
import proofs.«136918_j48060684042913_1_alg».proof.Proof.RefPiece1
import proofs.«136918_j48060684042913_1_alg».proof.Proof.RefPiece2
import proofs.«136918_j48060684042913_1_alg».proof.Proof.RefPiece3
import proofs.«136918_j48060684042913_1_alg».proof.Proof.RefPiece4
import proofs.«136918_j48060684042913_1_alg».proof.Proof.RefPiece5

noncomputable section

namespace Cert.ReferenceIdeal.RefValue

open Cert.ReferenceIdeal Cert.ReferenceIdeal.Gen Cert.ReferenceIdeal.Read Idealize.ShloMosaic Cert.Spec

/-- The reference's result is the concatenation of the six blocks' products. -/
theorem ref_result (x0 : (⟨S20000x1x128, .f32⟩ : BufTy).Contents (Elt Ideal)) (x1 : (⟨S20000x3x128, .f32⟩ : BufTy).Contents (Elt Ideal))
    (x2 : (⟨S20000x5x128, .f32⟩ : BufTy).Contents (Elt Ideal)) (x3 : (⟨S20000x7x128, .f32⟩ : BufTy).Contents (Elt Ideal))
    (x4 : (⟨S20000x9x128, .f32⟩ : BufTy).Contents (Elt Ideal)) (x5 : (⟨S20000x11x128, .f32⟩ : BufTy).Contents (Elt Ideal))
    (x6 : (⟨S6x128x256, .f32⟩ : BufTy).Contents (Elt Ideal))
    (h0 : S20000x1x128.ShapeCasts (⟨2, ![20000, 128]⟩ : Shape)) (h1 : S20000x3x128.ShapeCasts (⟨2, ![60000, 128]⟩ : Shape))
    (h2 : S20000x5x128.ShapeCasts (⟨2, ![100000, 128]⟩ : Shape)) (h3 : S20000x7x128.ShapeCasts (⟨2, ![140000, 128]⟩ : Shape))
    (h4 : S20000x9x128.ShapeCasts (⟨2, ![180000, 128]⟩ : Shape)) (h5 : S20000x11x128.ShapeCasts (⟨2, ![220000, 128]⟩ : Shape)) :
    val_main_v24 (F := Ideal) x0 x1 x2 x3 x4 x5 x6
      = concatenate S720000x256 0 [⟨S20000x256, rowProd (shapeCast (⟨2, ![20000, 128]⟩ : Shape) x0 h0) (val_main_v1 (F := Ideal) x6)⟩,
          ⟨S60000x256, rowProd (shapeCast (⟨2, ![60000, 128]⟩ : Shape) x1 h1) (val_main_v5 (F := Ideal) x6)⟩,
          ⟨S100000x256, rowProd (shapeCast (⟨2, ![100000, 128]⟩ : Shape) x2 h2) (val_main_v9 (F := Ideal) x6)⟩,
          ⟨S140000x256, rowProd (shapeCast (⟨2, ![140000, 128]⟩ : Shape) x3 h3) (val_main_v13 (F := Ideal) x6)⟩,
          ⟨S180000x256, rowProd (shapeCast (⟨2, ![180000, 128]⟩ : Shape) x4 h4) (val_main_v17 (F := Ideal) x6)⟩,
          ⟨S220000x256, rowProd (shapeCast (⟨2, ![220000, 128]⟩ : Shape) x5 h5) (val_main_v21 (F := Ideal) x6)⟩]
          concatenates_S20000x256_S60000x256_S100000x256_S140000x256_S180000x256_S220000x256_S720000x256_d0 := by
  unfold val_main_v24
  rw [refpiece0 x0 x6 h0, refpiece1 x1 x6 h1, refpiece2 x2 x6 h2, refpiece3 x3 x6 h3, refpiece4 x4 x6 h4, refpiece5 x5 x6 h5]

end Cert.ReferenceIdeal.RefValue

end
-- ==== Proof.lean ====
/-
  Both programs compute, for each of six blocks, the product of a row matrix (a block's (samples, components, 128) array with
  sample and component flattened to one row index) with a 128 by 256 slice of the weight array, and concatenate the six
  products along the rows. The kernel program does each product in a region of its own, 5000 rows at a time into a zero
  accumulator, the operands narrowed to a shorter float format first (the identity on exact values); the reference contracts
  the unflattened array and flattens the result. Entry (r, c) of block l is on both sides the sum over k of
  x_l(r, k) w_l(k, c); no law beyond the sum's own commutativity is used, so the inputs' finiteness is never opened.
  The frames of the two kernel programs come from the run of their thirteen items; the reference's from its run; the
  idealization rewrote nothing, so there is nothing to preserve.
-/
import proofs.«136918_j48060684042913_1_alg».proof.Defs
import proofs.«136918_j48060684042913_1_alg».proof.Proof.Gen.Kernel
import proofs.«136918_j48060684042913_1_alg».proof.Proof.Gen.KernelIdeal
import proofs.«136918_j48060684042913_1_alg».proof.Proof.Gen.ReferenceIdeal
import proofs.«136918_j48060684042913_1_alg».proof.Proof.Gen.Pre_finite_inputs
import proofs.«136918_j48060684042913_1_alg».proof.Proof.Gen.ReferenceIdeal.Run
import proofs.«136918_j48060684042913_1_alg».proof.Proof.Gen.ReferenceIdeal.Read
import proofs.«136918_j48060684042913_1_alg».proof.Proof.K.Run
import proofs.«136918_j48060684042913_1_alg».proof.Proof.KI.Final
import proofs.«136918_j48060684042913_1_alg».proof.Proof.RefValue
import Idealize.ShloMosaic.Adequacy
import Idealize.ShloMosaic.Init

noncomputable section

namespace Cert.Proof

open Idealize.ShloMosaic Idealize.SL.Sem

/-- The word-level kernel program runs to the end without a fault and leaves its arguments as launched. -/
theorem frame_k : Cert.frame_Kernel := fun m ρ _ => Cert.Kernel.Fr.frame m ρ

/-- So does the kernel program at the exact values. -/
theorem frame_ki : Cert.frame_KernelIdeal := fun m ρ _ => Cert.KernelIdeal.Fr.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the concatenation of the six blocks' products. -/
theorem algebraic : Cert.algebraic_KernelIdeal_ReferenceIdeal := by
  intro m ρ m' ρ' _ hagree
  refine ⟨fun c => Cert.KernelIdeal.Fr.result m c, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq,
    Cert.ReferenceIdeal.RefValue.ref_result _ _ _ _ _ _ _ Cert.KernelIdeal.Gen.shapeCasts_S20000x1x128_S20000x128
      Cert.KernelIdeal.Gen.shapeCasts_S20000x3x128_S60000x128 Cert.KernelIdeal.Gen.shapeCasts_S20000x5x128_S100000x128
      Cert.KernelIdeal.Gen.shapeCasts_S20000x7x128_S140000x128 Cert.KernelIdeal.Gen.shapeCasts_S20000x9x128_S180000x128
      Cert.KernelIdeal.Gen.shapeCasts_S20000x11x128_S220000x128,
    (hagree c).1, (hagree c).2.1, (hagree c).2.2.1, (hagree c).2.2.2.1, (hagree c).2.2.2.2.1, (hagree c).2.2.2.2.2.1,
    (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
